-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S1600000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 4294867296#32
  let main_v54 : IVec S1600000 32 := broadcastInDim S1600000 ![] bcast_S_S1600000 main_c_20
  let main_v55 : IVec S1600000 1 := cmpi .sge main_arg1 main_v54
  let main_c_21 : IVec S_ 32 := constantI S_ 32 100000#32
  let main_v56 : IVec S1600000 32 := broadcastInDim S1600000 ![] bcast_S_S1600000 main_c_21
  let main_v57 : IVec S1600000 1 := cmpi .slt main_arg1 main_v56
  let main_v58 : IVec S1600000 1 := andi main_v55 main_v57
  let main_c_22 : IVec S_ 1 := constantI S_ 1 1#1
  let main_v59 : IVec S_ 1 := (fun x v => Host.reduce IntOp.andi x v reducesTo_S1600000_S_d0 h_S_) main_v58 main_c_22
  let main_v60 : IVec S_ 1 := andi main_v53 main_v59
  main_v60

def fn_part2 {F : FTy → Type} [FloatOps F] (main_arg1 : IVec S1600000 32) (main_arg9 : FVec F S128 .f32) (main_arg10 : FVec F S128 .f32) (main_arg11 : FVec F S128 .f32) (main_arg12 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S1600000 32) (main_arg6 : FVec F S128 .f32) (main_arg7 : FVec F S128x64 .f32) (main_arg8 : FVec F S64 .f32) (main_arg9 : FVec F S128 .f32) (main_arg10 : FVec F S128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S128 .f32) (main_arg10 : FVec F S128 .f32) (main_arg11 : FVec F S128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S5000x128 : Shape := ⟨2, ![5000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S160x128 : Shape := ⟨2, ![160, 128]⟩
abbrev S8x128 : Shape := ⟨2, ![8, 128]⟩
abbrev S20x8x128 : Shape := ⟨3, ![20, 8, 128]⟩
abbrev S20x1x128 : Shape := ⟨3, ![20, 1, 128]⟩
abbrev S20x128 : Shape := ⟨2, ![20, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 137
  | .vmem => 52
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128, .f32⟩
  | 10 => ⟨S128, .f32⟩
  | 11 => ⟨S128, .f32⟩
  | 12 => ⟨S128, .f32⟩
  | 13 => ⟨S100000x128, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1, .i32⟩
  | 23 => ⟨S_, .i32⟩
  | 24 => ⟨S1600000x1, .i32⟩
  | 25 => ⟨S1600000x1, .i1⟩
  | 26 => ⟨S1x1, .i32⟩
  | 27 => ⟨S1600000x1, .i32⟩
  | 28 => ⟨S1600000x1, .i1⟩
  | 29 => ⟨S1600000x1, .i1⟩
  | 30 => ⟨S_, .i1⟩
  | 31 => ⟨S1600000, .i1⟩
  | 32 => ⟨S1600000x128, .f32⟩
  | 33 => ⟨S1600000x128, .i1⟩
  | 34 => ⟨S_, .f32⟩
  | 35 => ⟨S1600000x128, .f32⟩
  | 36 => ⟨S1600000x128, .f32⟩
  | 37 => ⟨S_, .f32⟩
  | 38 => ⟨S100000x128, .f32⟩
  | 39 => ⟨S1600000x1, .i32⟩
  | 40 => ⟨S100000x128, .f32⟩
  | 41 => ⟨S1x128, .f32⟩
  | 42 => ⟨S160x128, .f32⟩
  | 43 => ⟨S160x128, .f32⟩
  | 44 => ⟨S20x8x128, .f32⟩
  | 45 => ⟨S20x1x128, .f32⟩
  | 46 => ⟨S20x128, .f32⟩
  | 47 => ⟨S20x8x128, .f32⟩
  | 48 => ⟨S20x1x128, .f32⟩
  | 49 => ⟨S20x128, .f32⟩
  | 50 => ⟨S_, .f32⟩
  | 51 => ⟨S128, .f32⟩
  | 52 => ⟨S1x128, .f32⟩
  | 53 => ⟨S_, .f32⟩
  | 54 => ⟨S128, .f32⟩
  | 55 => ⟨S1x128, .f32⟩
  | 56 => ⟨S1x128, .f32⟩
  | 57 => ⟨S1x128, .f32⟩
  | 58 => ⟨S1x128, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1, .i32⟩
  | 70 => ⟨S_, .i32⟩
  | 71 => ⟨S1600000x1, .i32⟩
  | 72 => ⟨S1600000x1, .i1⟩
  | 73 => ⟨S1x1, .i32⟩
  | 74 => ⟨S1600000x1, .i32⟩
  | 75 => ⟨S1600000x1, .i1⟩
  | 76 => ⟨S1600000x1, .i1⟩
  | 77 => ⟨S_, .i1⟩
  | 78 => ⟨S1600000, .i1⟩
  | 79 => ⟨S1600000x128, .f32⟩
  | 80 => ⟨S1600000x128, .i1⟩
  | 81 => ⟨S_, .f32⟩
  | 82 => ⟨S1600000x128, .f32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S1x128, .f32⟩
  | 89 => ⟨S160x128, .f32⟩
  | 90 => ⟨S160x128, .f32⟩
  | 91 => ⟨S20x8x128, .f32⟩
  | 92 => ⟨S20x1x128, .f32⟩
  | 93 => ⟨S20x128, .f32⟩
  | 94 => ⟨S20x8x128, .f32⟩
  | 95 => ⟨S20x1x128, .f32⟩
  | 96 => ⟨S20x128, .f32⟩
  | 97 => ⟨S_, .f32⟩
  | 98 => ⟨S128, .f32⟩
  | 99 => ⟨S1x128, .f32⟩
  | 100 => ⟨S_, .f32⟩
  | 101 => ⟨S128, .f32⟩
  | 102 => ⟨S1x128, .f32⟩
  | 103 => ⟨S1x128, .f32⟩
  | 104 => ⟨S1x128, .f32⟩
  | 105 => ⟨S1x128, .f32⟩
  | 106 => ⟨S100000x128, .f32⟩
  | 107 => ⟨S100000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1, .i32⟩
  | 117 => ⟨S_, .i32⟩
  | 118 => ⟨S1600000x1, .i32⟩
  | 119 => ⟨S1600000x1, .i1⟩
  | 120 => ⟨S1x1, .i32⟩
  | 121 => ⟨S1600000x1, .i32⟩
  | 122 => ⟨S1600000x1, .i1⟩
  | 123 => ⟨S1600000x1, .i1⟩
  | 124 => ⟨S_, .i1⟩
  | 125 => ⟨S1600000, .i1⟩
  | 126 => ⟨S1600000x64, .f32⟩
  | 127 => ⟨S1600000x64, .i1⟩
  | _ => ⟨S100000x128, .f32⟩

abbrev hbmTy0_1 (i : Nat) : BufTy := match i % 128 with
  | 0 => ⟨S_, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S1x64, .f32⟩
  | 8 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S128x64, .f32⟩
  | .local _ .vmem, ⟨43, _⟩ => ⟨S5000x128, .f32⟩
  | .local _ .vmem, ⟨44, _⟩ => ⟨S5000x128, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v1 : Ref sig .tc := ⟨.hbm, 36, rfl⟩
abbrev main_cst : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6_0 : Ref sig .tc := ⟨.hbm, 42, rfl⟩
abbrev main_v6_1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_cst_0 : Ref sig .tc := ⟨.hbm, 50, rfl⟩
abbrev main_v13 : Ref sig .tc := ⟨.hbm, 51, rfl⟩
abbrev main_v14 : Ref sig .tc := ⟨.hbm, 52, rfl⟩
abbrev main_cst_1 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20_0 : Ref sig .tc := ⟨.hbm, 59, rfl⟩
abbrev main_v20_1 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v21 : Ref sig .tc := ⟨.hbm, 83, rfl⟩
abbrev main_cst_2 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26_0 : Ref sig .tc := ⟨.hbm, 89, rfl⟩
abbrev main_v26_1 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_cst_3 : Ref sig .tc := ⟨.hbm, 97, rfl⟩
abbrev main_v33 : Ref sig .tc := ⟨.hbm, 98, rfl⟩
abbrev main_v34 : Ref sig .tc := ⟨.hbm, 99, rfl⟩
abbrev main_cst_4 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40_0 : Ref sig .tc := ⟨.hbm, 106, rfl⟩
abbrev main_v40_1 : Ref sig .tc := ⟨.hbm, 107, rfl⟩
abbrev main_call2_c : Ref sig .tc := ⟨.hbm, 108, rfl⟩
abbrev main_call2_v0 : Ref sig .tc := ⟨.hbm, 109, rfl⟩
abbrev main_call2_v1 : Ref sig .tc := ⟨.hbm, 110, rfl⟩
abbrev main_call2_c_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_c_1 : Ref sig .tc := ⟨.hbm, 116, rfl⟩
abbrev main_call2_c_2 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_3 : Ref sig .tc := ⟨.hbm, 124, rfl⟩
abbrev main_call2_v12 : Ref sig .tc := ⟨.hbm, 125, rfl⟩
abbrev main_call2_v13 : Ref sig .tc := ⟨.hbm, 126, rfl⟩
abbrev main_call2_v14 : Ref sig .tc := ⟨.hbm, 127, rfl⟩
abbrev main_call2_cst : Ref sig .tc := ⟨.hbm, 128, rfl⟩
abbrev main_call2_v15 : Ref sig .tc := ⟨.hbm, 129, rfl⟩
abbrev main_v41 : Ref sig .tc := ⟨.hbm, 130, rfl⟩
abbrev main_cst_5 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg8_1 : Ref sig .tc := ⟨.vmem, 23, rfl⟩
abbrev cc2_stg9_0 : Ref sig .tc := ⟨.vmem, 24, rfl⟩
abbrev cc2_stg9_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc4_stg7_0 : Ref sig .tc := ⟨.vmem, 42, rfl⟩
abbrev cc4_stg8_0 : Ref sig .tc := ⟨.vmem, 43, rfl⟩
abbrev cc4_stg8_1 : Ref sig .tc := ⟨.vmem, 44, rfl⟩
abbrev cc4_stg9_0 : Ref sig .tc := ⟨.vmem, 45, rfl⟩
abbrev cc4_stg9_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc2_sem7_0 : DmaSem sig := 21
abbrev cc2_sem8_0 : DmaSem sig := 22
abbrev cc2_sem8_1 : DmaSem sig := 23
abbrev cc2_sem9_0 : DmaSem sig := 24
abbrev cc2_sem9_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc4_sem7_0 : DmaSem sig := 42
abbrev cc4_sem8_0 : DmaSem sig := 43
abbrev cc4_sem8_1 : DmaSem sig := 44
abbrev cc4_sem9_0 : DmaSem sig := 45
abbrev cc4_sem9_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem2_1 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S128x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S5000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S160x128_S20x8x128 : S160x128.ShapeCasts S20x8x128
  slices_S20x8x128_S20x1x128_0_0_0 : S20x8x128.Slices ![0, 0, 0] S20x1x128
  shapeCasts_S20x1x128_S20x128 : S20x1x128.ShapeCasts S20x128
  reducesTo_S20x128_S128_d0 : S20x128.ReducesTo [0] S128
  bcast_S128_S1x128_1 : S128.BroadcastsInDim S1x128 (![1] : Fin 1 → Fin S1x128.rank)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S160x128.size a
  hwx1_2 : ∀ i : grid1.Coords, EltTy.bits .f32 = 32 ∨ (Rect.block (s := S160x128) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S160x128.size a
  hwx1_3 : ∀ i : grid1.Coords, EltTy.bits .f32 = 32 ∨ (Rect.block (s := S160x128) S8x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x128.size a ≤ S160x128.size a
  hwx3_2 : ∀ i : grid3.Coords, EltTy.bits .f32 = 32 ∨ (Rect.block (s := S160x128) S8x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x128.size a ≤ S160x128.size a
  hwx3_3 : ∀ i : grid3.Coords, EltTy.bits .f32 = 32 ∨ (Rect.block (s := S160x128) S8x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x64.size a ≤ S128x64.size a
  hwx4_7 : ∀ i : grid4.Coords, EltTy.bits .f32 = 32 ∨ (Rect.block (s := S128x64) S128x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S100000x128.size a
  hwx4_8 : ∀ i : grid4.Coords, EltTy.bits .f32 = 32 ∨ (Rect.block (s := S100000x128) S5000x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x64.size a ≤ S100000x64.size a
  hwx4_9 : ∀ i : grid4.Coords, EltTy.bits .f32 = 32 ∨ (Rect.block (s := S100000x64) S5000x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S8x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg0) S5000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg5) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v20_0) S5000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v20_1) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v24) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26_0) S8x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v26_1) S8x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v24) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v38) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v39) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v20_0) S5000x128.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_arg7) S128x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v40_0) S5000x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v40_1) S5000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v44) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v46) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128, .f32⟩
  | 10 => ⟨S128, .f32⟩
  | 11 => ⟨S128, .f32⟩
  | 12 => ⟨S128, .f32⟩
  | 13 => ⟨S100000x128, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S128, .f32⟩
  | 32 => ⟨S_, .f32⟩
  | 33 => ⟨S128, .f32⟩
  | 34 => ⟨S128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S100000x128, .f32⟩
  | 43 => ⟨S100000x128, .f32⟩
  | 44 => ⟨S100000x128, .f32⟩
  | 45 => ⟨S_, .f32⟩
  | 46 => ⟨S_, .f32⟩
  | 47 => ⟨S_, .f32⟩
  | 48 => ⟨S_, .f32⟩
  | 49 => ⟨S128, .f32⟩
  | 50 => ⟨S128, .f32⟩
  | 51 => ⟨S128, .f32⟩
  | 52 => ⟨S_, .f32⟩
  | 53 => ⟨S_, .i1⟩
  | 54 => ⟨S_, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S128, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x64, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S1x64, .f32⟩
  | 30 => ⟨S100000x64, .f32⟩
  | 31 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_4 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_call1_cst : Ref sig .tc := ⟨.hbm, 75, rfl⟩
abbrev main_call1_v0 : Ref sig .tc := ⟨.hbm, 76, rfl⟩
abbrev main_v34 : Ref sig .tc := ⟨.hbm, 77, rfl⟩
abbrev main_v35 : Ref sig .tc := ⟨.hbm, 78, rfl⟩
abbrev main_c_5 : Ref sig .tc := ⟨.hbm, 79, rfl⟩
abbrev main_v36 : Ref sig .tc := ⟨.hbm, 80, rfl⟩
abbrev main_v37 : Ref sig .tc := ⟨.hbm, 81, rfl⟩
abbrev main_c_6 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_7 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_8 : Ref sig .tc := ⟨.hbm, 95, rfl⟩
abbrev main_v49 : Ref sig .tc := ⟨.hbm, 96, rfl⟩
abbrev main_cst_9 : Ref sig .tc := ⟨.hbm, 97, rfl⟩
abbrev main_v50 : Ref sig .tc := ⟨.hbm, 98, rfl⟩
abbrev main_v51 : Ref sig .tc := ⟨.hbm, 99, rfl⟩
abbrev main_c_10 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_cst_2 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_cst_3 : Ref sig .tc := ⟨.hbm, 117, rfl⟩
abbrev main_call2_v12 : Ref sig .tc := ⟨.hbm, 118, rfl⟩
abbrev main_call2_cst_4 : Ref sig .tc := ⟨.hbm, 119, rfl⟩
abbrev main_call2_call0_v0 : Ref sig .tc := ⟨.hbm, 120, rfl⟩
abbrev main_call2_call0_v1 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_cst_11 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_call3_cst : Ref sig .tc := ⟨.hbm, 140, rfl⟩
abbrev main_call3_v0 : Ref sig .tc := ⟨.hbm, 141, rfl⟩
abbrev main_v69 : Ref sig .tc := ⟨.hbm, 142, rfl⟩
abbrev main_v70 : Ref sig .tc := ⟨.hbm, 143, rfl⟩
abbrev main_c_12 : Ref sig .tc := ⟨.hbm, 144, rfl⟩
abbrev main_v71 : Ref sig .tc := ⟨.hbm, 145, rfl⟩
abbrev main_v72 : Ref sig .tc := ⟨.hbm, 146, rfl⟩
abbrev main_c_13 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_cst_14 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics of this certificate, stated once over the extended reals and free of either program.

  A graph network of three layers over N = 100000 nodes and E = 1600000 edges. One layer takes node features
  `xin`, projects them (`mm xin W`), sums the projected rows of each edge's source node into the edge's
  destination node (`agg`: a row gather followed by a scatter-add into zeros, both at index columns given as
  they are), adds a bias row, and — in the first two layers — normalises every column by its mean and variance
  over the N rows, scales, shifts, adds the layer's input back and clips below at zero (`bn`).

  The variance of a column is written in two ways: the mean of the squares minus the square of the mean
  (`varK`), and the mean of the squared deviations from the mean (`varR`). On columns of real numbers the two
  are the same number; an extended real column with an infinite entry would tell them apart, which is why the
  activations are shown to be real before the two forms are exchanged.
-/
import Idealize.ShloMosaic.PureOps.Ideal
import Idealize.ShloMosaic.Lib.ValueIdx

noncomputable section

open scoped BigOperators
open Idealize.ShloMosaic Idealize.ShloMosaic.ValueIdx

namespace Cert.Spec

/-- A rank-2 array of extended reals. -/
abbrev Arr (n0 n1 : Nat) : Type := (⟨2, ![n0, n1]⟩ : Shape).Idx → EReal
/-- A rank-1 array of extended reals. -/
abbrev Row (n : Nat) : Type := (⟨1, ![n]⟩ : Shape).Idx → EReal
/-- An [n, 1] column of 32-bit index words (the start indices of a row gather, the scatter indices of a segment sum). -/
abbrev IdxCol (n : Nat) : Type := IVec (⟨2, ![n, 1]⟩ : Shape) 32

/-- The first coordinate of a rank-2 index, as a number below the first extent. -/
abbrev c0 {n0 n1 : Nat} (i : (⟨2, ![n0, n1]⟩ : Shape).Idx) : Fin n0 := ⟨(i 0).val, idx2_lt0 i⟩
/-- The second coordinate of a rank-2 index, as a number below the second extent. -/
abbrev c1 {n0 n1 : Nat} (i : (⟨2, ![n0, n1]⟩ : Shape).Idx) : Fin n1 := ⟨(i 1).val, idx2_lt1 i⟩

/-- The row count N as both programs write it: the single-precision word of 100000. -/
def nRows : EReal := Ideal.ofBits .f32 0x47C35000#32
/-- The variance offset as both programs write it: the single-precision word nearest 1e-5. -/
def eps : EReal := Ideal.ofBits .f32 0x3727C5AC#32

/-- Every source index lies in the range the row lookup accepts: from -N (counted from the end) up to N - 1. -/
def SrcOk {e : Nat} (src : IVec (⟨1, ![e]⟩ : Shape) 32) : Prop :=
  ∀ t, -100000 ≤ (src t).toInt ∧ (src t).toInt < 100000

/-- Every entry is a real number (neither infinity). -/
def RealArr {S : Shape} (v : S.Idx → EReal) : Prop := ∀ i, ∃ r : ℝ, v i = (r : EReal)

/-- The matrix product, entry by entry: row `i₀` of `x` against column `i₁` of `w`. -/
def mm {n k c : Nat} (x : Arr n k) (w : Arr k c) : Arr n c :=
  fun i => ∑ q : Fin k, x (ix2 (c0 i) q) * w (ix2 q (c1 i))

/-- Edge aggregation: gather the rows of `m` at the start indices `gi`, then add row `t` of the gathered
    array into the row of a zero array that scatter index `si t` names. The two index columns and the two
    dimension-number records are carried as they are: both programs apply this one function. -/
def agg {n e c : Nat} (dG : GatherDims ⟨2, ![n, c]⟩ ⟨2, ![e, 1]⟩ ⟨2, ![e, c]⟩)
    (dS : ScatterDims ⟨2, ![n, c]⟩ ⟨2, ![e, 1]⟩ ⟨2, ![e, c]⟩) (m : Arr n c) (gi si : IdxCol e) : Arr n c :=
  Ideal.hostScatterAdd dS (fun _ => (0 : EReal)) si (Host.gather dG m gi)

/-- A row vector added to every row. -/
def addRow {n c : Nat} (a : Arr n c) (b : Row c) : Arr n c := fun i => a i + b (ix1 (c1 i))

/-- The sum of column `j` over all rows. -/
def colSum {n c : Nat} (a : Arr n c) (j : Fin c) : EReal := ∑ r : Fin n, a (ix2 r j)
/-- The mean of column `j`: its sum over the printed row count. -/
def meanOf {n c : Nat} (a : Arr n c) (j : Fin c) : EReal := Ideal.div (colSum a j) nRows
/-- The variance of column `j` as mean of squares minus square of mean. -/
def varK {n c : Nat} (a : Arr n c) (j : Fin c) : EReal :=
  Ideal.div (colSum (fun i => a i * a i) j) nRows - meanOf a j * meanOf a j
/-- The variance of column `j` as mean of squared deviations. -/
def varR {n c : Nat} (a : Arr n c) (j : Fin c) : EReal :=
  Ideal.div (∑ r : Fin n, (a (ix2 r j) - meanOf a j) * (a (ix2 r j) - meanOf a j)) nRows

/-- One normalised entry: centre, divide by the standard deviation, scale, shift, add the residual, clip at 0. -/
def bnScalar (mean var a g be xin : EReal) : EReal :=
  max ((a - mean) * Ideal.rsqrt (var + eps) * g + be + xin) 0

/-- Column normalisation with residual and clip, at a chosen form `var` of the variance. -/
def bn {n c : Nat} (var : Arr n c → Fin c → EReal) (a : Arr n c) (g be : Row c) (xin : Arr n c) : Arr n c :=
  fun i => bnScalar (meanOf a (c1 i)) (var a (c1 i)) (a i) (g (ix1 (c1 i))) (be (ix1 (c1 i))) (xin i)

/-- One hidden layer. -/
def layer {n e c : Nat} (var : Arr n c → Fin c → EReal) (dG : GatherDims ⟨2, ![n, c]⟩ ⟨2, ![e, 1]⟩ ⟨2, ![e, c]⟩)
    (dS : ScatterDims ⟨2, ![n, c]⟩ ⟨2, ![e, 1]⟩ ⟨2, ![e, c]⟩) (xin : Arr n c) (W : Arr c c) (b g be : Row c)
    (gi si : IdxCol e) : Arr n c :=
  bn var (addRow (agg dG dS (mm xin W) gi si) b) g be xin

/-- The whole network: two hidden layers and the final aggregation with its bias. -/
def net {n e c c' : Nat} (var : Arr n c → Fin c → EReal)
    (dG : GatherDims ⟨2, ![n, c]⟩ ⟨2, ![e, 1]⟩ ⟨2, ![e, c]⟩) (dS : ScatterDims ⟨2, ![n, c]⟩ ⟨2, ![e, 1]⟩ ⟨2, ![e, c]⟩)
    (dG' : GatherDims ⟨2, ![n, c']⟩ ⟨2, ![e, 1]⟩ ⟨2, ![e, c']⟩) (dS' : ScatterDims ⟨2, ![n, c']⟩ ⟨2, ![e, 1]⟩ ⟨2, ![e, c']⟩)
    (x : Arr n c) (gi si : IdxCol e) (W0 : Arr c c) (b0 : Row c) (W1 : Arr c c) (b1 : Row c) (W2 : Arr c c') (b2 : Row c')
    (g0 be0 g1 be1 : Row c) : Arr n c' :=
  addRow (agg dG' dS' (mm (layer var dG dS (layer var dG dS x W0 b0 g0 be0 gi si) W1 b1 g1 be1 gi si) W2) gi si) b2

/-! ## The kernel's intermediate arrays, in the same vocabulary -/

/-- A vector as a one-row matrix. -/
def asRow1 {c : Nat} (b : Row c) : Arr 1 c := fun i => b (ix1 (c1 i))
/-- A one-row matrix added to every row. -/
def addRow1 {n c : Nat} (a : Arr n c) (b : Arr 1 c) : Arr n c := fun i => a i + b (ix2 0 (c1 i))

/-- Column sums tile by tile: 20 tiles of 5000 rows; tile `t`'s sum of `a + b` stands in each of the rows `8t … 8t+7`. -/
def tileSums (a : Arr 100000 128) (b : Arr 1 128) : Arr 160 128 :=
  fun i => ∑ r : Fin 5000, addRow1 a b (ix2 ⟨5000 * ((i 0).val / 8) + r.val, by have := idx2_lt0 i; omega⟩ (c1 i))
/-- The same with every entry squared. -/
def tileSumSqs (a : Arr 100000 128) (b : Arr 1 128) : Arr 160 128 :=
  fun i => ∑ r : Fin 5000, (addRow1 a b (ix2 ⟨5000 * ((i 0).val / 8) + r.val, by have := idx2_lt0 i; omega⟩ (c1 i))
    * addRow1 a b (ix2 ⟨5000 * ((i 0).val / 8) + r.val, by have := idx2_lt0 i; omega⟩ (c1 i)))
/-- The tiles' sums added up: row `8t` of each tile, over the 20 tiles, from zero, as a one-row matrix. -/
def rowOfTiles (s : Arr 160 128) : Arr 1 128 :=
  fun i => (0 : EReal) + ∑ t : Fin 20, s (ix2 ⟨8 * t.val, by omega⟩ (c1 i))

/-- The normalising kernel's first output from its eight inputs: the aggregate `a`, the column sums `s` and
    sums of squares `q` as one-row matrices, scale, shift and bias as one-row matrices, and the residual. -/
def bnKer {n c : Nat} (a : Arr n c) (s q g be bi : Arr 1 c) (xin : Arr n c) : Arr n c :=
  fun i => bnScalar (Ideal.div (s (ix2 0 (c1 i))) nRows)
    (Ideal.div (q (ix2 0 (c1 i))) nRows - Ideal.div (s (ix2 0 (c1 i))) nRows * Ideal.div (s (ix2 0 (c1 i))) nRows)
    (a i + bi (ix2 0 (c1 i))) (g (ix2 0 (c1 i))) (be (ix2 0 (c1 i))) (xin i)

end Cert.Spec

end
-- ==== Proof.Reals.lean ====
/-
  The two printed constants as real numbers, and the stages that keep a real-valued array real-valued.
-/
import proofs.«406583_j75179107549523_3_alg».proof.Proof.Spec

noncomputable section

open scoped BigOperators
open Idealize.ShloMosaic Idealize.ShloMosaic.ValueIdx

namespace Cert.Spec

/-! ## The two printed constants -/

/-- The printed row count is the real number 100000: sign bit 0, exponent field 143 (the binade of 2^16),
    significand field 0x435000, so (2^23 + 4411392) · 2^(143 - 127 - 23) = 12800000 / 128. -/
theorem nRows_eq : nRows = ((100000 : ℝ) : EReal) := by
  unfold nRows
  simp [Ideal.ofBits, Ideal.ieee, -EReal.coe_mul]; norm_num

/-- The printed variance offset is a positive real number: sign bit 0, exponent field 110 (neither all zeros
    nor all ones), so the word is the normal number (2^23 + 2606508) · 2^(110 - 127 - 23). -/
theorem eps_pos : ∃ e : ℝ, 0 < e ∧ eps = (e : EReal) := by
  refine ⟨((2 ^ 23 + 2606508 : Nat) : ℝ) * (2 : ℝ) ^ ((110 : Int) - 127 - 23), by positivity, ?_⟩
  unfold eps
  simp [Ideal.ofBits, Ideal.ieee, -EReal.coe_mul]

/-! ## Sums of real numbers -/

/-- A finite sum of real numbers is a real number. -/
theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih (fun i hi => hf i (Finset.mem_insert_of_mem hi))
    obtain ⟨q, hq⟩ := hf a (Finset.mem_insert_self a s)
    exact ⟨q + r, by rw [Finset.sum_insert ha, hq, hr, EReal.coe_add]⟩

/-- A finite sum of non-negative real numbers is a non-negative real number. -/
theorem nonneg_real_sum {ι : Type} (s : Finset ι) (f : ι → EReal)
    (hf : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_refl 0, by simp⟩
  | insert a s ha ih =>
    obtain ⟨r, hr0, hr⟩ := ih (fun i hi => hf i (Finset.mem_insert_of_mem hi))
    obtain ⟨q, hq0, hq⟩ := hf a (Finset.mem_insert_self a s)
    exact ⟨q + r, add_nonneg hq0 hr0, by rw [Finset.sum_insert ha, hq, hr, EReal.coe_add]⟩

/-! ## Real-valued arrays stay real-valued through every stage -/

theorem RealArr.mm {n k c : Nat} {x : Arr n k} {w : Arr k c} (hx : RealArr x) (hw : RealArr w) : RealArr (mm x w) := by
  intro i
  unfold Cert.Spec.mm
  refine real_sum _ _ (fun q _ => ?_)
  obtain ⟨a, ha⟩ := hx (ix2 (c0 i) q)
  obtain ⟨b, hb⟩ := hw (ix2 q (c1 i))
  exact ⟨a * b, by rw [ha, hb, EReal.coe_mul]⟩

theorem RealArr.agg {n e c : Nat} (dG : GatherDims ⟨2, ![n, c]⟩ ⟨2, ![e, 1]⟩ ⟨2, ![e, c]⟩)
    (dS : ScatterDims ⟨2, ![n, c]⟩ ⟨2, ![e, 1]⟩ ⟨2, ![e, c]⟩) {m : Arr n c} (gi si : IdxCol e) (hm : RealArr m) :
    RealArr (agg dG dS m gi si) := by
  intro i
  unfold Cert.Spec.agg Ideal.hostScatterAdd Host.gather
  obtain ⟨r, hr⟩ := real_sum (Finset.univ.filter (fun j => dS.resultIdx? j si = some i))
    (fun j => m (dG.operandIdx j gi)) (fun j _ => hm _)
  exact ⟨r, by rw [hr, zero_add]⟩

theorem RealArr.addRow {n c : Nat} {a : Arr n c} {b : Row c} (ha : RealArr a) (hb : RealArr b) : RealArr (addRow a b) := by
  intro i
  unfold Cert.Spec.addRow
  obtain ⟨p, hp⟩ := ha i
  obtain ⟨q, hq⟩ := hb (ix1 (c1 i))
  exact ⟨p + q, by rw [hp, hq, EReal.coe_add]⟩

/-! ## The column statistics of a real-valued array -/

/-- The mean of a real column is a real number: a real sum times the real number 1/100000. -/
theorem meanOf_real {n c : Nat} {a : Arr n c} (ha : RealArr a) (j : Fin c) : ∃ μ : ℝ, meanOf a j = (μ : EReal) := by
  obtain ⟨s, hs⟩ := real_sum Finset.univ (fun r : Fin n => a (ix2 r j)) (fun r _ => ha _)
  refine ⟨s * (1 / 100000), ?_⟩
  unfold meanOf colSum
  rw [nRows_eq, Ideal.div_coe (by norm_num), hs, EReal.coe_mul]

/-- The variance of a real column, as the mean of the squared deviations, is a non-negative real number:
    every squared deviation is the square of a real number. -/
theorem varR_nonneg_real {n c : Nat} {a : Arr n c} (ha : RealArr a) (j : Fin c) :
    ∃ v : ℝ, 0 ≤ v ∧ varR a j = (v : EReal) := by
  obtain ⟨μ, hμ⟩ := meanOf_real ha j
  obtain ⟨s, hs0, hs⟩ := nonneg_real_sum Finset.univ
    (fun r : Fin n => (a (ix2 r j) - meanOf a j) * (a (ix2 r j) - meanOf a j)) (fun r _ => by
      obtain ⟨x, hx⟩ := ha (ix2 r j)
      exact ⟨(x - μ) * (x - μ), mul_self_nonneg _, by rw [hx, hμ, ← EReal.coe_sub, ← EReal.coe_mul]⟩)
  refine ⟨s * (1 / 100000), mul_nonneg hs0 (by norm_num), ?_⟩
  unfold varR
  rw [nRows_eq, Ideal.div_coe (by norm_num), hs, EReal.coe_mul]

/-- One normalised entry is real when all six of its arguments are real and the variance is non-negative:
    the offset variance is then positive, its reciprocal square root the real number (√(v + e))⁻¹, and what
    remains is a difference, products, sums and a maximum of real numbers. -/
theorem bnScalar_real (μ v x γ β ξ : ℝ) (hv : 0 ≤ v) :
    ∃ r : ℝ, bnScalar (μ : EReal) (v : EReal) (x : EReal) (γ : EReal) (β : EReal) (ξ : EReal) = (r : EReal) := by
  obtain ⟨e, he0, he⟩ := eps_pos
  have hpos : 0 < v + e := add_pos_of_nonneg_of_pos hv he0
  refine ⟨max ((x - μ) * (Real.sqrt (v + e))⁻¹ * γ + β + ξ) 0, ?_⟩
  unfold bnScalar
  rw [he, ← EReal.coe_add, Ideal.rsqrt_coe, if_neg (not_lt.mpr hpos.le), if_neg hpos.ne',
    ← EReal.coe_sub, ← EReal.coe_mul, ← EReal.coe_mul, ← EReal.coe_add, ← EReal.coe_add, ← EReal.coe_zero]
  exact (EReal.coe_strictMono.monotone.map_max).symm

/-- The normalised layer output is real: the variance of a real column is a non-negative real, so the offset
    variance is positive and its reciprocal square root a real number. -/
theorem RealArr.bn_varR {n c : Nat} {a : Arr n c} {g be : Row c} {xin : Arr n c} (ha : RealArr a) (hg : RealArr g)
    (hbe : RealArr be) (hx : RealArr xin) : RealArr (bn varR a g be xin) := by
  intro i
  obtain ⟨μ, hμ⟩ := meanOf_real ha (c1 i)
  obtain ⟨v, hv0, hv⟩ := varR_nonneg_real ha (c1 i)
  obtain ⟨x, hxa⟩ := ha i
  obtain ⟨γ, hγ⟩ := hg (ix1 (c1 i))
  obtain ⟨β, hβ⟩ := hbe (ix1 (c1 i))
  obtain ⟨ξ, hξ⟩ := hx i
  obtain ⟨r, hr⟩ := bnScalar_real μ v x γ β ξ hv0
  exact ⟨r, by unfold bn; rw [hμ, hv, hxa, hγ, hβ, hξ, hr]⟩

end Cert.Spec

end
-- ==== Proof.Algebra.lean ====
/-
  The algebra that joins the two programs, over the extended reals and free of either program.
-/
import proofs.«406583_j75179107549523_3_alg».proof.Proof.Spec
import proofs.«406583_j75179107549523_3_alg».proof.Proof.Reals

noncomputable section

open scoped BigOperators
open Idealize.ShloMosaic Idealize.ShloMosaic.ValueIdx

namespace Cert.Spec

/-! ## The two forms of the variance -/

/-- A finite sum of real numbers, read in the extended reals, is the real sum read there. -/
private theorem coe_finsum {ι : Type} (s : Finset ι) (f : ι → ℝ) :
    (∑ i ∈ s, ((f i : ℝ) : EReal)) = ((∑ i ∈ s, f i : ℝ) : EReal) := by
  classical
  induction s using Finset.induction_on with
  | empty => simp
  | insert x s hx ih => rw [Finset.sum_insert hx, Finset.sum_insert hx, ih, EReal.coe_add]

/-- The squared deviations of `n = 100000` real numbers from any number `m`, summed: expand
    `(f r - m)² = f r² - 2 m f r + m²` and sum term by term, `Σ (f r - m)² = Q - 2 m S + n m²`. -/
private theorem sum_sq_dev (f : Fin 100000 → ℝ) (m : ℝ) :
    (∑ r, (f r - m) * (f r - m)) = (∑ r, f r * f r) - 2 * m * (∑ r, f r) + 100000 * (m * m) := by
  have hexp : ∀ r, (f r - m) * (f r - m) = f r * f r - 2 * m * f r + m * m := fun r => by ring
  simp_rw [hexp]
  rw [Finset.sum_add_distrib, Finset.sum_sub_distrib, ← Finset.mul_sum, Finset.sum_const, Finset.card_univ,
    Fintype.card_fin, nsmul_eq_mul]
  norm_num

/-- The identity over the reals: at `m = S/n`, the mean, `Q - 2 m S + n m² = Q - S²/n`, so the mean of the
    squares less `m²` is the mean of the squared deviations from `m`. -/
private theorem real_var (f : Fin 100000 → ℝ) :
    (∑ r, f r * f r) * (1 / 100000) - (∑ r, f r) * (1 / 100000) * ((∑ r, f r) * (1 / 100000))
      = (∑ r, (f r - (∑ r, f r) * (1 / 100000)) * (f r - (∑ r, f r) * (1 / 100000))) * (1 / 100000) := by
  rw [sum_sq_dev]
  ring

/-- On a real-valued array of exactly 100000 rows, mean of squares minus square of mean is the mean of squared deviations. -/
theorem varK_eq_varR {c : Nat} (a : Arr 100000 c) (ha : RealArr a) (j : Fin c) : varK a j = varR a j := by
  -- the column's entries as real numbers
  choose f hf using fun r : Fin 100000 => ha (ix2 r j)
  have hn : (100000 : ℝ) ≠ 0 := by norm_num
  -- the column sum, the mean and the sum of squares are real
  have hs : colSum a j = ((∑ r, f r : ℝ) : EReal) := by
    unfold colSum; simp_rw [hf]; exact coe_finsum _ _
  have hm : meanOf a j = (((∑ r, f r) * (1 / 100000) : ℝ) : EReal) := by
    unfold meanOf; rw [hs, nRows_eq, Ideal.div_coe hn, ← EReal.coe_mul]
  have hq : colSum (fun i => a i * a i) j = ((∑ r, f r * f r : ℝ) : EReal) := by
    unfold colSum; simp_rw [hf, ← EReal.coe_mul]; exact coe_finsum _ _
  unfold varK varR
  rw [hq, hm, nRows_eq, Ideal.div_coe hn, Ideal.div_coe hn]
  simp_rw [hf, ← EReal.coe_sub, ← EReal.coe_mul]
  rw [coe_finsum, ← EReal.coe_mul, ← EReal.coe_sub, real_var f]

/-- Hence the two normalisations agree on it. -/
theorem bn_varK_eq_varR {c : Nat} (a : Arr 100000 c) (ha : RealArr a) (g be : Row c) (xin : Arr 100000 c) :
    bn varK a g be xin = bn varR a g be xin := by
  funext i
  unfold bn
  rw [varK_eq_varR a ha (c1 i)]

/-- The whole network at the two forms, on real-valued inputs. -/
theorem net_varK_eq_varR {e c c' : Nat}
    (dG : GatherDims ⟨2, ![100000, c]⟩ ⟨2, ![e, 1]⟩ ⟨2, ![e, c]⟩) (dS : ScatterDims ⟨2, ![100000, c]⟩ ⟨2, ![e, 1]⟩ ⟨2, ![e, c]⟩)
    (dG' : GatherDims ⟨2, ![100000, c']⟩ ⟨2, ![e, 1]⟩ ⟨2, ![e, c']⟩) (dS' : ScatterDims ⟨2, ![100000, c']⟩ ⟨2, ![e, 1]⟩ ⟨2, ![e, c']⟩)
    (x : Arr 100000 c) (gi si : IdxCol e) (W0 : Arr c c) (b0 : Row c) (W1 : Arr c c) (b1 : Row c) (W2 : Arr c c') (b2 : Row c')
    (g0 be0 g1 be1 : Row c)
    (hx : RealArr x) (hW0 : RealArr W0) (hb0 : RealArr b0) (hW1 : RealArr W1) (hb1 : RealArr b1)
    (hg0 : RealArr g0) (hbe0 : RealArr be0) (hg1 : RealArr g1) (hbe1 : RealArr be1) :
    net varK dG dS dG' dS' x gi si W0 b0 W1 b1 W2 b2 g0 be0 g1 be1
      = net varR dG dS dG' dS' x gi si W0 b0 W1 b1 W2 b2 g0 be0 g1 be1 := by
  -- the first layer normalises a real-valued array, so its two forms agree and its output is real-valued
  have h1 : RealArr (addRow (agg dG dS (mm x W0) gi si) b0) :=
    RealArr.addRow (RealArr.agg dG dS gi si (RealArr.mm hx hW0)) hb0
  have e1 : layer varK dG dS x W0 b0 g0 be0 gi si = layer varR dG dS x W0 b0 g0 be0 gi si :=
    bn_varK_eq_varR _ h1 g0 be0 x
  have r1 : RealArr (layer varR dG dS x W0 b0 g0 be0 gi si) := RealArr.bn_varR h1 hg0 hbe0 hx
  -- so the second layer normalises a real-valued array as well
  have h2 : RealArr (addRow (agg dG dS (mm (layer varR dG dS x W0 b0 g0 be0 gi si) W1) gi si) b1) :=
    RealArr.addRow (RealArr.agg dG dS gi si (RealArr.mm r1 hW1)) hb1
  have e2 : layer varK dG dS (layer varR dG dS x W0 b0 g0 be0 gi si) W1 b1 g1 be1 gi si
      = layer varR dG dS (layer varR dG dS x W0 b0 g0 be0 gi si) W1 b1 g1 be1 gi si :=
    bn_varK_eq_varR _ h2 g1 be1 _
  -- the final aggregation is one function of the second layer's output
  unfold net
  rw [e1, e2]

/-! ## The kernel's tiled statistics are the column sums -/

/-- Row `5000·t + r` is row `r` of tile `t`: the 20 tiles of 5000 rows number the 100000 rows once each
    (quotient and remainder by 5000 go back). -/
private def tileEquiv : Fin 20 × Fin 5000 ≃ Fin 100000 where
  toFun p := ⟨5000 * p.1.val + p.2.val, by omega⟩
  invFun k := (⟨k.val / 5000, by omega⟩, ⟨k.val % 5000, by omega⟩)
  left_inv p := by
    obtain ⟨t, r⟩ := p
    refine Prod.ext (Fin.ext ?_) (Fin.ext ?_)
    · show (5000 * t.val + r.val) / 5000 = t.val
      omega
    · show (5000 * t.val + r.val) % 5000 = r.val
      omega
  right_inv k := Fin.ext (by
    show 5000 * (k.val / 5000) + k.val % 5000 = k.val
    omega)

/-- A sum over the 100000 rows, taken tile by tile. Sums in the extended reals are sums in a commutative
    monoid, so the re-indexing needs no finiteness of the terms. -/
private theorem sum_tiles (g : Fin 100000 → EReal) :
    ∑ t : Fin 20, ∑ r : Fin 5000, g ⟨5000 * t.val + r.val, by omega⟩ = ∑ k : Fin 100000, g k := by
  rw [← Fintype.sum_prod_type' (fun (t : Fin 20) (r : Fin 5000) => g ⟨5000 * t.val + r.val, by omega⟩)]
  exact Fintype.sum_equiv tileEquiv _ _ (fun _ => rfl)

/-- Twenty tiles of 5000 rows are the 100000 rows. -/
theorem rowOfTiles_tileSums (a : Arr 100000 128) (b : Arr 1 128) (i : (⟨2, ![1, 128]⟩ : Shape).Idx) :
    rowOfTiles (tileSums a b) i = colSum (addRow1 a b) (c1 i) := by
  unfold rowOfTiles tileSums colSum
  rw [zero_add]
  refine Eq.trans ?_ (sum_tiles (fun k => addRow1 a b (ix2 k (c1 i))))
  refine Finset.sum_congr rfl (fun t _ => Finset.sum_congr rfl (fun r _ => ?_))
  -- tile `t` is read at row `8t` of the 160 rows, and `8t / 8 = t`; the column is `i`'s throughout
  have h8 : 8 * t.val / 8 = t.val := Nat.mul_div_cancel_left _ (by norm_num)
  have hk : (⟨5000 * (8 * t.val / 8) + r.val, by omega⟩ : Fin 100000) = ⟨5000 * t.val + r.val, by omega⟩ :=
    Fin.ext (by show 5000 * (8 * t.val / 8) + r.val = 5000 * t.val + r.val; rw [h8])
  exact congrArg (fun k => addRow1 a b (ix2 k (c1 i))) hk

theorem rowOfTiles_tileSumSqs (a : Arr 100000 128) (b : Arr 1 128) (i : (⟨2, ![1, 128]⟩ : Shape).Idx) :
    rowOfTiles (tileSumSqs a b) i = colSum (fun k => addRow1 a b k * addRow1 a b k) (c1 i) := by
  unfold rowOfTiles tileSumSqs colSum
  rw [zero_add]
  refine Eq.trans ?_ (sum_tiles (fun k => addRow1 a b (ix2 k (c1 i)) * addRow1 a b (ix2 k (c1 i))))
  refine Finset.sum_congr rfl (fun t _ => Finset.sum_congr rfl (fun r _ => ?_))
  have h8 : 8 * t.val / 8 = t.val := Nat.mul_div_cancel_left _ (by norm_num)
  have hk : (⟨5000 * (8 * t.val / 8) + r.val, by omega⟩ : Fin 100000) = ⟨5000 * t.val + r.val, by omega⟩ :=
    Fin.ext (by show 5000 * (8 * t.val / 8) + r.val = 5000 * t.val + r.val; rw [h8])
  exact congrArg (fun k => addRow1 a b (ix2 k (c1 i)) * addRow1 a b (ix2 k (c1 i))) hk

/-- The normalising kernel fed with the tiled statistics is the layer's normalisation at the first form of the variance. -/
theorem bnKer_eq_bn (a : Arr 100000 128) (b g be : Row 128) (xin : Arr 100000 128) :
    bnKer a (rowOfTiles (tileSums a (asRow1 b))) (rowOfTiles (tileSumSqs a (asRow1 b))) (asRow1 g) (asRow1 be) (asRow1 b) xin
      = bn varK (addRow a b) g be xin := by
  funext i
  unfold bnKer bn meanOf varK
  -- the two statistics are the column sum and the column sum of squares of `a` with the bias row added
  rw [rowOfTiles_tileSums, rowOfTiles_tileSumSqs]
  -- adding the bias as a one-row matrix is adding it as a row, and scale and shift are read at the same column
  rfl

end Cert.Spec

end
-- ==== Proof.PreDecode.lean ====
/-
  What the stated precondition says of the arguments: every float argument is real-valued (each entry's absolute
  value is below +infinity, and an extended real below +infinity in absolute value is a real number), and every
  source index lies between -100000 and 99999.
-/
import proofs.«406583_j75179107549523_3_alg».proof.Pre_finite_inputs
import proofs.«406583_j75179107549523_3_alg».proof.Proof.Gen.Pre_finite_inputs
import proofs.«406583_j75179107549523_3_alg».proof.Proof.Spec
import Idealize.ShloMosaic.Lib.ReduceAll
import Idealize.ShloMosaic.Lib.StableHlo.Predicate
import Idealize.ShloMosaic.Lib.ValueIdx

set_option maxRecDepth 16384

noncomputable section

namespace Cert.PreDecode

open Cert.Pre_finite_inputs Idealize.ShloMosaic Idealize.ShloMosaic.ValueIdx

variable [hP : Cert.Pre_finite_inputs.Facts]

/-- The scalar shape has one index. -/
instance subsingleton_scalar_idx : Subsingleton S_.Idx := ⟨fun _ _ => funext fun d => d.elim0⟩

/-- The single-precision word with all exponent bits set and no fraction bit denotes +infinity. -/
theorem inf_word : Ideal.ofBits .f32 0x7F800000#32 = (⊤ : EReal) := by simp [Ideal.ofBits, Ideal.ieee]

/-- An extended real whose absolute value max x (−x) lies below +infinity is a real number: at −infinity the
    negation is +infinity, at +infinity the value itself is, and in both cases the maximum is +infinity. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct "all entries of |v| are below +infinity", at any shape: the conjunction over all entries being one
    gives the comparison at each entry, which reads max (v i) (−(v i)) < +infinity. -/
theorem real_of_all {S : Shape} {axes : List (Fin S.rank)} (hb : S_.BroadcastsInDim S (![] : Fin 0 → Fin S.rank))
    (hr : S.ReducesTo axes S_) (h0 : 0 < S_.numel) (v : FVec Ideal S .f32)
    (e : Host.reduce IntOp.andi
        (cmpf .olt (Host.absf v) (broadcastInDim S ![] hb (constant (F := Ideal) S_ .f32 0x7F800000#32)))
        (constantI S_ 1 1#1) hr h0 ix0 = 1#1) :
    Cert.Spec.RealArr v := by
  intro i
  have hi := Host.reduce_andi_all _ _ hr h0 ix0 e i
  have hc : Ideal.cmp .olt (max (v i) (-(v i))) (Ideal.ofBits .f32 0x7F800000#32) = 1#1 := hi
  rw [inf_word] at hc
  unfold Ideal.cmp at hc
  rw [StableHlo.Predicate.ofBool_eq_one_iff, decide_eq_true_eq] at hc
  exact real_of_abs_lt_top _ hc

/-- The word printed for the lower bound is −100000 read signed. -/
theorem lower_word : (4294867296#32 : BitVec 32).toInt = -100000 := by decide
/-- The word printed for the upper bound is 100000 read signed. -/
theorem upper_word : (100000#32 : BitVec 32).toInt = 100000 := by decide

/-- The integer conjunct "all source indices are at least −100000 and below 100000", entry by entry: both signed
    comparisons hold at each entry, and a signed comparison of words is the comparison of their signed values. -/
theorem src_of_all (hb : S_.BroadcastsInDim S1600000 (![] : Fin 0 → Fin S1600000.rank))
    (hr : S1600000.ReducesTo [0] S_) (h0 : 0 < S_.numel) (src : IVec S1600000 32)
    (e : Host.reduce IntOp.andi
        (andi (cmpi .sge src (broadcastInDim S1600000 ![] hb (constantI S_ 32 4294867296#32)))
          (cmpi .slt src (broadcastInDim S1600000 ![] hb (constantI S_ 32 100000#32))))
        (constantI S_ 1 1#1) hr h0 ix0 = 1#1) :
    Cert.Spec.SrcOk src := by
  intro t
  have ht := Host.reduce_andi_all _ _ hr h0 ix0 e t
  have hc : IntOp.andi (IntOp.cmpi .sge (src t) 4294867296#32) (IntOp.cmpi .slt (src t) 100000#32) = 1#1 := ht
  obtain ⟨hge, hlt⟩ := IntOp.andi_eq_one.1 hc
  rw [IntOp.cmpi_sge, lower_word] at hge
  rw [IntOp.cmpi_slt, upper_word] at hlt
  exact ⟨hge, hlt⟩

theorem of_pre (x : FVec Ideal S100000x128 .f32) (src dst : IVec S1600000 32) (W0 : FVec Ideal S128x128 .f32) (b0 : FVec Ideal S128 .f32)
    (W1 : FVec Ideal S128x128 .f32) (b1 : FVec Ideal S128 .f32) (W2 : FVec Ideal S128x64 .f32) (b2 : FVec Ideal S64 .f32)
    (g0 be0 g1 be1 : FVec Ideal S128 .f32)
    (h : Cert.Pre_finite_inputs.fn (F := Ideal) x src dst W0 b0 W1 b1 W2 b2 g0 be0 g1 be1 = (fun _ => 1#1)) :
    Cert.Spec.RealArr x ∧ Cert.Spec.RealArr W0 ∧ Cert.Spec.RealArr b0 ∧ Cert.Spec.RealArr W1 ∧ Cert.Spec.RealArr b1
      ∧ Cert.Spec.RealArr W2 ∧ Cert.Spec.RealArr b2 ∧ Cert.Spec.RealArr g0 ∧ Cert.Spec.RealArr be0 ∧ Cert.Spec.RealArr g1
      ∧ Cert.Spec.RealArr be1 ∧ Cert.Spec.SrcOk src := by
  have e := congrFun h ix0
  dsimp only [Cert.Pre_finite_inputs.fn, Cert.Pre_finite_inputs.fn_part1, Cert.Pre_finite_inputs.fn_part2,
    Cert.Pre_finite_inputs.fn_part3] at e
  -- the conjunction is nested to the left: peel the last conjunct off, twelve conjuncts in all
  obtain ⟨e, hsrc⟩ := IntOp.andi_eq_one.1 e
  obtain ⟨e, hbe1⟩ := IntOp.andi_eq_one.1 e
  obtain ⟨e, hg1⟩ := IntOp.andi_eq_one.1 e
  obtain ⟨e, hbe0⟩ := IntOp.andi_eq_one.1 e
  obtain ⟨e, hg0⟩ := IntOp.andi_eq_one.1 e
  obtain ⟨e, hb2⟩ := IntOp.andi_eq_one.1 e
  obtain ⟨e, hW2⟩ := IntOp.andi_eq_one.1 e
  obtain ⟨e, hb1⟩ := IntOp.andi_eq_one.1 e
  obtain ⟨e, hW1⟩ := IntOp.andi_eq_one.1 e
  obtain ⟨e, hb0⟩ := IntOp.andi_eq_one.1 e
  obtain ⟨hx, hW0⟩ := IntOp.andi_eq_one.1 e
  exact ⟨real_of_all _ _ _ x hx, real_of_all _ _ _ W0 hW0, real_of_all _ _ _ b0 hb0, real_of_all _ _ _ W1 hW1,
    real_of_all _ _ _ b1 hb1, real_of_all _ _ _ W2 hW2, real_of_all _ _ _ b2 hb2, real_of_all _ _ _ g0 hg0,
    real_of_all _ _ _ be0 hbe0, real_of_all _ _ _ g1 hg1, real_of_all _ _ _ be1 hbe1, src_of_all _ _ _ src hsrc⟩

end Cert.PreDecode

end
-- ==== Proof.KernelIdx.lean ====
/-
  The two index columns the kernel program's aggregation uses, as functions of the edge lists.
-/
import proofs.«406583_j75179107549523_3_alg».proof.KernelIdeal
import proofs.«406583_j75179107549523_3_alg».proof.Proof.Gen.KernelIdeal

noncomputable section

namespace Cert.KernelIdeal.Val

open Cert.KernelIdeal Cert.KernelIdeal.Gen Idealize.ShloMosaic

/-- The start indices of the row lookup: a negative source index counts from the end, and the indices stand as a column. -/
def giK (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The scatter indices of the segment sum: the destination indices as a column. -/
def siK (dst : IVec S1600000 32) : IVec S1600000x1 32 :=
  broadcastInDim S1600000x1 ![0] bcast_S1600000_S1600000x1_0 dst

end Cert.KernelIdeal.Val

end
-- ==== Proof.KernelTake.lean ====
/-
  The kernel program's three row lookups. Each is printed as a gather followed by a fill: a row whose (wrapped) start
  index falls outside [0, 99999] is replaced by a fill value. With every source index between -100000 and 99999 the
  wrapped index is always inside, the fill never applies, and the lookup is the plain gather.

  The road: one index word after the wrap lies in [0, 99999], so both comparisons of the range test give the bit 1;
  the test's conjunction over the size-1 axis, started at 1, is then 1 in every row; laid along the rows of the
  result it is the condition of the final select, which therefore returns its first branch, the gather.
-/
import proofs.«406583_j75179107549523_3_alg».proof.Proof.Gen.KernelIdeal.Launch
import proofs.«406583_j75179107549523_3_alg».proof.Proof.Spec
import proofs.«406583_j75179107549523_3_alg».proof.Proof.KernelIdx
import Idealize.ShloMosaic.Lib.StableHlo.Run
import Idealize.ShloMosaic.Lib.StableHlo.Predicate

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo

variable (W : Valuation τ sig (Elt Ideal))

namespace Take

open Idealize.ShloMosaic.ValueIdx Idealize.ShloMosaic.StableHlo.Predicate

/-! ## One index word: after the wrap it lies in [0, 99999] -/

/-- A source word between -100000 and 99999, wrapped (100000 added when it is negative), is at least 0 and at most
    99999: both comparisons of the range test give the bit 1, and so does their conjunction. -/
theorem wrap_word (s : BitVec 32) (h1 : -100000 ≤ s.toInt) (h2 : s.toInt < 100000) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have h0 : (0#32 : BitVec 32).toInt = 0 := by decide
  have h9 : (99999#32 : BitVec 32).toInt = 99999 := by decide
  have hc : (100000#32 : BitVec 32).toInt = 100000 := by decide
  have e11 : IntOp.andi (1#1 : BitVec 1) 1#1 = 1#1 := by decide
  by_cases hneg : s.toInt < 0
  · -- a negative word: the wrap adds 100000, and the sum does not leave the 32-bit range
    have hlt : IntOp.cmpi .slt s 0#32 = 1#1 := by
      show BitVec.ofBool (s.slt 0#32) = 1#1
      rw [ofBool_eq_one_iff]; unfold BitVec.slt; rw [decide_eq_true_eq, h0]; exact hneg
    have hw : (IntOp.addi s 100000#32).toInt = s.toInt + 100000 := by
      show (s + 100000#32).toInt = _
      rw [BitVec.toInt_add, hc]
      exact Int.bmod_eq_of_le (by omega) (by omega)
    rw [hlt, select_one]
    have ha : IntOp.cmpi .sge (IntOp.addi s 100000#32) 0#32 = 1#1 := by
      show BitVec.ofBool ((0#32 : BitVec 32).sle (IntOp.addi s 100000#32)) = 1#1
      rw [ofBool_eq_one_iff]; unfold BitVec.sle; rw [decide_eq_true_eq, h0, hw]; omega
    have hb : IntOp.cmpi .sle (IntOp.addi s 100000#32) 99999#32 = 1#1 := by
      show BitVec.ofBool ((IntOp.addi s 100000#32).sle 99999#32) = 1#1
      rw [ofBool_eq_one_iff]; unfold BitVec.sle; rw [decide_eq_true_eq, h9, hw]; omega
    rw [ha, hb, e11]
  · -- a word that is not negative stays as it is
    have hlt : IntOp.cmpi .slt s 0#32 = 0#1 := by
      apply eq_zero_of_ne_one
      show ¬ BitVec.ofBool (s.slt 0#32) = 1#1
      rw [ofBool_eq_one_iff]; unfold BitVec.slt; rw [decide_eq_true_eq, h0]; exact hneg
    rw [hlt, select_zero]
    have ha : IntOp.cmpi .sge s 0#32 = 1#1 := by
      show BitVec.ofBool ((0#32 : BitVec 32).sle s) = 1#1
      rw [ofBool_eq_one_iff]; unfold BitVec.sle; rw [decide_eq_true_eq, h0]; omega
    have hb : IntOp.cmpi .sle s 99999#32 = 1#1 := by
      show BitVec.ofBool (s.sle 99999#32) = 1#1
      rw [ofBool_eq_one_iff]; unfold BitVec.sle; rw [decide_eq_true_eq, h9]; omega
    rw [ha, hb, e11]

/-! ## A conjunction over bits that are all 1 is 1 -/

/-- A left fold by `and` from the bit 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e11 : IntOp.andi (1#1 : BitVec 1) 1#1 = 1#1 := by decide
    rw [List.foldl_cons, hf a, e11]
    exact foldl_andi_ones f hf l

/-- A reduction by `and`, from an initial value 1, of an array whose every bit is 1 is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- A select whose condition is the bit 1 everywhere is its first branch. -/
theorem select_ones {α : Type} {S : Shape} (m : IVec S 1) (hm : ∀ i, m i = 1#1) (a b : S.Idx → α) : select m a b = a := by
  funext i
  show Scalar.select (m i) (a i) (b i) = a i
  rw [hm i, select_one]

/-! ## The range test of the wrapped start indices -/

/-- With every source index in range, the range test of the wrapped start indices gives the bit 1 in every row. -/
theorem inRange_one (src : IVec S1600000 32) (hsrc : Cert.Spec.SrcOk src) (i : S1600000x1.Idx) :
    andi (cmpi .sge (giK src) (broadcastInDim S1600000x1 ![] bcast_S_S1600000x1 (constantI S_ 32 0#32)))
      (cmpi .sle (giK src) (broadcastInDim S1600000x1 ![0, 1] bcast_S1x1_S1600000x1_0_1
        (broadcastInDim S1x1 ![1] bcast_S1_S1x1_1 (constantI S1 32 99999#32)))) i = 1#1 :=
  wrap_word (src _) (hsrc _).1 (hsrc _).2

/-- So the mask of the lookup — the range test reduced over the size-1 axis and laid along the rows of the result — is
    1 everywhere. -/
theorem mask_one {S : Shape} (dims : Fin S1600000.rank → Fin S.rank) (hb : S1600000.BroadcastsInDim S dims)
    (src : IVec S1600000 32) (hsrc : Cert.Spec.SrcOk src) (i : S.Idx) :
    broadcastInDim S dims hb
      (Host.reduce IntOp.andi
        (andi (cmpi .sge (giK src) (broadcastInDim S1600000x1 ![] bcast_S_S1600000x1 (constantI S_ 32 0#32)))
          (cmpi .sle (giK src) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_) i = 1#1 :=
  reduce_andi_ones _ _ _ _ (inRange_one src hsrc) (fun _ => rfl) _

/-! ## Contents read at a buffer's own type

An operation of a called function reads and writes its buffers through the type the function gives them; at a literal
buffer that type is the buffer's own, and the passage is the identity. -/

/-- Writing contents to a typed buffer and reading them back is the identity. -/
theorem ofBuf_toBuf {T : BufTy} (x : StableHlo.TRef sig T) (v : T.Contents (Elt Ideal)) :
    x.ofBuf (Val := Elt Ideal) (x.toBuf (Val := Elt Ideal) v) = v := by
  obtain ⟨r, e, h1, h2⟩ := x
  subst e
  rfl

/-- The source indices read through their typed buffer are the buffer's contents. -/
theorem ofBuf_arg1 (e : (main_arg1 : Ref sig .tc).ty = ⟨S1600000, .i32⟩) (h1 : (main_arg1 : Ref sig .tc).space ≠ .host)
    (h2 : (main_arg1 : Ref sig .tc).isScoped = false) (v : (main_arg1 : Ref sig .tc).ty.Contents (Elt Ideal)) :
    (StableHlo.TRef.of main_arg1 e h1 h2 : StableHlo.TRef sig ⟨S1600000, .i32⟩).ofBuf (Val := Elt Ideal) v = v := rfl

/-- The first lookup's table read through its typed buffer is the buffer's contents. -/
theorem ofBuf_v0 (e : (main_v0 : Ref sig .tc).ty = ⟨S100000x128, .f32⟩) (h1 : (main_v0 : Ref sig .tc).space ≠ .host)
    (h2 : (main_v0 : Ref sig .tc).isScoped = false) (v : (main_v0 : Ref sig .tc).ty.Contents (Elt Ideal)) :
    (StableHlo.TRef.of main_v0 e h1 h2 : StableHlo.TRef sig ⟨S100000x128, .f32⟩).ofBuf (Val := Elt Ideal) v = v := rfl

/-- The first lookup's result written through its typed buffer is the result. -/
theorem toBuf_v1 (e : (main_v1 : Ref sig .tc).ty = ⟨S1600000x128, .f32⟩) (h1 : (main_v1 : Ref sig .tc).space ≠ .host)
    (h2 : (main_v1 : Ref sig .tc).isScoped = false) (v : (⟨S1600000x128, .f32⟩ : BufTy).Contents (Elt Ideal)) :
    (StableHlo.TRef.of main_v1 e h1 h2 : StableHlo.TRef sig ⟨S1600000x128, .f32⟩).toBuf (Val := Elt Ideal) v = v := rfl

/-- The second lookup's table read through its typed buffer is the buffer's contents. -/
theorem ofBuf_v20_1 (e : (main_v20_1 : Ref sig .tc).ty = ⟨S100000x128, .f32⟩) (h1 : (main_v20_1 : Ref sig .tc).space ≠ .host)
    (h2 : (main_v20_1 : Ref sig .tc).isScoped = false) (v : (main_v20_1 : Ref sig .tc).ty.Contents (Elt Ideal)) :
    (StableHlo.TRef.of main_v20_1 e h1 h2 : StableHlo.TRef sig ⟨S100000x128, .f32⟩).ofBuf (Val := Elt Ideal) v = v := rfl

/-- The second lookup's result written through its typed buffer is the result. -/
theorem toBuf_v21 (e : (main_v21 : Ref sig .tc).ty = ⟨S1600000x128, .f32⟩) (h1 : (main_v21 : Ref sig .tc).space ≠ .host)
    (h2 : (main_v21 : Ref sig .tc).isScoped = false) (v : (⟨S1600000x128, .f32⟩ : BufTy).Contents (Elt Ideal)) :
    (StableHlo.TRef.of main_v21 e h1 h2 : StableHlo.TRef sig ⟨S1600000x128, .f32⟩).toBuf (Val := Elt Ideal) v = v := rfl

/-- The third lookup's table read through its typed buffer is the buffer's contents. -/
theorem ofBuf_v40_1 (e : (main_v40_1 : Ref sig .tc).ty = ⟨S100000x64, .f32⟩) (h1 : (main_v40_1 : Ref sig .tc).space ≠ .host)
    (h2 : (main_v40_1 : Ref sig .tc).isScoped = false) (v : (main_v40_1 : Ref sig .tc).ty.Contents (Elt Ideal)) :
    (StableHlo.TRef.of main_v40_1 e h1 h2 : StableHlo.TRef sig ⟨S100000x64, .f32⟩).ofBuf (Val := Elt Ideal) v = v := rfl

/-- The third lookup's result written through its typed buffer is the result. -/
theorem toBuf_v41 (e : (main_v41 : Ref sig .tc).ty = ⟨S1600000x64, .f32⟩) (h1 : (main_v41 : Ref sig .tc).space ≠ .host)
    (h2 : (main_v41 : Ref sig .tc).isScoped = false) (v : (⟨S1600000x64, .f32⟩ : BufTy).Contents (Elt Ideal)) :
    (StableHlo.TRef.of main_v41 e h1 h2 : StableHlo.TRef sig ⟨S1600000x64, .f32⟩).toBuf (Val := Elt Ideal) v = v := rfl

end Take

open Take

/-! ## The row lookups: with every source index in range, the fill never applies -/

theorem take0 (hsrc : Cert.Spec.SrcOk (W (Proc.devRef .tc main_arg1))) :
    StableHlo.after (hostOps1 (F := Ideal)) W (Proc.devRef .tc main_v1)
      = Host.gather gather_S100000x128_S1600000x1_S1600000x128_1_0_n_n_0_1_1128 (W (Proc.devRef .tc main_v0)) (giK (W (Proc.devRef .tc main_arg1))) := by
  -- the 23 operations composed: select mask (gather table wrapped) fill
  unfold hostOps1
  after_results_simp
  simp only [ofBuf_toBuf, ofBuf_arg1, ofBuf_v0, toBuf_v1]
  -- the mask is 1 everywhere, so the select is its first branch
  exact select_ones _ (mask_one _ _ _ hsrc) _ _

theorem take1 (hsrc : Cert.Spec.SrcOk (W (Proc.devRef .tc main_arg1))) :
    StableHlo.after (hostOps3 (F := Ideal)) W (Proc.devRef .tc main_v21)
      = Host.gather gather_S100000x128_S1600000x1_S1600000x128_1_0_n_n_0_1_1128 (W (Proc.devRef .tc main_v20_1)) (giK (W (Proc.devRef .tc main_arg1))) := by
  unfold hostOps3
  after_results_simp
  simp only [ofBuf_toBuf, ofBuf_arg1, ofBuf_v20_1, toBuf_v21]
  exact select_ones _ (mask_one _ _ _ hsrc) _ _

theorem take2 (hsrc : Cert.Spec.SrcOk (W (Proc.devRef .tc main_arg1))) :
    StableHlo.after (hostOps5 (F := Ideal)) W (Proc.devRef .tc main_v41)
      = Host.gather gather_S100000x64_S1600000x1_S1600000x64_1_0_n_n_0_1_164 (W (Proc.devRef .tc main_v40_1)) (giK (W (Proc.devRef .tc main_arg1))) := by
  unfold hostOps5
  after_results_simp
  simp only [ofBuf_toBuf, ofBuf_arg1, ofBuf_v40_1, toBuf_v41]
  exact select_ones _ (mask_one _ _ _ hsrc) _ _

end Cert.KernelIdeal.Val

end
-- ==== Proof.KernelHost.lean ====
/-
  The host operations between the kernel program's six launches, read as functions of the buffers they find.
-/
import proofs.«406583_j75179107549523_3_alg».proof.Proof.Gen.KernelIdeal.Launch
import proofs.«406583_j75179107549523_3_alg».proof.Proof.Spec
import proofs.«406583_j75179107549523_3_alg».proof.Proof.KernelIdx
import Idealize.ShloMosaic.Lib.StableHlo.Run
import Idealize.ShloMosaic.Lib.StableHlo.Predicate
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx

variable (W : Valuation τ sig (Elt Ideal))

/-! ## The layout operations of the stretches, read at an index -/

namespace HostRead

/-- The zero word broadcast from a scalar to any shape is the zero array. -/
theorem zeros_eq {t : Shape} (h : (⟨0, ![]⟩ : Shape).BroadcastsInDim t ![]) :
    broadcastInDim t ![] h (constant (F := Ideal) S_ .f32 0x00000000#32) = fun _ => (0 : EReal) := by
  funext j
  show Ideal.ofBits .f32 0x00000000#32 = 0
  exact Ideal.ofBits_zero_f32

/-- A vector recast as a one-row matrix reads, at (0, q), the vector at q. -/
theorem cast_row {c : Nat} (v : Cert.Spec.Row c) (h : (⟨1, ![c]⟩ : Shape).ShapeCasts ⟨2, ![1, c]⟩) :
    shapeCast ⟨2, ![1, c]⟩ v h = Cert.Spec.asRow1 v := by
  funext i
  rw [shapeCast_addUnit_apply ![c] v h i]
  unfold Cert.Spec.asRow1
  congr 1
  funext a
  match a with
  | ⟨0, _⟩ => rfl

/-- The tiles' first rows: the [160,128] array recast as [20,8,128], its rows (t,0,·) cut out and recast as [20,128],
    reads at (t, q) the array at (8t, q): both recasts keep the row-major position, (8t+0)·128+q. -/
theorem first_rows (s : Cert.Spec.Arr 160 128)
    (h1 : S160x128.ShapeCasts S20x8x128) (h2 : S20x8x128.Slices ![0, 0, 0] S20x1x128) (h3 : S20x1x128.ShapeCasts S20x128)
    (t : Fin 20) (q : Fin 128) :
    shapeCast S20x128 (extractStridedSlice S20x1x128 ![0, 0, 0] (shapeCast S20x8x128 s h1) h2) h3 (ix2 t q)
      = s (ix2 ⟨8 * t.val, by omega⟩ q) := by
  refine (shapeCast_apply _ h3 (ix2 t q) (ix3 t (0 : Fin 1) q) ?_).trans ?_
  · rw [Shape.rowMajor_val_three, Shape.rowMajor_val_two]
    show (t.val * 1 + 0) * 128 + q.val = t.val * 128 + q.val
    omega
  refine (extractStridedSlice_apply _ _ h2 (ix3 t (0 : Fin 1) q) (ix3 t (0 : Fin 8) q) ?_).trans ?_
  · intro a
    match a with
    | ⟨0, _⟩ => show t.val = 0 + t.val; omega
    | ⟨1, _⟩ => show 0 = 0 + 0; rfl
    | ⟨2, _⟩ => show q.val = 0 + q.val; omega
  refine shapeCast_apply _ h1 (ix3 t (0 : Fin 8) q) (ix2 ⟨8 * t.val, by omega⟩ q) ?_
  rw [Shape.rowMajor_val_three, Shape.rowMajor_val_two]
  show (8 * t.val) * 128 + q.val = (t.val * 8 + 0) * 128 + q.val
  omega

/-- The host sum over the first axis of a [20,128] array from zero, at q: zero plus the sum of the 20 entries of column q. -/
theorem reduce_rows (X : S20x128.Idx → EReal) (h' : S20x128.ReducesTo [0] S128) (q : Fin 128) :
    Ideal.hostReduceAdd h' X 0 (ix1 q) = 0 + ∑ t : Fin 20, X (ix2 t q) := by
  have h : S20x128.Reduces [0] S128 := by decide
  rw [Ideal.hostReduceAdd_single h' h]
  show (0 : EReal) + ∑ t : Fin 20, X (h.lift (ix1 q) t) = _
  congr 1
  refine Finset.sum_congr rfl fun t _ => congrArg X ?_
  funext a
  match a with
  | ⟨0, _⟩ => rfl
  | ⟨1, _⟩ => rfl

/-- A vector placed as the one row of a [1,128] matrix reads, at (0, q), the vector at q. -/
theorem bcast_row (v : S128.Idx → EReal) (h : S128.BroadcastsInDim S1x128 ![1]) (i : S1x128.Idx) :
    broadcastInDim S1x128 ![1] h v i = v (ix1 (Cert.Spec.c1 i)) :=
  broadcastInDim_apply _ h v i (ix1 (Cert.Spec.c1 i)) (fun a => match a with | ⟨0, _⟩ => rfl)

/-- The statistics row: the first rows of the 20 tiles, summed from zero over the tiles, as a one-row matrix. -/
theorem sum_of_tiles (s : Cert.Spec.Arr 160 128)
    (h1 : S160x128.ShapeCasts S20x8x128) (h2 : S20x8x128.Slices ![0, 0, 0] S20x1x128) (h3 : S20x1x128.ShapeCasts S20x128)
    (hr : S20x128.ReducesTo [0] S128) (hS : 0 < S_.numel) (hb : S128.BroadcastsInDim S1x128 ![1]) :
    broadcastInDim S1x128 ![1] hb
        (Host.reduceAdd (shapeCast S20x128 (extractStridedSlice S20x1x128 ![0, 0, 0] (shapeCast S20x8x128 s h1) h2) h3)
          (constant (F := Ideal) S_ .f32 0x00000000#32) hr hS)
      = Cert.Spec.rowOfTiles s := by
  funext i
  rw [bcast_row]
  show Ideal.hostReduceAdd hr _ (Ideal.ofBits .f32 0x00000000#32) (ix1 (Cert.Spec.c1 i)) = _
  rw [Ideal.ofBits_zero_f32, reduce_rows]
  unfold Cert.Spec.rowOfTiles
  congr 1
  exact Finset.sum_congr rfl fun t _ => first_rows s h1 h2 h3 t (Cert.Spec.c1 i)

end HostRead

open HostRead

/-! ## The segment sums and the bias rows

Each stretch scatters the edge rows into a zero array at the destination indices stood as a column, and recasts the
layer's bias vector as a one-row matrix. -/

theorem scat0 : StableHlo.after (hostOps1_1 (F := Ideal)) W (Proc.devRef .tc main_v4)
    = Ideal.hostScatterAdd scatter_S100000x128_S1600000x1_S1600000x128_1_0_0_1 (fun _ => (0 : EReal)) (siK (W (Proc.devRef .tc main_arg2))) (W (Proc.devRef .tc main_v1)) := by
  after_results
  show Ideal.hostScatterAdd _ _ _ _ = _
  rw [zeros_eq]
  rfl
theorem bias0 : StableHlo.after (hostOps1_1 (F := Ideal)) W (Proc.devRef .tc main_v5) = Cert.Spec.asRow1 (W (Proc.devRef .tc main_arg4)) := by
  after_results
  exact cast_row (W (Proc.devRef .tc main_arg4)) shapeCasts_S128_S1x128

theorem scat1 : StableHlo.after (hostOps3_1 (F := Ideal)) W (Proc.devRef .tc main_v24)
    = Ideal.hostScatterAdd scatter_S100000x128_S1600000x1_S1600000x128_1_0_0_1 (fun _ => (0 : EReal)) (siK (W (Proc.devRef .tc main_arg2))) (W (Proc.devRef .tc main_v21)) := by
  after_results
  show Ideal.hostScatterAdd _ _ _ _ = _
  rw [zeros_eq]
  rfl
theorem bias1 : StableHlo.after (hostOps3_1 (F := Ideal)) W (Proc.devRef .tc main_v25) = Cert.Spec.asRow1 (W (Proc.devRef .tc main_arg6)) := by
  after_results
  exact cast_row (W (Proc.devRef .tc main_arg6)) shapeCasts_S128_S1x128

theorem scat2 : StableHlo.after (hostOps5_1 (F := Ideal)) W (Proc.devRef .tc main_v44)
    = Ideal.hostScatterAdd scatter_S100000x64_S1600000x1_S1600000x64_1_0_0_1 (fun _ => (0 : EReal)) (siK (W (Proc.devRef .tc main_arg2))) (W (Proc.devRef .tc main_v41)) := by
  after_results
  show Ideal.hostScatterAdd _ _ _ _ = _
  rw [zeros_eq]
  rfl
theorem bias2 : StableHlo.after (hostOps5_1 (F := Ideal)) W (Proc.devRef .tc main_v45) = Cert.Spec.asRow1 (W (Proc.devRef .tc main_arg8)) := by
  after_results
  exact cast_row (W (Proc.devRef .tc main_arg8)) shapeCasts_S64_S1x64

/-! ## The statistics between the two kernels of a layer -/

theorem stats0_sum : StableHlo.after (hostOps2 (F := Ideal)) W (Proc.devRef .tc main_v14) = Cert.Spec.rowOfTiles (W (Proc.devRef .tc main_v6_0)) := by
  after_results
  exact sum_of_tiles (W (Proc.devRef .tc main_v6_0)) _ _ _ _ _ _
theorem stats0_sumsq : StableHlo.after (hostOps2 (F := Ideal)) W (Proc.devRef .tc main_v16) = Cert.Spec.rowOfTiles (W (Proc.devRef .tc main_v6_1)) := by
  after_results
  exact sum_of_tiles (W (Proc.devRef .tc main_v6_1)) _ _ _ _ _ _
theorem stats0_g : StableHlo.after (hostOps2 (F := Ideal)) W (Proc.devRef .tc main_v17) = Cert.Spec.asRow1 (W (Proc.devRef .tc main_arg9)) := by
  after_results
  exact cast_row (W (Proc.devRef .tc main_arg9)) shapeCasts_S128_S1x128
theorem stats0_be : StableHlo.after (hostOps2 (F := Ideal)) W (Proc.devRef .tc main_v18) = Cert.Spec.asRow1 (W (Proc.devRef .tc main_arg10)) := by
  after_results
  exact cast_row (W (Proc.devRef .tc main_arg10)) shapeCasts_S128_S1x128
theorem stats0_b : StableHlo.after (hostOps2 (F := Ideal)) W (Proc.devRef .tc main_v19) = Cert.Spec.asRow1 (W (Proc.devRef .tc main_arg4)) := by
  after_results
  exact cast_row (W (Proc.devRef .tc main_arg4)) shapeCasts_S128_S1x128

theorem stats1_sum : StableHlo.after (hostOps4 (F := Ideal)) W (Proc.devRef .tc main_v34) = Cert.Spec.rowOfTiles (W (Proc.devRef .tc main_v26_0)) := by
  after_results
  exact sum_of_tiles (W (Proc.devRef .tc main_v26_0)) _ _ _ _ _ _
theorem stats1_sumsq : StableHlo.after (hostOps4 (F := Ideal)) W (Proc.devRef .tc main_v36) = Cert.Spec.rowOfTiles (W (Proc.devRef .tc main_v26_1)) := by
  after_results
  exact sum_of_tiles (W (Proc.devRef .tc main_v26_1)) _ _ _ _ _ _
theorem stats1_g : StableHlo.after (hostOps4 (F := Ideal)) W (Proc.devRef .tc main_v37) = Cert.Spec.asRow1 (W (Proc.devRef .tc main_arg11)) := by
  after_results
  exact cast_row (W (Proc.devRef .tc main_arg11)) shapeCasts_S128_S1x128
theorem stats1_be : StableHlo.after (hostOps4 (F := Ideal)) W (Proc.devRef .tc main_v38) = Cert.Spec.asRow1 (W (Proc.devRef .tc main_arg12)) := by
  after_results
  exact cast_row (W (Proc.devRef .tc main_arg12)) shapeCasts_S128_S1x128
theorem stats1_b : StableHlo.after (hostOps4 (F := Ideal)) W (Proc.devRef .tc main_v39) = Cert.Spec.asRow1 (W (Proc.devRef .tc main_arg6)) := by
  after_results
  exact cast_row (W (Proc.devRef .tc main_arg6)) shapeCasts_S128_S1x128

end Cert.KernelIdeal.Val

end
-- ==== Proof.Region0.lean ====
/-
  The first launch: twenty tiles of 5000 rows, each tile's rows multiplied into the weight matrix. At the ideal
  instance the narrowing of the operands is the identity, so the output array is the matrix product, row by row.

  Tile t of the output holds rows 5000·t … 5000·t + 4999. Its entry (p, q) is the sum over k of the input's entry in
  row 5000·t + p, column k, times the weight matrix's entry (k, q); the weight matrix is read whole by every tile.
  The twenty tiles partition the rows, so the output array is the product of the two arrays.
-/
import proofs.«406583_j75179107549523_3_alg».proof.Proof.Gen.KernelIdeal.Frame
import proofs.«406583_j75179107549523_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

namespace Prod0

/-- The input array as the launch finds it. -/
abbrev xin0 (c : Dev nD) : Cert.Spec.Arr 100000 128 := V c main_arg0
/-- The weight matrix as the launch finds it. -/
abbrev wt0 (c : Dev nD) : Cert.Spec.Arr 128 128 := V c main_arg3

/-- The zero offsets of a whole-tile access, however spelt. -/
theorem zeroOff0 : (![0, 0] : Fin 2 → Nat) = fun _ => 0 :=
  funext fun a => match a with | ⟨0, _⟩ => rfl | ⟨1, _⟩ => rfl

/-- The left operand's row is the output's row, whatever the summation position. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the summation position. -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

/-- The right operand's row is the summation position. -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

/-- The right operand's column is the output's column, whatever the summation position. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- One entry of a stored tile: row p of the input tile against column q of the weight matrix. -/
theorem prodTile_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]
  rfl

/-- The tiles' positions, decided over the twenty grid points: the input's and the output's tile at point t is tile t
    along the rows, and the weight matrix is read whole. -/
theorem tileAt0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the product of the two arrays. -/
theorem flushed0_eq (c : Dev nD) (t : Fin cfg0.N) :
    (dat0 (F := Ideal) V c).flushed 2 t
      = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero zeroOff0]
  simp only [View.ld_unit_zero (S := S5000x128) zeroOff0, View.ld_unit_zero (S := S128x128) zeroOff0]
  funext j
  obtain ⟨p, q, rfl⟩ : ∃ (p : Fin 5000) (q : Fin 128), j = ix2 p q := ⟨j 0, j 1, eq_ix2 j⟩
  refine (prodTile_apply (iblk0 V c 0 t) (iblk0 V c 1 t) p q).trans ?_
  obtain ⟨e00, e01, e10, e11, e20, e21⟩ := tileAt0 t
  show ∑ k : Fin 128, xin0 V c (((cfg0.win 0).blk t).view.emb (ix2 p k)) * wt0 V c (((cfg0.win 1).blk t).view.emb (ix2 k q))
    = ∑ k : Fin 128, xin0 V c (ix2 (Cert.Spec.c0 (((cfg0.win 2).blk t).view.emb (ix2 p q))) k)
        * wt0 V c (ix2 k (Cert.Spec.c1 (((cfg0.win 2).blk t).view.emb (ix2 p q))))
  refine Finset.sum_congr rfl fun k _ => ?_
  have h0 : ((cfg0.win 0).blk t).view.emb (ix2 p k)
      = ix2 (Cert.Spec.c0 (((cfg0.win 2).blk t).view.emb (ix2 p q))) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q)
      = ix2 k (Cert.Spec.c1 (((cfg0.win 2).blk t).view.emb (ix2 p q))) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- A position of the output lies in point t's tile iff, on each axis, it is within the tile's range. -/
theorem mem_tile0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every position of the output is written back by some point: row r by point r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, e20, e21⟩ := tileAt0 t
  refine ⟨t, flush0_2 t, ?_⟩
  rw [mem_tile0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

end Prod0

/-- After the launch the output array is the product of the two input arrays as the launch found them. -/
theorem region0_out (c : Dev nD) :
    (dat0 (F := Ideal) V c).arrAt 2 cfg0.N = Cert.Spec.mm (V c main_arg0) (V c main_arg3) :=
  (dat0 (F := Ideal) V c).arrAt_eq_of_cover 2 (Cert.Spec.mm (V c main_arg0) (V c main_arg3))
    (fun t _ => Prod0.flushed0_eq V c t) Prod0.covered0

end Cert.KernelIdeal.Val

end
-- ==== Proof.Region1.lean ====
/-
  The statistics launch of the first layer: each of twenty tiles of 5000 rows writes its column sums, and its
  column sums of squares, of (aggregate + bias) into its own eight output rows.
-/
import proofs.«406583_j75179107549523_3_alg».proof.Proof.Gen.KernelIdeal.Frame
import proofs.«406583_j75179107549523_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

namespace Stats1

/-- The zero offset pair is the constant zero offset. -/
theorem hz : (![0, 0] : Fin 2 → Nat) = fun _ => 0 := funext fun a => by fin_cases a <;> rfl

/-- The block indices over the grid: the long input and both outputs move one block down per point, the row
    vector is fetched whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Entry (p, q) of the summand block: the tile's entry plus the row vector's entry of the same column. -/
theorem pay1_apply (x0 : FVec Ideal S5000x128 .f32) (x1 : FVec Ideal S1x128 .f32) (p : Fin 5000) (q : Fin 128) :
    k1_pay1 x0 x1 (ix2 p q) = x0 (ix2 p q) + x1 (ix2 (0 : Fin 1) q) := by
  unfold k1_pay1
  show addf (shapeCast S5000x128 x0 _) (broadcastTo S5000x128 (shapeCast S1x128 x1 _) _) (ix2 p q) = _
  rw [addf_apply, shapeCast_self, shapeCast_self, broadcastTo_1b_ab_apply]

/-- A sum over the rows of a [5000,128] block, read in column q: the lane reduction over axis 0. -/
theorem colsum_apply (src : FVec Ideal S5000x128 .f32) (hacc : (0x00000000#32 : BitVec 32) = 0x00000000#32) (q : Fin 128) :
    multiReduction .add [0] S128 src 0x00000000#32 reduces_S5000x128_S128 (.inl rfl) hacc (ix1 q)
      = ∑ r : Fin 5000, src (ix2 r q) := by
  refine (Ideal.multiReduction_add_single src 0x00000000#32 reduces_S5000x128_S128 (.inl rfl) hacc (ix1 q)).trans ?_
  refine Finset.sum_congr rfl fun r _ => ?_
  congr 1
  funext a
  apply Fin.ext
  match a with
  | ⟨0, _⟩ => rfl
  | ⟨1, _⟩ => rfl

/-- Entry (s, q) of the first output block: the sum over the tile's 5000 rows of the summand in column q,
    the same in each of the eight rows. -/
theorem pay2_apply (x0 : FVec Ideal S5000x128 .f32) (x1 : FVec Ideal S1x128 .f32) (s : Fin 8) (q : Fin 128) :
    k1_pay2 x0 x1 (ix2 s q) = ∑ r : Fin 5000, k1_pay1 (F := Ideal) x0 x1 (ix2 r q) := by
  unfold k1_pay2
  show broadcastTo S8x128 (shapeCast S1x128 (shapeCast S1x128 (multiReduction .add [0] S128 (k1_pay1 (F := Ideal) x0 x1) 0x00000000#32 reduces_S5000x128_S128 (.inl rfl) rfl) shapeCasts_S128_S1x128) shapeCasts_S1x128_S1x128) broadcasts_S1x128_S8x128 (ix2 s q) = _
  rw [broadcastTo_1b_ab_apply, shapeCast_self, shapeCast_a_1a_apply]
  exact colsum_apply (k1_pay1 (F := Ideal) x0 x1) rfl q

/-- Entry (s, q) of the second output block: the same sum with every summand squared. -/
theorem pay3_apply (x0 : FVec Ideal S5000x128 .f32) (x1 : FVec Ideal S1x128 .f32) (s : Fin 8) (q : Fin 128) :
    k1_pay3 x0 x1 (ix2 s q)
      = ∑ r : Fin 5000, (k1_pay1 (F := Ideal) x0 x1 (ix2 r q) * k1_pay1 (F := Ideal) x0 x1 (ix2 r q)) := by
  unfold k1_pay3
  show broadcastTo S8x128 (shapeCast S1x128 (shapeCast S1x128 (multiReduction .add [0] S128 (mulf (k1_pay1 (F := Ideal) x0 x1) (k1_pay1 (F := Ideal) x0 x1)) 0x00000000#32 reduces_S5000x128_S128 (.inl rfl) rfl) shapeCasts_S128_S1x128) shapeCasts_S1x128_S1x128) broadcasts_S1x128_S8x128 (ix2 s q) = _
  rw [broadcastTo_1b_ab_apply, shapeCast_self, shapeCast_a_1a_apply]
  refine (colsum_apply (mulf (k1_pay1 (F := Ideal) x0 x1) (k1_pay1 (F := Ideal) x0 x1)) rfl q).trans ?_
  exact Finset.sum_congr rfl fun r _ => mulf_apply _ _ _

/-- The long input's block at point t is rows 5000·t … 5000·t + 4999 of the array. -/
theorem iblk0_apply (c : Dev nD) (t : Fin cfg1.N) (x : S5000x128.Idx) (k : S100000x128.Idx)
    (hk0 : (k 0).val = 5000 * t.val + (x 0).val) (hk1 : (k 1).val = (x 1).val) :
    (iblk1 (F := Ideal) V c 0 t : FVec Ideal S5000x128 .f32) x = (V c main_v4 : S100000x128.Idx → Elt Ideal .f32) k := by
  obtain ⟨e0, e1, -⟩ := idx_facts t
  unfold iblk1
  rw [View.read_apply]
  show V c main_v4 _ = V c main_v4 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The row vector's block at every point is the whole one-row array. -/
theorem iblk1_apply (c : Dev nD) (t : Fin cfg1.N) (x : S1x128.Idx) (k : S1x128.Idx)
    (hk0 : (k 0).val = (x 0).val) (hk1 : (k 1).val = (x 1).val) :
    (iblk1 (F := Ideal) V c 1 t : FVec Ideal S1x128 .f32) x = (V c main_v5 : S1x128.Idx → Elt Ideal .f32) k := by
  obtain ⟨-, -, e2, e3, -⟩ := idx_facts t
  unfold iblk1
  rw [View.read_apply]
  show V c main_v5 _ = V c main_v5 _
  congr 1
  funext a
  apply Fin.ext
  match a with
  | ⟨0, _⟩ => show win1_1.index t (0 : Fin 2) * 1 + 1 * (x 0).val = (k 0).val; rw [e2, hk0]; omega
  | ⟨1, _⟩ => show win1_1.index t (1 : Fin 2) * 128 + 1 * (x 1).val = (k 1).val; rw [e3, hk1]; omega

/-- The summand block at point t, entry (r, q): entry (5000·t + r, q) of the long array plus the row vector's
    entry q. -/
theorem summand_eq (c : Dev nD) (t : Fin cfg1.N) (r : Fin 5000) (q : Fin 128) (k : S100000x128.Idx)
    (hk0 : (k 0).val = 5000 * t.val + r.val) (hk1 : (k 1).val = q.val) :
    k1_pay1 (F := Ideal) (iblk1 (F := Ideal) V c 0 t) (iblk1 (F := Ideal) V c 1 t) (ix2 r q)
      = Cert.Spec.addRow1 (V c main_v4) (V c main_v5) k := by
  refine (pay1_apply (iblk1 (F := Ideal) V c 0 t) (iblk1 (F := Ideal) V c 1 t) r q).trans ?_
  unfold Cert.Spec.addRow1
  congr 1
  · exact iblk0_apply V c t _ _ hk0 hk1
  · exact iblk1_apply V c t _ _ rfl hk1

/-- What point t writes back to the first output is block t of the tile sums. -/
theorem flushed2_eq (c : Dev nD) (t : Fin cfg1.N) :
    (dat1 (F := Ideal) V c).flushed 2 t
      = ((cfg1.win 2).blk t).view.read (Elt Ideal) (Cert.Spec.tileSums (V c main_v4) (V c main_v5)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S1x128) hz]
  obtain ⟨-, -, -, -, e4, e5, -⟩ := idx_facts t
  refine funext fun (j : S8x128.Idx) => ?_
  obtain ⟨s, q, rfl⟩ : ∃ (s : Fin 8) (q : Fin 128), j = ix2 s q := ⟨_, _, eq_ix2 j⟩
  rw [View.read_apply]
  refine (pay2_apply (iblk1 (F := Ideal) V c 0 t) (iblk1 (F := Ideal) V c 1 t) s q).trans ?_
  unfold Cert.Spec.tileSums
  refine Finset.sum_congr rfl fun r _ => ?_
  have h0 : ((((cfg1.win 2).blk t).view.emb (ix2 s q)) 0).val = win1_2.index t (0 : Fin 2) * 8 + 1 * s.val := rfl
  have h1 : ((((cfg1.win 2).blk t).view.emb (ix2 s q)) 1).val = win1_2.index t (1 : Fin 2) * 128 + 1 * q.val := rfl
  have H0 : 5000 * (((((cfg1.win 2).blk t).view.emb (ix2 s q)) 0).val / 8) + r.val = 5000 * t.val + r.val := by
    rw [h0, e4]; have := s.isLt; omega
  have H1 : ((((cfg1.win 2).blk t).view.emb (ix2 s q)) 1).val = q.val := by rw [h1, e5]; omega
  exact summand_eq V c t r q _ H0 H1

/-- What point t writes back to the second output is block t of the tile sums of squares. -/
theorem flushed3_eq (c : Dev nD) (t : Fin cfg1.N) :
    (dat1 (F := Ideal) V c).flushed 3 t
      = ((cfg1.win 3).blk t).view.read (Elt Ideal) (Cert.Spec.tileSumSqs (V c main_v4) (V c main_v5)) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S1x128) hz]
  obtain ⟨-, -, -, -, -, -, e6, e7⟩ := idx_facts t
  refine funext fun (j : S8x128.Idx) => ?_
  obtain ⟨s, q, rfl⟩ : ∃ (s : Fin 8) (q : Fin 128), j = ix2 s q := ⟨_, _, eq_ix2 j⟩
  rw [View.read_apply]
  refine (pay3_apply (iblk1 (F := Ideal) V c 0 t) (iblk1 (F := Ideal) V c 1 t) s q).trans ?_
  unfold Cert.Spec.tileSumSqs
  refine Finset.sum_congr rfl fun r _ => ?_
  have h0 : ((((cfg1.win 3).blk t).view.emb (ix2 s q)) 0).val = win1_3.index t (0 : Fin 2) * 8 + 1 * s.val := rfl
  have h1 : ((((cfg1.win 3).blk t).view.emb (ix2 s q)) 1).val = win1_3.index t (1 : Fin 2) * 128 + 1 * q.val := rfl
  have H0 : 5000 * (((((cfg1.win 3).blk t).view.emb (ix2 s q)) 0).val / 8) + r.val = 5000 * t.val + r.val := by
    rw [h0, e6]; have := s.isLt; omega
  have H1 : ((((cfg1.win 3).blk t).view.emb (ix2 s q)) 1).val = q.val := by rw [h1, e7]; omega
  congr 1 <;> exact summand_eq V c t r q _ H0 H1

/-- An index of the first output is in point t's block iff each coordinate is in the block's range on its axis. -/
theorem mem_blk2 (t : Fin cfg1.N) (i : S160x128.Idx) :
    i ∈ ((cfg1.win 2).blk t).view.set
      ↔ ∀ a : Fin 2, win1_2.index t a * S8x128.size a ≤ (i a).val ∧ (i a).val < win1_2.index t a * S8x128.size a + S8x128.size a := by
  show i ∈ ((View.whole main_v6_0).slice (win1_2.rect t)).set ↔ _
  rw [View.set_slice_whole, Rect.mem_set_unit]
  exact Iff.rfl

/-- The same for the second output. -/
theorem mem_blk3 (t : Fin cfg1.N) (i : S160x128.Idx) :
    i ∈ ((cfg1.win 3).blk t).view.set
      ↔ ∀ a : Fin 2, win1_3.index t a * S8x128.size a ≤ (i a).val ∧ (i a).val < win1_3.index t a * S8x128.size a + S8x128.size a := by
  show i ∈ ((View.whole main_v6_1).slice (win1_3.rect t)).set ↔ _
  rw [View.set_slice_whole, Rect.mem_set_unit]
  exact Iff.rfl

/-- The point whose block holds row r of a 160-row output: r / 8. -/
def pointOf (i : S160x128.Idx) : Fin cfg1.N :=
  ⟨(i 0).val / 8, by have h : (i 0).val < 160 := (i 0).isLt; have hN : cfg1.N = 20 := N_1; omega⟩

/-- Every index of the first output is in the block of the point its row belongs to. -/
theorem cover2 (i : S160x128.Idx) :
    ∃ t : Fin cfg1.N, (cfg1.win 2).flush t = true ∧ i ∈ ((cfg1.win 2).blk t).view.set := by
  refine ⟨pointOf i, flush1_2 _, ?_⟩
  rw [mem_blk2]
  obtain ⟨-, -, -, -, e4, e5, -⟩ := idx_facts (pointOf i)
  have hv : (pointOf i).val = (i 0).val / 8 := rfl
  have h0 : (i 0).val < 160 := (i 0).isLt
  have h1 : (i 1).val < 128 := (i 1).isLt
  intro a
  match a with
  | ⟨0, _⟩ =>
    show win1_2.index (pointOf i) (0 : Fin 2) * 8 ≤ (i 0).val ∧ (i 0).val < win1_2.index (pointOf i) (0 : Fin 2) * 8 + 8
    rw [e4, hv]; omega
  | ⟨1, _⟩ =>
    show win1_2.index (pointOf i) (1 : Fin 2) * 128 ≤ (i 1).val ∧ (i 1).val < win1_2.index (pointOf i) (1 : Fin 2) * 128 + 128
    rw [e5]; omega

/-- The same for the second output. -/
theorem cover3 (i : S160x128.Idx) :
    ∃ t : Fin cfg1.N, (cfg1.win 3).flush t = true ∧ i ∈ ((cfg1.win 3).blk t).view.set := by
  refine ⟨pointOf i, flush1_3 _, ?_⟩
  rw [mem_blk3]
  obtain ⟨-, -, -, -, -, -, e6, e7⟩ := idx_facts (pointOf i)
  have hv : (pointOf i).val = (i 0).val / 8 := rfl
  have h0 : (i 0).val < 160 := (i 0).isLt
  have h1 : (i 1).val < 128 := (i 1).isLt
  intro a
  match a with
  | ⟨0, _⟩ =>
    show win1_3.index (pointOf i) (0 : Fin 2) * 8 ≤ (i 0).val ∧ (i 0).val < win1_3.index (pointOf i) (0 : Fin 2) * 8 + 8
    rw [e6, hv]; omega
  | ⟨1, _⟩ =>
    show win1_3.index (pointOf i) (1 : Fin 2) * 128 ≤ (i 1).val ∧ (i 1).val < win1_3.index (pointOf i) (1 : Fin 2) * 128 + 128
    rw [e7]; omega

end Stats1

theorem region1_sum (c : Dev nD) :
    (dat1 (F := Ideal) V c).arrAt 2 cfg1.N = Cert.Spec.tileSums (V c main_v4) (V c main_v5) :=
  (dat1 (F := Ideal) V c).arrAt_eq_of_cover 2 (Cert.Spec.tileSums (V c main_v4) (V c main_v5))
    (fun t _ => Stats1.flushed2_eq V c t) Stats1.cover2

theorem region1_sumsq (c : Dev nD) :
    (dat1 (F := Ideal) V c).arrAt 3 cfg1.N = Cert.Spec.tileSumSqs (V c main_v4) (V c main_v5) :=
  (dat1 (F := Ideal) V c).arrAt_eq_of_cover 3 (Cert.Spec.tileSumSqs (V c main_v4) (V c main_v5))
    (fun t _ => Stats1.flushed3_eq V c t) Stats1.cover3

end Cert.KernelIdeal.Val

end
-- ==== Proof.Region2.lean ====
/-
  The normalising launch of the first layer: each tile normalises its 5000 rows of (aggregate + bias) by the
  column statistics, scales, shifts, adds the residual rows, clips at zero, writes the result, and multiplies
  it into the next layer's weight matrix.
-/
import proofs.«406583_j75179107549523_3_alg».proof.Proof.Gen.KernelIdeal.Frame
import proofs.«406583_j75179107549523_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

/-!
  The launch runs over 20 tiles. Tile t reads rows 5000·t … 5000·t + 4999 of the aggregate and of the residual,
  the five [1,128] rows (column sums, column sums of squares, scale, shift, bias) and the 128 × 128 weight
  matrix whole, and writes the same rows of the two outputs. Entry (p, k) of the first output's tile is
  bnScalar of the column's mean s(0,k)/N and variance q(0,k)/N − (s(0,k)/N)², of a(p,k) + bias(0,k), scale,
  shift and residual; entry (p, j) of the second is Σ_k first(p,k) · w(k,j). Both are one function of the
  whole input arrays read at row 5000·t + p, and the 20 tiles cover the 100000 rows.
-/

/-! ## The tile's two payloads at an entry -/

/-- A [1,128] row broadcast over 5000 rows, read at row p, column k, is the row's column k. -/
theorem bn2_rowBroadcast_apply (x : FVec Ideal S1x128 .f32) (p : Fin 5000) (k : Fin 128) :
    broadcastTo S5000x128 x broadcasts_S1x128_S5000x128 (ix2 p k) = x (ix2 0 k) :=
  broadcastTo_apply x broadcasts_S1x128_S5000x128 (ix2 p k) (ix2 0 k)
    (fun a => by match a with | ⟨0, _⟩ => rfl | ⟨1, _⟩ => rfl)

/-- The normalising payload at row p, column k: the column's mean and variance from the two sum rows, the
    aggregate plus bias centred and scaled by them, then scale, shift, residual and the clip at zero. -/
theorem bn2_payload_apply (s q : Vec Ideal S1x128 .f32) (a : Vec Ideal S5000x128 .f32) (bi g be : Vec Ideal S1x128 .f32)
    (xin : Vec Ideal S5000x128 .f32) (p : Fin 5000) (k : Fin 128) :
    k2_pay2 (F := Ideal) s q a bi g be xin (ix2 p k)
      = Cert.Spec.bnScalar (Ideal.div (s (ix2 0 k)) Cert.Spec.nRows)
          (Ideal.div (q (ix2 0 k)) Cert.Spec.nRows - Ideal.div (s (ix2 0 k)) Cert.Spec.nRows * Ideal.div (s (ix2 0 k)) Cert.Spec.nRows)
          (a (ix2 p k) + bi (ix2 0 k)) (g (ix2 0 k)) (be (ix2 0 k)) (xin (ix2 p k)) := by
  unfold k2_pay2
  simp only [shapeCast_self]
  rw [maximumf_apply, addf_apply, addf_apply, mulf_apply, mulf_apply, subf_apply, addf_apply]
  simp only [bn2_rowBroadcast_apply]
  unfold Cert.Spec.bnScalar Cert.Spec.nRows Cert.Spec.eps
  rw [broadcast_apply]
  show max _ (Ideal.ofBits .f32 0x00000000#32) = _
  rw [Ideal.ofBits_zero_f32]
  rfl

/-- The dimension numbers of the 128-deep product: rows of the left operand against columns of the right. -/
abbrev bn2_mmDims := dot_S5000x128_S128x128_S5000x128_1_0_0_1_n_n

/-- The left operand is read at the output's row … -/
theorem bn2_mmLhs_row (j : S5000x128.Idx) (k : bn2_mmDims.contr.Idx) : (bn2_mmDims.lhsIdx j k 0 : ℕ) = j 0 := by
  simp [DotDims.lhsIdx, bn2_mmDims, dot_S5000x128_S128x128_S5000x128_1_0_0_1_n_n]; rfl
/-- … and at the contraction position's column. -/
theorem bn2_mmLhs_col (j : S5000x128.Idx) (k : bn2_mmDims.contr.Idx) : (bn2_mmDims.lhsIdx j k 1 : ℕ) = k ⟨0, by decide⟩ := by
  simp [DotDims.lhsIdx, bn2_mmDims, dot_S5000x128_S128x128_S5000x128_1_0_0_1_n_n]; rfl
/-- The right operand is read at the contraction position's row … -/
theorem bn2_mmRhs_row (j : S5000x128.Idx) (k : bn2_mmDims.contr.Idx) : (bn2_mmDims.rhsIdx j k 0 : ℕ) = k ⟨0, by decide⟩ := by
  simp [DotDims.rhsIdx, bn2_mmDims, dot_S5000x128_S128x128_S5000x128_1_0_0_1_n_n]; rfl
/-- … and at the output's column. -/
theorem bn2_mmRhs_col (j : S5000x128.Idx) (k : bn2_mmDims.contr.Idx) : (bn2_mmDims.rhsIdx j k 1 : ℕ) = j 1 := by
  simp [DotDims.rhsIdx, bn2_mmDims, dot_S5000x128_S128x128_S5000x128_1_0_0_1_n_n]; rfl

/-- The product payload at row p, column j: the sum over the 128 inner positions. -/
theorem bn2_mmPayload_apply (x : FVec Ideal S5000x128 .bf16) (w : Vec Ideal S128x128 .f32) (p : Fin 5000) (j : Fin 128) :
    k2_pay1 (F := Ideal) x w (ix2 p j) = ∑ k : Fin 128, x (ix2 p k) * w (ix2 k j) := by
  unfold k2_pay1
  refine (Ideal.matmul_constant_zero_apply bn2_mmDims none x (truncf .bf16 w bitsLt_bf16_f32) (ix2 p j)).trans ?_
  rw [← Equiv.sum_comp (contrEquiv1 bn2_mmDims 128 rfl rfl).symm]
  refine Finset.sum_congr rfl fun k _ => ?_
  rw [truncf_apply]
  refine congrArg₂ (· * ·) (congrArg x (Shape.idx_ext₂ ?_ ?_)) (congrArg w (Shape.idx_ext₂ ?_ ?_))
  · exact bn2_mmLhs_row _ _
  · exact (bn2_mmLhs_col _ _).trans (contrEquiv1_symm_val bn2_mmDims 128 rfl rfl k)
  · exact (bn2_mmRhs_row _ _).trans (contrEquiv1_symm_val bn2_mmDims 128 rfl rfl k)
  · exact bn2_mmRhs_col _ _

/-! ## A tile against the whole arrays -/

/-- Entry (p, k) of a tile's normalised block is the whole-array function at row r, column k, once the tile's
    loaded blocks are the whole arrays' entries there: the long blocks at (r, k), the rows at (0, k). -/
theorem bn2_tile_eq (a : Cert.Spec.Arr 100000 128) (s q g be bi : Cert.Spec.Arr 1 128) (xin : Cert.Spec.Arr 100000 128)
    (xa : Vec Ideal S5000x128 .f32) (xs xq xg xbe xbi : Vec Ideal S1x128 .f32) (xx : Vec Ideal S5000x128 .f32)
    (p : Fin 5000) (k : Fin 128) (r : Fin 100000)
    (ha : xa (ix2 p k) = a (ix2 r k)) (hx : xx (ix2 p k) = xin (ix2 r k))
    (hs : xs (ix2 0 k) = s (ix2 0 k)) (hq : xq (ix2 0 k) = q (ix2 0 k)) (hg : xg (ix2 0 k) = g (ix2 0 k))
    (hbe : xbe (ix2 0 k) = be (ix2 0 k)) (hbi : xbi (ix2 0 k) = bi (ix2 0 k)) :
    k2_pay2 (F := Ideal) xs xq xa xbi xg xbe xx (ix2 p k) = Cert.Spec.bnKer a s q g be bi xin (ix2 r k) := by
  rw [bn2_payload_apply, ha, hx, hs, hq, hg, hbe, hbi]
  rfl

/-- Entry (p, j) of a tile's product block is the whole-array product at row r, column j, once every entry of
    row p of the normalised block is the whole-array function's at row r and the weight block is the weight matrix. -/
theorem bn2_mmTile_eq (y : Cert.Spec.Arr 100000 128) (w : Cert.Spec.Arr 128 128)
    (xs xq : Vec Ideal S1x128 .f32) (xa : Vec Ideal S5000x128 .f32) (xbi xg xbe : Vec Ideal S1x128 .f32)
    (xx : Vec Ideal S5000x128 .f32) (xw : Vec Ideal S128x128 .f32)
    (p : Fin 5000) (j : Fin 128) (r : Fin 100000)
    (hy : ∀ k : Fin 128, k2_pay2 (F := Ideal) xs xq xa xbi xg xbe xx (ix2 p k) = y (ix2 r k))
    (hw : ∀ k : Fin 128, xw (ix2 k j) = w (ix2 k j)) :
    k2_pay1 (F := Ideal) (k2_pay3 xs xq xa xbi xg xbe xx) xw (ix2 p j) = Cert.Spec.mm y w (ix2 r j) := by
  rw [bn2_mmPayload_apply]
  unfold Cert.Spec.mm
  refine Finset.sum_congr rfl fun k _ => ?_
  unfold k2_pay3
  rw [truncf_apply, hy k, hw k]

/-! ## The grid: where a tile's entries sit in the whole arrays -/

theorem bn2_zeroOffsets : (![0, 0] : Fin 2 → Nat) = fun _ => 0 :=
  funext fun a => by match a with | ⟨0, _⟩ => rfl | ⟨1, _⟩ => rfl

/-- The launch has 20 points. -/
theorem bn2_point_lt (t : Fin cfg2.N) : t.val < 20 := lt_of_lt_of_eq t.isLt N_2

/-- The index maps over the 20 points: the long arrays' blocks move with the point, the rows and the weight
    matrix stay at block 0. -/
theorem bn2_gridFacts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

/-- Row 5000·t + p of the long arrays: row p of the tile that point t handles. -/
def bn2_tileRow (t : Fin cfg2.N) (p : Fin 5000) : Fin 100000 :=
  ⟨5000 * t.val + p.val, by have := bn2_point_lt t; have := p.isLt; omega⟩

/-- Entry (p, k) of the aggregate's block at point t is the array's entry (5000·t + p, k). -/
theorem bn2_place_a (t : Fin cfg2.N) (p : Fin 5000) (k : Fin 128) :
    ((cfg2.win 0).blk t).view.emb (ix2 p k) = ix2 (bn2_tileRow t p) k := by
  obtain ⟨e0, e1, -⟩ := bn2_gridFacts t
  funext a; apply Fin.ext
  match a with
  | ⟨0, _⟩ => show win2_0.index t (0 : Fin 2) * 5000 + 1 * p.val = 5000 * t.val + p.val; omega
  | ⟨1, _⟩ => show win2_0.index t (1 : Fin 2) * 128 + 1 * k.val = k.val; omega

/-- The same for the residual's block, -/
theorem bn2_place_x (t : Fin cfg2.N) (p : Fin 5000) (k : Fin 128) :
    ((cfg2.win 6).blk t).view.emb (ix2 p k) = ix2 (bn2_tileRow t p) k := by
  obtain ⟨-, -, -, -, -, -, -, -, -, -, -, -, e0, e1, -⟩ := bn2_gridFacts t
  funext a; apply Fin.ext
  match a with
  | ⟨0, _⟩ => show win2_6.index t (0 : Fin 2) * 5000 + 1 * p.val = 5000 * t.val + p.val; omega
  | ⟨1, _⟩ => show win2_6.index t (1 : Fin 2) * 128 + 1 * k.val = k.val; omega

/-- for the first output's block, -/
theorem bn2_place_out (t : Fin cfg2.N) (p : Fin 5000) (k : Fin 128) :
    ((cfg2.win 8).blk t).view.emb (ix2 p k) = ix2 (bn2_tileRow t p) k := by
  obtain ⟨-, -, -, -, -, -, -, -, -, -, -, -, -, -, -, -, e0, e1, -⟩ := bn2_gridFacts t
  funext a; apply Fin.ext
  match a with
  | ⟨0, _⟩ => show win2_8.index t (0 : Fin 2) * 5000 + 1 * p.val = 5000 * t.val + p.val; omega
  | ⟨1, _⟩ => show win2_8.index t (1 : Fin 2) * 128 + 1 * k.val = k.val; omega

/-- and for the second output's block. -/
theorem bn2_place_prod (t : Fin cfg2.N) (p : Fin 5000) (k : Fin 128) :
    ((cfg2.win 9).blk t).view.emb (ix2 p k) = ix2 (bn2_tileRow t p) k := by
  obtain ⟨-, -, -, -, -, -, -, -, -, -, -, -, -, -, -, -, -, -, e0, e1⟩ := bn2_gridFacts t
  funext a; apply Fin.ext
  match a with
  | ⟨0, _⟩ => show win2_9.index t (0 : Fin 2) * 5000 + 1 * p.val = 5000 * t.val + p.val; omega
  | ⟨1, _⟩ => show win2_9.index t (1 : Fin 2) * 128 + 1 * k.val = k.val; omega

/-- The five row windows and the weight window hold their whole arrays at every point: an entry of the block
    is the array's entry at the same index. -/
theorem bn2_place_s (t : Fin cfg2.N) (y : S1x128.Idx) : ((cfg2.win 1).blk t).view.emb y = y := by
  obtain ⟨-, -, e0, e1, -⟩ := bn2_gridFacts t
  funext a; apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

theorem bn2_place_q (t : Fin cfg2.N) (y : S1x128.Idx) : ((cfg2.win 2).blk t).view.emb y = y := by
  obtain ⟨-, -, -, -, e0, e1, -⟩ := bn2_gridFacts t
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem bn2_place_g (t : Fin cfg2.N) (y : S1x128.Idx) : ((cfg2.win 3).blk t).view.emb y = y := by
  obtain ⟨-, -, -, -, -, -, e0, e1, -⟩ := bn2_gridFacts t
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem bn2_place_be (t : Fin cfg2.N) (y : S1x128.Idx) : ((cfg2.win 4).blk t).view.emb y = y := by
  obtain ⟨-, -, -, -, -, -, -, -, e0, e1, -⟩ := bn2_gridFacts t
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

theorem bn2_place_bi (t : Fin cfg2.N) (y : S1x128.Idx) : ((cfg2.win 5).blk t).view.emb y = y := by
  obtain ⟨-, -, -, -, -, -, -, -, -, -, e0, e1, -⟩ := bn2_gridFacts t
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

theorem bn2_place_w (t : Fin cfg2.N) (y : S128x128.Idx) : ((cfg2.win 7).blk t).view.emb y = y := by
  obtain ⟨-, -, -, -, -, -, -, -, -, -, -, -, -, -, e0, e1, -⟩ := bn2_gridFacts t
  funext a; apply Fin.ext
  match a with
  | ⟨0, _⟩ => show win2_7.index t (0 : Fin 2) * 128 + 1 * (y 0).val = (y 0).val; omega
  | ⟨1, _⟩ => show win2_7.index t (1 : Fin 2) * 128 + 1 * (y 1).val = (y 1).val; omega

variable (V : (c : Dev nD) → (b : Ref sig .tc) → Buf (Elt Ideal) ((c : Thread nD τ).loc b))

/-! ## What each point writes back -/

/-- Point t writes back tile t of the normalised array. -/
theorem bn2_flushed_x (c : Dev nD) (t : Fin cfg2.N) :
    (dat2 (F := Ideal) V c).flushed 8 t = ((cfg2.win 8).blk t).view.read (Elt Ideal)
      (Cert.Spec.bnKer (V c main_v4) (V c main_v14) (V c main_v16) (V c main_v17) (V c main_v18) (V c main_v19) (V c main_arg0)) := by
  show (cfg2.win 8).cut (grid2.coords t) ((dat2 V c).after 8 t) = _
  rw [after2_8]
  unfold out2_8
  rw [View.canon_unit_zero bn2_zeroOffsets]
  simp only [View.ld_unit_zero (S := S5000x128) bn2_zeroOffsets, View.ld_unit_zero (S := S1x128) bn2_zeroOffsets]
  funext j
  obtain ⟨p, k, rfl⟩ : ∃ (p : Fin 5000) (k : Fin 128), j = ix2 p k := ⟨j 0, j 1, eq_ix2 j⟩
  show k2_pay2 (F := Ideal) (iblk2 V c 1 t) (iblk2 V c 2 t) (iblk2 V c 0 t) (iblk2 V c 5 t) (iblk2 V c 3 t) (iblk2 V c 4 t) (iblk2 V c 6 t) (ix2 p k)
    = Cert.Spec.bnKer (V c main_v4) (V c main_v14) (V c main_v16) (V c main_v17) (V c main_v18) (V c main_v19) (V c main_arg0)
        (((cfg2.win 8).blk t).view.emb (ix2 p k))
  rw [bn2_place_out t p k]
  exact bn2_tile_eq (V c main_v4) (V c main_v14) (V c main_v16) (V c main_v17) (V c main_v18) (V c main_v19) (V c main_arg0)
    (iblk2 V c 0 t) (iblk2 V c 1 t) (iblk2 V c 2 t) (iblk2 V c 3 t) (iblk2 V c 4 t) (iblk2 V c 5 t) (iblk2 V c 6 t) p k (bn2_tileRow t p)
    (show V c main_v4 (((cfg2.win 0).blk t).view.emb (ix2 p k)) = _ from congrArg (V c main_v4) (bn2_place_a t p k))
    (show V c main_arg0 (((cfg2.win 6).blk t).view.emb (ix2 p k)) = _ from congrArg (V c main_arg0) (bn2_place_x t p k))
    (show V c main_v14 (((cfg2.win 1).blk t).view.emb (ix2 0 k)) = _ from congrArg (V c main_v14) (bn2_place_s t (ix2 0 k)))
    (show V c main_v16 (((cfg2.win 2).blk t).view.emb (ix2 0 k)) = _ from congrArg (V c main_v16) (bn2_place_q t (ix2 0 k)))
    (show V c main_v17 (((cfg2.win 3).blk t).view.emb (ix2 0 k)) = _ from congrArg (V c main_v17) (bn2_place_g t (ix2 0 k)))
    (show V c main_v18 (((cfg2.win 4).blk t).view.emb (ix2 0 k)) = _ from congrArg (V c main_v18) (bn2_place_be t (ix2 0 k)))
    (show V c main_v19 (((cfg2.win 5).blk t).view.emb (ix2 0 k)) = _ from congrArg (V c main_v19) (bn2_place_bi t (ix2 0 k)))

/-- Point t writes back tile t of the product array. -/
theorem bn2_flushed_m (c : Dev nD) (t : Fin cfg2.N) :
    (dat2 (F := Ideal) V c).flushed 9 t = ((cfg2.win 9).blk t).view.read (Elt Ideal)
      (Cert.Spec.mm (Cert.Spec.bnKer (V c main_v4) (V c main_v14) (V c main_v16) (V c main_v17) (V c main_v18) (V c main_v19) (V c main_arg0)) (V c main_arg5)) := by
  show (cfg2.win 9).cut (grid2.coords t) ((dat2 V c).after 9 t) = _
  rw [after2_9]
  unfold out2_9
  rw [View.canon_unit_zero bn2_zeroOffsets]
  simp only [View.ld_unit_zero (S := S5000x128) bn2_zeroOffsets, View.ld_unit_zero (S := S1x128) bn2_zeroOffsets,
    View.ld_unit_zero (S := S128x128) bn2_zeroOffsets]
  funext j
  obtain ⟨p, q, rfl⟩ : ∃ (p : Fin 5000) (q : Fin 128), j = ix2 p q := ⟨j 0, j 1, eq_ix2 j⟩
  show k2_pay1 (F := Ideal) (k2_pay3 (iblk2 V c 1 t) (iblk2 V c 2 t) (iblk2 V c 0 t) (iblk2 V c 5 t) (iblk2 V c 3 t) (iblk2 V c 4 t) (iblk2 V c 6 t)) (iblk2 V c 7 t) (ix2 p q)
    = Cert.Spec.mm (Cert.Spec.bnKer (V c main_v4) (V c main_v14) (V c main_v16) (V c main_v17) (V c main_v18) (V c main_v19) (V c main_arg0)) (V c main_arg5)
        (((cfg2.win 9).blk t).view.emb (ix2 p q))
  rw [bn2_place_prod t p q]
  refine bn2_mmTile_eq
    (Cert.Spec.bnKer (V c main_v4) (V c main_v14) (V c main_v16) (V c main_v17) (V c main_v18) (V c main_v19) (V c main_arg0)) (V c main_arg5)
    (iblk2 V c 1 t) (iblk2 V c 2 t) (iblk2 V c 0 t) (iblk2 V c 5 t) (iblk2 V c 3 t) (iblk2 V c 4 t) (iblk2 V c 6 t) (iblk2 V c 7 t)
    p q (bn2_tileRow t p) (fun k => ?_) (fun k => ?_)
  · exact bn2_tile_eq (V c main_v4) (V c main_v14) (V c main_v16) (V c main_v17) (V c main_v18) (V c main_v19) (V c main_arg0)
      (iblk2 V c 0 t) (iblk2 V c 1 t) (iblk2 V c 2 t) (iblk2 V c 3 t) (iblk2 V c 4 t) (iblk2 V c 5 t) (iblk2 V c 6 t) p k (bn2_tileRow t p)
      (show V c main_v4 (((cfg2.win 0).blk t).view.emb (ix2 p k)) = _ from congrArg (V c main_v4) (bn2_place_a t p k))
      (show V c main_arg0 (((cfg2.win 6).blk t).view.emb (ix2 p k)) = _ from congrArg (V c main_arg0) (bn2_place_x t p k))
      (show V c main_v14 (((cfg2.win 1).blk t).view.emb (ix2 0 k)) = _ from congrArg (V c main_v14) (bn2_place_s t (ix2 0 k)))
      (show V c main_v16 (((cfg2.win 2).blk t).view.emb (ix2 0 k)) = _ from congrArg (V c main_v16) (bn2_place_q t (ix2 0 k)))
      (show V c main_v17 (((cfg2.win 3).blk t).view.emb (ix2 0 k)) = _ from congrArg (V c main_v17) (bn2_place_g t (ix2 0 k)))
      (show V c main_v18 (((cfg2.win 4).blk t).view.emb (ix2 0 k)) = _ from congrArg (V c main_v18) (bn2_place_be t (ix2 0 k)))
      (show V c main_v19 (((cfg2.win 5).blk t).view.emb (ix2 0 k)) = _ from congrArg (V c main_v19) (bn2_place_bi t (ix2 0 k)))
  · exact (show V c main_arg5 (((cfg2.win 7).blk t).view.emb (ix2 k q)) = _ from congrArg (V c main_arg5) (bn2_place_w t (ix2 k q)))

/-! ## The tiles cover the arrays -/

/-- An index of the first output is in point t's block iff each coordinate is in the block's range on its axis. -/
theorem bn2_mem_tile_x (t : Fin cfg2.N) (i : S100000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v20_0).slice (win2_8.rect t)).set ↔ _
  rw [View.set_slice_whole, Rect.mem_set_unit]
  exact Iff.rfl

/-- The same for the second output. -/
theorem bn2_mem_tile_m (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v20_1).slice (win2_9.rect t)).set ↔ _
  rw [View.set_slice_whole, Rect.mem_set_unit]
  exact Iff.rfl

/-- The point whose tile holds row r: r / 5000. -/
def bn2_pointOf (i : S100000x128.Idx) : Fin cfg2.N :=
  ⟨(i 0).val / 5000, lt_of_lt_of_eq (by have := idx2_lt0 i; omega) N_2.symm⟩

/-- Every index of the first output is in the tile of the point row / 5000. -/
theorem bn2_cover_x (i : S100000x128.Idx) :
    ∃ t : Fin cfg2.N, (cfg2.win 8).flush t = true ∧ i ∈ ((cfg2.win 8).blk t).view.set := by
  refine ⟨bn2_pointOf i, flush2_8 _, ?_⟩
  rw [bn2_mem_tile_x]
  obtain ⟨-, -, -, -, -, -, -, -, -, -, -, -, -, -, -, -, e0, e1, -⟩ := bn2_gridFacts (bn2_pointOf i)
  have h0 : (i 0).val < 100000 := idx2_lt0 i
  have h1 : (i 1).val < 128 := idx2_lt1 i
  have hp : (bn2_pointOf i).val = (i 0).val / 5000 := rfl
  intro a
  match a with
  | ⟨0, _⟩ => show win2_8.index (bn2_pointOf i) (0 : Fin 2) * 5000 ≤ (i 0).val ∧ (i 0).val < win2_8.index (bn2_pointOf i) (0 : Fin 2) * 5000 + 5000; omega
  | ⟨1, _⟩ => show win2_8.index (bn2_pointOf i) (1 : Fin 2) * 128 ≤ (i 1).val ∧ (i 1).val < win2_8.index (bn2_pointOf i) (1 : Fin 2) * 128 + 128; omega

/-- The same for the second output. -/
theorem bn2_cover_m (i : S100000x128.Idx) :
    ∃ t : Fin cfg2.N, (cfg2.win 9).flush t = true ∧ i ∈ ((cfg2.win 9).blk t).view.set := by
  refine ⟨bn2_pointOf i, flush2_9 _, ?_⟩
  rw [bn2_mem_tile_m]
  obtain ⟨-, -, -, -, -, -, -, -, -, -, -, -, -, -, -, -, -, -, e0, e1⟩ := bn2_gridFacts (bn2_pointOf i)
  have h0 : (i 0).val < 100000 := idx2_lt0 i
  have h1 : (i 1).val < 128 := idx2_lt1 i
  have hp : (bn2_pointOf i).val = (i 0).val / 5000 := rfl
  intro a
  match a with
  | ⟨0, _⟩ => show win2_9.index (bn2_pointOf i) (0 : Fin 2) * 5000 ≤ (i 0).val ∧ (i 0).val < win2_9.index (bn2_pointOf i) (0 : Fin 2) * 5000 + 5000; omega
  | ⟨1, _⟩ => show win2_9.index (bn2_pointOf i) (1 : Fin 2) * 128 ≤ (i 1).val ∧ (i 1).val < win2_9.index (bn2_pointOf i) (1 : Fin 2) * 128 + 128; omega

/-! ## The launch's two output arrays -/

/-- The layer's output rows. -/
theorem region2_x (c : Dev nD) :
    (dat2 (F := Ideal) V c).arrAt 8 cfg2.N
      = Cert.Spec.bnKer (V c main_v4) (V c main_v14) (V c main_v16) (V c main_v17) (V c main_v18) (V c main_v19) (V c main_arg0) := by
  exact (dat2 (F := Ideal) V c).arrAt_eq_of_cover 8 _ (fun t _ => bn2_flushed_x V c t) bn2_cover_x

/-- Their product with the next weight matrix. -/
theorem region2_m (c : Dev nD) :
    (dat2 (F := Ideal) V c).arrAt 9 cfg2.N
      = Cert.Spec.mm (Cert.Spec.bnKer (V c main_v4) (V c main_v14) (V c main_v16) (V c main_v17) (V c main_v18) (V c main_v19) (V c main_arg0)) (V c main_arg5) := by
  exact (dat2 (F := Ideal) V c).arrAt_eq_of_cover 9 _ (fun t _ => bn2_flushed_m V c t) bn2_cover_m

end Cert.KernelIdeal.Val

end
-- ==== Proof.Region3.lean ====
/-
  The statistics launch of the second layer: as the first layer's, on the second aggregate and bias.
-/
import proofs.«406583_j75179107549523_3_alg».proof.Proof.Gen.KernelIdeal.Frame
import proofs.«406583_j75179107549523_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

namespace Stats3

/-- The zero offset pair is the constant zero offset. -/
theorem hz : (![0, 0] : Fin 2 → Nat) = fun _ => 0 := funext fun a => by fin_cases a <;> rfl

/-- The block indices over the grid: the long input and both outputs move one block down per point, the row
    vector is fetched whole at every point. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Entry (p, q) of the summand block: the tile's entry plus the row vector's entry of the same column. -/
theorem pay1_apply (x0 : FVec Ideal S5000x128 .f32) (x1 : FVec Ideal S1x128 .f32) (p : Fin 5000) (q : Fin 128) :
    k3_pay1 x0 x1 (ix2 p q) = x0 (ix2 p q) + x1 (ix2 (0 : Fin 1) q) := by
  unfold k3_pay1
  show addf (shapeCast S5000x128 x0 _) (broadcastTo S5000x128 (shapeCast S1x128 x1 _) _) (ix2 p q) = _
  rw [addf_apply, shapeCast_self, shapeCast_self, broadcastTo_1b_ab_apply]

/-- A sum over the rows of a [5000,128] block, read in column q: the lane reduction over axis 0. -/
theorem colsum_apply (src : FVec Ideal S5000x128 .f32) (hacc : (0x00000000#32 : BitVec 32) = 0x00000000#32) (q : Fin 128) :
    multiReduction .add [0] S128 src 0x00000000#32 reduces_S5000x128_S128 (.inl rfl) hacc (ix1 q)
      = ∑ r : Fin 5000, src (ix2 r q) := by
  refine (Ideal.multiReduction_add_single src 0x00000000#32 reduces_S5000x128_S128 (.inl rfl) hacc (ix1 q)).trans ?_
  refine Finset.sum_congr rfl fun r _ => ?_
  congr 1
  funext a
  apply Fin.ext
  match a with
  | ⟨0, _⟩ => rfl
  | ⟨1, _⟩ => rfl

/-- Entry (s, q) of the first output block: the sum over the tile's 5000 rows of the summand in column q,
    the same in each of the eight rows. -/
theorem pay2_apply (x0 : FVec Ideal S5000x128 .f32) (x1 : FVec Ideal S1x128 .f32) (s : Fin 8) (q : Fin 128) :
    k3_pay2 x0 x1 (ix2 s q) = ∑ r : Fin 5000, k3_pay1 (F := Ideal) x0 x1 (ix2 r q) := by
  unfold k3_pay2
  show broadcastTo S8x128 (shapeCast S1x128 (shapeCast S1x128 (multiReduction .add [0] S128 (k3_pay1 (F := Ideal) x0 x1) 0x00000000#32 reduces_S5000x128_S128 (.inl rfl) rfl) shapeCasts_S128_S1x128) shapeCasts_S1x128_S1x128) broadcasts_S1x128_S8x128 (ix2 s q) = _
  rw [broadcastTo_1b_ab_apply, shapeCast_self, shapeCast_a_1a_apply]
  exact colsum_apply (k3_pay1 (F := Ideal) x0 x1) rfl q

/-- Entry (s, q) of the second output block: the same sum with every summand squared. -/
theorem pay3_apply (x0 : FVec Ideal S5000x128 .f32) (x1 : FVec Ideal S1x128 .f32) (s : Fin 8) (q : Fin 128) :
    k3_pay3 x0 x1 (ix2 s q)
      = ∑ r : Fin 5000, (k3_pay1 (F := Ideal) x0 x1 (ix2 r q) * k3_pay1 (F := Ideal) x0 x1 (ix2 r q)) := by
  unfold k3_pay3
  show broadcastTo S8x128 (shapeCast S1x128 (shapeCast S1x128 (multiReduction .add [0] S128 (mulf (k3_pay1 (F := Ideal) x0 x1) (k3_pay1 (F := Ideal) x0 x1)) 0x00000000#32 reduces_S5000x128_S128 (.inl rfl) rfl) shapeCasts_S128_S1x128) shapeCasts_S1x128_S1x128) broadcasts_S1x128_S8x128 (ix2 s q) = _
  rw [broadcastTo_1b_ab_apply, shapeCast_self, shapeCast_a_1a_apply]
  refine (colsum_apply (mulf (k3_pay1 (F := Ideal) x0 x1) (k3_pay1 (F := Ideal) x0 x1)) rfl q).trans ?_
  exact Finset.sum_congr rfl fun r _ => mulf_apply _ _ _

/-- The long input's block at point t is rows 5000·t … 5000·t + 4999 of the array. -/
theorem long_apply (c : Dev nD) (t : Fin cfg3.N) (x : S5000x128.Idx) (k : S100000x128.Idx)
    (hk0 : (k 0).val = 5000 * t.val + (x 0).val) (hk1 : (k 1).val = (x 1).val) :
    (iblk3 (F := Ideal) V c 0 t : FVec Ideal S5000x128 .f32) x = (V c main_v24 : S100000x128.Idx → Elt Ideal .f32) k := by
  obtain ⟨e0, e1, -⟩ := idx_facts t
  unfold iblk3
  rw [View.read_apply]
  show V c main_v24 _ = V c main_v24 _
  congr 1
  funext a
  apply Fin.ext
  match a with
  | ⟨0, _⟩ => show win3_0.index t (0 : Fin 2) * 5000 + 1 * (x 0).val = (k 0).val; rw [e0, hk0]; omega
  | ⟨1, _⟩ => show win3_0.index t (1 : Fin 2) * 128 + 1 * (x 1).val = (k 1).val; rw [e1, hk1]; omega

/-- The row vector's block at every point is the whole one-row array. -/
theorem row_apply (c : Dev nD) (t : Fin cfg3.N) (x : S1x128.Idx) (k : S1x128.Idx)
    (hk0 : (k 0).val = (x 0).val) (hk1 : (k 1).val = (x 1).val) :
    (iblk3 (F := Ideal) V c 1 t : FVec Ideal S1x128 .f32) x = (V c main_v25 : S1x128.Idx → Elt Ideal .f32) k := by
  obtain ⟨-, -, e2, e3, -⟩ := idx_facts t
  unfold iblk3
  rw [View.read_apply]
  show V c main_v25 _ = V c main_v25 _
  congr 1
  funext a
  apply Fin.ext
  match a with
  | ⟨0, _⟩ => show win3_1.index t (0 : Fin 2) * 1 + 1 * (x 0).val = (k 0).val; rw [e2, hk0]; omega
  | ⟨1, _⟩ => show win3_1.index t (1 : Fin 2) * 128 + 1 * (x 1).val = (k 1).val; rw [e3, hk1]; omega

/-- The summand block at point t, entry (r, q): entry (5000·t + r, q) of the long array plus the row vector's
    entry q. -/
theorem summand_eq (c : Dev nD) (t : Fin cfg3.N) (r : Fin 5000) (q : Fin 128) (k : S100000x128.Idx)
    (hk0 : (k 0).val = 5000 * t.val + r.val) (hk1 : (k 1).val = q.val) :
    k3_pay1 (F := Ideal) (iblk3 (F := Ideal) V c 0 t) (iblk3 (F := Ideal) V c 1 t) (ix2 r q)
      = Cert.Spec.addRow1 (V c main_v24) (V c main_v25) k := by
  refine (pay1_apply (iblk3 (F := Ideal) V c 0 t) (iblk3 (F := Ideal) V c 1 t) r q).trans ?_
  unfold Cert.Spec.addRow1
  congr 1
  · exact long_apply V c t _ _ hk0 hk1
  · exact row_apply V c t _ _ rfl hk1

/-- What point t writes back to the first output is block t of the tile sums. -/
theorem flushed2_eq (c : Dev nD) (t : Fin cfg3.N) :
    (dat3 (F := Ideal) V c).flushed 2 t
      = ((cfg3.win 2).blk t).view.read (Elt Ideal) (Cert.Spec.tileSums (V c main_v24) (V c main_v25)) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S1x128) hz]
  obtain ⟨-, -, -, -, e4, e5, -⟩ := idx_facts t
  refine funext fun (j : S8x128.Idx) => ?_
  obtain ⟨s, q, rfl⟩ : ∃ (s : Fin 8) (q : Fin 128), j = ix2 s q := ⟨_, _, eq_ix2 j⟩
  rw [View.read_apply]
  refine (pay2_apply (iblk3 (F := Ideal) V c 0 t) (iblk3 (F := Ideal) V c 1 t) s q).trans ?_
  unfold Cert.Spec.tileSums
  refine Finset.sum_congr rfl fun r _ => ?_
  have h0 : ((((cfg3.win 2).blk t).view.emb (ix2 s q)) 0).val = win3_2.index t (0 : Fin 2) * 8 + 1 * s.val := rfl
  have h1 : ((((cfg3.win 2).blk t).view.emb (ix2 s q)) 1).val = win3_2.index t (1 : Fin 2) * 128 + 1 * q.val := rfl
  have H0 : 5000 * (((((cfg3.win 2).blk t).view.emb (ix2 s q)) 0).val / 8) + r.val = 5000 * t.val + r.val := by
    rw [h0, e4]; have := s.isLt; omega
  have H1 : ((((cfg3.win 2).blk t).view.emb (ix2 s q)) 1).val = q.val := by rw [h1, e5]; omega
  exact summand_eq V c t r q _ H0 H1

/-- What point t writes back to the second output is block t of the tile sums of squares. -/
theorem flushed3_eq (c : Dev nD) (t : Fin cfg3.N) :
    (dat3 (F := Ideal) V c).flushed 3 t
      = ((cfg3.win 3).blk t).view.read (Elt Ideal) (Cert.Spec.tileSumSqs (V c main_v24) (V c main_v25)) := by
  show (cfg3.win 3).cut (grid3.coords t) ((dat3 (F := Ideal) V c).after 3 t) = _
  rw [after3_3]
  unfold out3_3
  rw [View.canon_unit_zero hz]
  simp only [View.ld_unit_zero (S := S5000x128) hz, View.ld_unit_zero (S := S1x128) hz]
  obtain ⟨-, -, -, -, -, -, e6, e7⟩ := idx_facts t
  refine funext fun (j : S8x128.Idx) => ?_
  obtain ⟨s, q, rfl⟩ : ∃ (s : Fin 8) (q : Fin 128), j = ix2 s q := ⟨_, _, eq_ix2 j⟩
  rw [View.read_apply]
  refine (pay3_apply (iblk3 (F := Ideal) V c 0 t) (iblk3 (F := Ideal) V c 1 t) s q).trans ?_
  unfold Cert.Spec.tileSumSqs
  refine Finset.sum_congr rfl fun r _ => ?_
  have h0 : ((((cfg3.win 3).blk t).view.emb (ix2 s q)) 0).val = win3_3.index t (0 : Fin 2) * 8 + 1 * s.val := rfl
  have h1 : ((((cfg3.win 3).blk t).view.emb (ix2 s q)) 1).val = win3_3.index t (1 : Fin 2) * 128 + 1 * q.val := rfl
  have H0 : 5000 * (((((cfg3.win 3).blk t).view.emb (ix2 s q)) 0).val / 8) + r.val = 5000 * t.val + r.val := by
    rw [h0, e6]; have := s.isLt; omega
  have H1 : ((((cfg3.win 3).blk t).view.emb (ix2 s q)) 1).val = q.val := by rw [h1, e7]; omega
  congr 1 <;> exact summand_eq V c t r q _ H0 H1

/-- An index of the first output is in point t's block iff each coordinate is in the block's range on its axis. -/
theorem mem_blk2 (t : Fin cfg3.N) (i : S160x128.Idx) :
    i ∈ ((cfg3.win 2).blk t).view.set
      ↔ ∀ a : Fin 2, win3_2.index t a * S8x128.size a ≤ (i a).val ∧ (i a).val < win3_2.index t a * S8x128.size a + S8x128.size a := by
  show i ∈ ((View.whole main_v26_0).slice (win3_2.rect t)).set ↔ _
  rw [View.set_slice_whole, Rect.mem_set_unit]
  exact Iff.rfl

/-- The same for the second output. -/
theorem mem_blk3 (t : Fin cfg3.N) (i : S160x128.Idx) :
    i ∈ ((cfg3.win 3).blk t).view.set
      ↔ ∀ a : Fin 2, win3_3.index t a * S8x128.size a ≤ (i a).val ∧ (i a).val < win3_3.index t a * S8x128.size a + S8x128.size a := by
  show i ∈ ((View.whole main_v26_1).slice (win3_3.rect t)).set ↔ _
  rw [View.set_slice_whole, Rect.mem_set_unit]
  exact Iff.rfl

/-- The point whose block holds row r of a 160-row output: r / 8. -/
def pointOf (i : S160x128.Idx) : Fin cfg3.N :=
  ⟨(i 0).val / 8, by have h : (i 0).val < 160 := (i 0).isLt; have hN : cfg3.N = 20 := N_3; omega⟩

/-- Every index of the first output is in the block of the point its row belongs to. -/
theorem cover2 (i : S160x128.Idx) :
    ∃ t : Fin cfg3.N, (cfg3.win 2).flush t = true ∧ i ∈ ((cfg3.win 2).blk t).view.set := by
  refine ⟨pointOf i, flush3_2 _, ?_⟩
  rw [mem_blk2]
  obtain ⟨-, -, -, -, e4, e5, -⟩ := idx_facts (pointOf i)
  have hv : (pointOf i).val = (i 0).val / 8 := rfl
  have h0 : (i 0).val < 160 := (i 0).isLt
  have h1 : (i 1).val < 128 := (i 1).isLt
  intro a
  match a with
  | ⟨0, _⟩ =>
    show win3_2.index (pointOf i) (0 : Fin 2) * 8 ≤ (i 0).val ∧ (i 0).val < win3_2.index (pointOf i) (0 : Fin 2) * 8 + 8
    rw [e4, hv]; omega
  | ⟨1, _⟩ =>
    show win3_2.index (pointOf i) (1 : Fin 2) * 128 ≤ (i 1).val ∧ (i 1).val < win3_2.index (pointOf i) (1 : Fin 2) * 128 + 128
    rw [e5]; omega

/-- The same for the second output. -/
theorem cover3 (i : S160x128.Idx) :
    ∃ t : Fin cfg3.N, (cfg3.win 3).flush t = true ∧ i ∈ ((cfg3.win 3).blk t).view.set := by
  refine ⟨pointOf i, flush3_3 _, ?_⟩
  rw [mem_blk3]
  obtain ⟨-, -, -, -, -, -, e6, e7⟩ := idx_facts (pointOf i)
  have hv : (pointOf i).val = (i 0).val / 8 := rfl
  have h0 : (i 0).val < 160 := (i 0).isLt
  have h1 : (i 1).val < 128 := (i 1).isLt
  intro a
  match a with
  | ⟨0, _⟩ =>
    show win3_3.index (pointOf i) (0 : Fin 2) * 8 ≤ (i 0).val ∧ (i 0).val < win3_3.index (pointOf i) (0 : Fin 2) * 8 + 8
    rw [e6, hv]; omega
  | ⟨1, _⟩ =>
    show win3_3.index (pointOf i) (1 : Fin 2) * 128 ≤ (i 1).val ∧ (i 1).val < win3_3.index (pointOf i) (1 : Fin 2) * 128 + 128
    rw [e7]; omega

end Stats3

theorem region3_sum (c : Dev nD) :
    (dat3 (F := Ideal) V c).arrAt 2 cfg3.N = Cert.Spec.tileSums (V c main_v24) (V c main_v25) :=
  (dat3 (F := Ideal) V c).arrAt_eq_of_cover 2 (Cert.Spec.tileSums (V c main_v24) (V c main_v25))
    (fun t _ => Stats3.flushed2_eq V c t) Stats3.cover2

theorem region3_sumsq (c : Dev nD) :
    (dat3 (F := Ideal) V c).arrAt 3 cfg3.N = Cert.Spec.tileSumSqs (V c main_v24) (V c main_v25) :=
  (dat3 (F := Ideal) V c).arrAt_eq_of_cover 3 (Cert.Spec.tileSumSqs (V c main_v24) (V c main_v25))
    (fun t _ => Stats3.flushed3_eq V c t) Stats3.cover3

end Cert.KernelIdeal.Val

end
-- ==== Proof.Region4.lean ====
/-
  The normalising launch of the second layer: as the first layer's, with the first layer's output as residual
  and the 128 x 64 output weight matrix.
-/
import proofs.«406583_j75179107549523_3_alg».proof.Proof.Gen.KernelIdeal.Frame
import proofs.«406583_j75179107549523_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

/-!
  The launch runs over 20 tiles. Tile t reads rows 5000·t … 5000·t + 4999 of the second layer's aggregate and of
  the first layer's output (the residual), the five [1,128] rows (column sums, column sums of squares, scale,
  shift, bias) and the 128 × 64 output weight matrix whole, and writes the same rows of the two outputs: 128
  columns of normalised rows and 64 columns of their product with the weights. Entry (p, k) of the first
  output's tile is bnScalar of the column's mean s(0,k)/N and variance q(0,k)/N − (s(0,k)/N)², of
  a(p,k) + bias(0,k), scale, shift and residual; entry (p, j) of the second is Σ_k first(p,k) · w(k,j), k over
  the 128 columns, j over 64. Both are one function of the whole input arrays read at row 5000·t + p, and the 20
  tiles cover the 100000 rows.
-/

/-! ## The tile's two payloads at an entry -/

/-- A [1,128] row broadcast over 5000 rows, read at row p, column k, is the row's column k. -/
theorem bn4_rowBroadcast_apply (x : FVec Ideal S1x128 .f32) (p : Fin 5000) (k : Fin 128) :
    broadcastTo S5000x128 x broadcasts_S1x128_S5000x128 (ix2 p k) = x (ix2 0 k) :=
  broadcastTo_apply x broadcasts_S1x128_S5000x128 (ix2 p k) (ix2 0 k)
    (fun a => by match a with | ⟨0, _⟩ => rfl | ⟨1, _⟩ => rfl)

/-- The normalising payload at row p, column k: the column's mean and variance from the two sum rows, the
    aggregate plus bias centred and scaled by them, then scale, shift, residual and the clip at zero. -/
theorem bn4_payload_apply (s q : Vec Ideal S1x128 .f32) (a : Vec Ideal S5000x128 .f32) (bi g be : Vec Ideal S1x128 .f32)
    (xin : Vec Ideal S5000x128 .f32) (p : Fin 5000) (k : Fin 128) :
    k4_pay2 (F := Ideal) s q a bi g be xin (ix2 p k)
      = Cert.Spec.bnScalar (Ideal.div (s (ix2 0 k)) Cert.Spec.nRows)
          (Ideal.div (q (ix2 0 k)) Cert.Spec.nRows - Ideal.div (s (ix2 0 k)) Cert.Spec.nRows * Ideal.div (s (ix2 0 k)) Cert.Spec.nRows)
          (a (ix2 p k) + bi (ix2 0 k)) (g (ix2 0 k)) (be (ix2 0 k)) (xin (ix2 p k)) := by
  unfold k4_pay2
  simp only [shapeCast_self]
  rw [maximumf_apply, addf_apply, addf_apply, mulf_apply, mulf_apply, subf_apply, addf_apply]
  simp only [bn4_rowBroadcast_apply]
  unfold Cert.Spec.bnScalar Cert.Spec.nRows Cert.Spec.eps
  rw [broadcast_apply]
  show max _ (Ideal.ofBits .f32 0x00000000#32) = _
  rw [Ideal.ofBits_zero_f32]
  rfl

/-- The dimension numbers of the 128-deep product into 64 columns: rows of the left operand against columns of the right. -/
abbrev bn4_mmDims := dot_S5000x128_S128x64_S5000x64_1_0_0_1_n_n

/-- The left operand is read at the output's row … -/
theorem bn4_mmLhs_row (j : S5000x64.Idx) (k : bn4_mmDims.contr.Idx) : (bn4_mmDims.lhsIdx j k 0 : ℕ) = j 0 := by
  simp [DotDims.lhsIdx, bn4_mmDims, dot_S5000x128_S128x64_S5000x64_1_0_0_1_n_n]; rfl
/-- … and at the contraction position's column. -/
theorem bn4_mmLhs_col (j : S5000x64.Idx) (k : bn4_mmDims.contr.Idx) : (bn4_mmDims.lhsIdx j k 1 : ℕ) = k ⟨0, by decide⟩ := by
  simp [DotDims.lhsIdx, bn4_mmDims, dot_S5000x128_S128x64_S5000x64_1_0_0_1_n_n]; rfl
/-- The right operand is read at the contraction position's row … -/
theorem bn4_mmRhs_row (j : S5000x64.Idx) (k : bn4_mmDims.contr.Idx) : (bn4_mmDims.rhsIdx j k 0 : ℕ) = k ⟨0, by decide⟩ := by
  simp [DotDims.rhsIdx, bn4_mmDims, dot_S5000x128_S128x64_S5000x64_1_0_0_1_n_n]; rfl
/-- … and at the output's column. -/
theorem bn4_mmRhs_col (j : S5000x64.Idx) (k : bn4_mmDims.contr.Idx) : (bn4_mmDims.rhsIdx j k 1 : ℕ) = j 1 := by
  simp [DotDims.rhsIdx, bn4_mmDims, dot_S5000x128_S128x64_S5000x64_1_0_0_1_n_n]; rfl

/-- The product payload at row p, column j: the sum over the 128 inner positions. -/
theorem bn4_mmPayload_apply (x : FVec Ideal S5000x128 .bf16) (w : Vec Ideal S128x64 .f32) (p : Fin 5000) (j : Fin 64) :
    k4_pay1 (F := Ideal) x w (ix2 p j) = ∑ k : Fin 128, x (ix2 p k) * w (ix2 k j) := by
  unfold k4_pay1
  refine (Ideal.matmul_constant_zero_apply bn4_mmDims none x (truncf .bf16 w bitsLt_bf16_f32) (ix2 p j)).trans ?_
  rw [← Equiv.sum_comp (contrEquiv1 bn4_mmDims 128 rfl rfl).symm]
  refine Finset.sum_congr rfl fun k _ => ?_
  rw [truncf_apply]
  refine congrArg₂ (· * ·) (congrArg x (Shape.idx_ext₂ ?_ ?_)) (congrArg w (Shape.idx_ext₂ ?_ ?_))
  · exact bn4_mmLhs_row _ _
  · exact (bn4_mmLhs_col _ _).trans (contrEquiv1_symm_val bn4_mmDims 128 rfl rfl k)
  · exact (bn4_mmRhs_row _ _).trans (contrEquiv1_symm_val bn4_mmDims 128 rfl rfl k)
  · exact bn4_mmRhs_col _ _

/-! ## A tile against the whole arrays -/

/-- Entry (p, k) of a tile's normalised block is the whole-array function at row r, column k, once the tile's
    loaded blocks are the whole arrays' entries there: the long blocks at (r, k), the rows at (0, k). -/
theorem bn4_tile_eq (a : Cert.Spec.Arr 100000 128) (s q g be bi : Cert.Spec.Arr 1 128) (xin : Cert.Spec.Arr 100000 128)
    (xa : Vec Ideal S5000x128 .f32) (xs xq xg xbe xbi : Vec Ideal S1x128 .f32) (xx : Vec Ideal S5000x128 .f32)
    (p : Fin 5000) (k : Fin 128) (r : Fin 100000)
    (ha : xa (ix2 p k) = a (ix2 r k)) (hx : xx (ix2 p k) = xin (ix2 r k))
    (hs : xs (ix2 0 k) = s (ix2 0 k)) (hq : xq (ix2 0 k) = q (ix2 0 k)) (hg : xg (ix2 0 k) = g (ix2 0 k))
    (hbe : xbe (ix2 0 k) = be (ix2 0 k)) (hbi : xbi (ix2 0 k) = bi (ix2 0 k)) :
    k4_pay2 (F := Ideal) xs xq xa xbi xg xbe xx (ix2 p k) = Cert.Spec.bnKer a s q g be bi xin (ix2 r k) := by
  rw [bn4_payload_apply, ha, hx, hs, hq, hg, hbe, hbi]
  rfl

/-- Entry (p, j) of a tile's product block is the whole-array product at row r, column j, once every entry of
    row p of the normalised block is the whole-array function's at row r and the weight block is the weight matrix. -/
theorem bn4_mmTile_eq (y : Cert.Spec.Arr 100000 128) (w : Cert.Spec.Arr 128 64)
    (xs xq : Vec Ideal S1x128 .f32) (xa : Vec Ideal S5000x128 .f32) (xbi xg xbe : Vec Ideal S1x128 .f32)
    (xx : Vec Ideal S5000x128 .f32) (xw : Vec Ideal S128x64 .f32)
    (p : Fin 5000) (j : Fin 64) (r : Fin 100000)
    (hy : ∀ k : Fin 128, k4_pay2 (F := Ideal) xs xq xa xbi xg xbe xx (ix2 p k) = y (ix2 r k))
    (hw : ∀ k : Fin 128, xw (ix2 k j) = w (ix2 k j)) :
    k4_pay1 (F := Ideal) (k4_pay3 xs xq xa xbi xg xbe xx) xw (ix2 p j) = Cert.Spec.mm y w (ix2 r j) := by
  rw [bn4_mmPayload_apply]
  unfold Cert.Spec.mm
  refine Finset.sum_congr rfl fun k _ => ?_
  unfold k4_pay3
  rw [truncf_apply, hy k, hw k]

/-! ## The grid: where a tile's entries sit in the whole arrays -/

theorem bn4_zeroOffsets : (![0, 0] : Fin 2 → Nat) = fun _ => 0 :=
  funext fun a => by match a with | ⟨0, _⟩ => rfl | ⟨1, _⟩ => rfl

/-- The launch has 20 points. -/
theorem bn4_point_lt (t : Fin cfg4.N) : t.val < 20 := lt_of_lt_of_eq t.isLt N_4

/-- The index maps over the 20 points: the long arrays' blocks move with the point, the rows and the weight
    matrix stay at block 0. -/
theorem bn4_gridFacts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0
    ∧ win4_9.index t (0 : Fin 2) = t.val ∧ win4_9.index t (1 : Fin 2) = 0 :=
  (by decide +kernel : ∀ t : Fin grid4.N, _)

/-- Row 5000·t + p of the long arrays: row p of the tile that point t handles. -/
def bn4_tileRow (t : Fin cfg4.N) (p : Fin 5000) : Fin 100000 :=
  ⟨5000 * t.val + p.val, by have := bn4_point_lt t; have := p.isLt; omega⟩

/-- Entry (p, k) of the aggregate's block at point t is the array's entry (5000·t + p, k). -/
theorem bn4_place_a (t : Fin cfg4.N) (p : Fin 5000) (k : Fin 128) :
    ((cfg4.win 0).blk t).view.emb (ix2 p k) = ix2 (bn4_tileRow t p) k := by
  obtain ⟨e0, e1, -⟩ := bn4_gridFacts t
  funext a; apply Fin.ext
  match a with
  | ⟨0, _⟩ => show win4_0.index t (0 : Fin 2) * 5000 + 1 * p.val = 5000 * t.val + p.val; omega
  | ⟨1, _⟩ => show win4_0.index t (1 : Fin 2) * 128 + 1 * k.val = k.val; omega

/-- The same for the residual's block, -/
theorem bn4_place_x (t : Fin cfg4.N) (p : Fin 5000) (k : Fin 128) :
    ((cfg4.win 6).blk t).view.emb (ix2 p k) = ix2 (bn4_tileRow t p) k := by
  obtain ⟨-, -, -, -, -, -, -, -, -, -, -, -, e0, e1, -⟩ := bn4_gridFacts t
  funext a; apply Fin.ext
  match a with
  | ⟨0, _⟩ => show win4_6.index t (0 : Fin 2) * 5000 + 1 * p.val = 5000 * t.val + p.val; omega
  | ⟨1, _⟩ => show win4_6.index t (1 : Fin 2) * 128 + 1 * k.val = k.val; omega

/-- for the first output's block, -/
theorem bn4_place_out (t : Fin cfg4.N) (p : Fin 5000) (k : Fin 128) :
    ((cfg4.win 8).blk t).view.emb (ix2 p k) = ix2 (bn4_tileRow t p) k := by
  obtain ⟨-, -, -, -, -, -, -, -, -, -, -, -, -, -, -, -, e0, e1, -⟩ := bn4_gridFacts t
  funext a; apply Fin.ext
  match a with
  | ⟨0, _⟩ => show win4_8.index t (0 : Fin 2) * 5000 + 1 * p.val = 5000 * t.val + p.val; omega
  | ⟨1, _⟩ => show win4_8.index t (1 : Fin 2) * 128 + 1 * k.val = k.val; omega

/-- and, over 64 columns, for the second output's block. -/
theorem bn4_place_prod (t : Fin cfg4.N) (p : Fin 5000) (j : Fin 64) :
    ((cfg4.win 9).blk t).view.emb (ix2 p j) = ix2 (bn4_tileRow t p) j := by
  obtain ⟨-, -, -, -, -, -, -, -, -, -, -, -, -, -, -, -, -, -, e0, e1⟩ := bn4_gridFacts t
  funext a; apply Fin.ext
  match a with
  | ⟨0, _⟩ => show win4_9.index t (0 : Fin 2) * 5000 + 1 * p.val = 5000 * t.val + p.val; omega
  | ⟨1, _⟩ => show win4_9.index t (1 : Fin 2) * 64 + 1 * j.val = j.val; omega

/-- The five row windows and the weight window hold their whole arrays at every point: an entry of the block
    is the array's entry at the same index. -/
theorem bn4_place_s (t : Fin cfg4.N) (y : S1x128.Idx) : ((cfg4.win 1).blk t).view.emb y = y := by
  obtain ⟨-, -, e0, e1, -⟩ := bn4_gridFacts t
  funext a; apply Fin.ext
  match a with
  | ⟨0, _⟩ => show win4_1.index t (0 : Fin 2) * 1 + 1 * (y 0).val = (y 0).val; omega
  | ⟨1, _⟩ => show win4_1.index t (1 : Fin 2) * 128 + 1 * (y 1).val = (y 1).val; omega

theorem bn4_place_q (t : Fin cfg4.N) (y : S1x128.Idx) : ((cfg4.win 2).blk t).view.emb y = y := by
  obtain ⟨-, -, -, -, e0, e1, -⟩ := bn4_gridFacts t
  funext a; apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

theorem bn4_place_g (t : Fin cfg4.N) (y : S1x128.Idx) : ((cfg4.win 3).blk t).view.emb y = y := by
  obtain ⟨-, -, -, -, -, -, e0, e1, -⟩ := bn4_gridFacts t
  funext a; apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

theorem bn4_place_be (t : Fin cfg4.N) (y : S1x128.Idx) : ((cfg4.win 4).blk t).view.emb y = y := by
  obtain ⟨-, -, -, -, -, -, -, -, e0, e1, -⟩ := bn4_gridFacts t
  funext a; apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

theorem bn4_place_bi (t : Fin cfg4.N) (y : S1x128.Idx) : ((cfg4.win 5).blk t).view.emb y = y := by
  obtain ⟨-, -, -, -, -, -, -, -, -, -, e0, e1, -⟩ := bn4_gridFacts t
  funext a; apply Fin.ext
  match a with
  | ⟨0, _⟩ => show win4_5.index t (0 : Fin 2) * 1 + 1 * (y 0).val = (y 0).val; omega
  | ⟨1, _⟩ => show win4_5.index t (1 : Fin 2) * 128 + 1 * (y 1).val = (y 1).val; omega

theorem bn4_place_w (t : Fin cfg4.N) (y : S128x64.Idx) : ((cfg4.win 7).blk t).view.emb y = y := by
  obtain ⟨-, -, -, -, -, -, -, -, -, -, -, -, -, -, e0, e1, -⟩ := bn4_gridFacts t
  funext a; apply Fin.ext
  match a with
  | ⟨0, _⟩ => show win4_7.index t (0 : Fin 2) * 128 + 1 * (y 0).val = (y 0).val; omega
  | ⟨1, _⟩ => show win4_7.index t (1 : Fin 2) * 64 + 1 * (y 1).val = (y 1).val; omega

variable (V : (c : Dev nD) → (b : Ref sig .tc) → Buf (Elt Ideal) ((c : Thread nD τ).loc b))

/-! ## What each point writes back -/

/-- Point t writes back tile t of the normalised array. -/
theorem bn4_flushed_x (c : Dev nD) (t : Fin cfg4.N) :
    (dat4 (F := Ideal) V c).flushed 8 t = ((cfg4.win 8).blk t).view.read (Elt Ideal)
      (Cert.Spec.bnKer (V c main_v24) (V c main_v34) (V c main_v36) (V c main_v37) (V c main_v38) (V c main_v39) (V c main_v20_0)) := by
  show (cfg4.win 8).cut (grid4.coords t) ((dat4 V c).after 8 t) = _
  rw [after4_8]
  unfold out4_8
  rw [View.canon_unit_zero bn4_zeroOffsets]
  simp only [View.ld_unit_zero (S := S5000x128) bn4_zeroOffsets, View.ld_unit_zero (S := S1x128) bn4_zeroOffsets]
  funext j
  obtain ⟨p, k, rfl⟩ : ∃ (p : Fin 5000) (k : Fin 128), j = ix2 p k := ⟨j 0, j 1, eq_ix2 j⟩
  show k4_pay2 (F := Ideal) (iblk4 V c 1 t) (iblk4 V c 2 t) (iblk4 V c 0 t) (iblk4 V c 5 t) (iblk4 V c 3 t) (iblk4 V c 4 t) (iblk4 V c 6 t) (ix2 p k)
    = Cert.Spec.bnKer (V c main_v24) (V c main_v34) (V c main_v36) (V c main_v37) (V c main_v38) (V c main_v39) (V c main_v20_0)
        (((cfg4.win 8).blk t).view.emb (ix2 p k))
  rw [bn4_place_out t p k]
  exact bn4_tile_eq (V c main_v24) (V c main_v34) (V c main_v36) (V c main_v37) (V c main_v38) (V c main_v39) (V c main_v20_0)
    (iblk4 V c 0 t) (iblk4 V c 1 t) (iblk4 V c 2 t) (iblk4 V c 3 t) (iblk4 V c 4 t) (iblk4 V c 5 t) (iblk4 V c 6 t) p k (bn4_tileRow t p)
    (show V c main_v24 (((cfg4.win 0).blk t).view.emb (ix2 p k)) = _ from congrArg (V c main_v24) (bn4_place_a t p k))
    (show V c main_v20_0 (((cfg4.win 6).blk t).view.emb (ix2 p k)) = _ from congrArg (V c main_v20_0) (bn4_place_x t p k))
    (show V c main_v34 (((cfg4.win 1).blk t).view.emb (ix2 0 k)) = _ from congrArg (V c main_v34) (bn4_place_s t (ix2 0 k)))
    (show V c main_v36 (((cfg4.win 2).blk t).view.emb (ix2 0 k)) = _ from congrArg (V c main_v36) (bn4_place_q t (ix2 0 k)))
    (show V c main_v37 (((cfg4.win 3).blk t).view.emb (ix2 0 k)) = _ from congrArg (V c main_v37) (bn4_place_g t (ix2 0 k)))
    (show V c main_v38 (((cfg4.win 4).blk t).view.emb (ix2 0 k)) = _ from congrArg (V c main_v38) (bn4_place_be t (ix2 0 k)))
    (show V c main_v39 (((cfg4.win 5).blk t).view.emb (ix2 0 k)) = _ from congrArg (V c main_v39) (bn4_place_bi t (ix2 0 k)))

/-- Point t writes back tile t of the product array. -/
theorem bn4_flushed_m (c : Dev nD) (t : Fin cfg4.N) :
    (dat4 (F := Ideal) V c).flushed 9 t = ((cfg4.win 9).blk t).view.read (Elt Ideal)
      (Cert.Spec.mm (Cert.Spec.bnKer (V c main_v24) (V c main_v34) (V c main_v36) (V c main_v37) (V c main_v38) (V c main_v39) (V c main_v20_0)) (V c main_arg7)) := by
  show (cfg4.win 9).cut (grid4.coords t) ((dat4 V c).after 9 t) = _
  rw [after4_9]
  unfold out4_9
  rw [View.canon_unit_zero bn4_zeroOffsets]
  simp only [View.ld_unit_zero (S := S5000x128) bn4_zeroOffsets, View.ld_unit_zero (S := S1x128) bn4_zeroOffsets,
    View.ld_unit_zero (S := S128x64) bn4_zeroOffsets]
  funext j
  obtain ⟨p, q, rfl⟩ : ∃ (p : Fin 5000) (q : Fin 64), j = ix2 p q := ⟨j 0, j 1, eq_ix2 j⟩
  show k4_pay1 (F := Ideal) (k4_pay3 (iblk4 V c 1 t) (iblk4 V c 2 t) (iblk4 V c 0 t) (iblk4 V c 5 t) (iblk4 V c 3 t) (iblk4 V c 4 t) (iblk4 V c 6 t)) (iblk4 V c 7 t) (ix2 p q)
    = Cert.Spec.mm (Cert.Spec.bnKer (V c main_v24) (V c main_v34) (V c main_v36) (V c main_v37) (V c main_v38) (V c main_v39) (V c main_v20_0)) (V c main_arg7)
        (((cfg4.win 9).blk t).view.emb (ix2 p q))
  rw [bn4_place_prod t p q]
  refine bn4_mmTile_eq
    (Cert.Spec.bnKer (V c main_v24) (V c main_v34) (V c main_v36) (V c main_v37) (V c main_v38) (V c main_v39) (V c main_v20_0)) (V c main_arg7)
    (iblk4 V c 1 t) (iblk4 V c 2 t) (iblk4 V c 0 t) (iblk4 V c 5 t) (iblk4 V c 3 t) (iblk4 V c 4 t) (iblk4 V c 6 t) (iblk4 V c 7 t)
    p q (bn4_tileRow t p) (fun k => ?_) (fun k => ?_)
  · exact bn4_tile_eq (V c main_v24) (V c main_v34) (V c main_v36) (V c main_v37) (V c main_v38) (V c main_v39) (V c main_v20_0)
      (iblk4 V c 0 t) (iblk4 V c 1 t) (iblk4 V c 2 t) (iblk4 V c 3 t) (iblk4 V c 4 t) (iblk4 V c 5 t) (iblk4 V c 6 t) p k (bn4_tileRow t p)
      (show V c main_v24 (((cfg4.win 0).blk t).view.emb (ix2 p k)) = _ from congrArg (V c main_v24) (bn4_place_a t p k))
      (show V c main_v20_0 (((cfg4.win 6).blk t).view.emb (ix2 p k)) = _ from congrArg (V c main_v20_0) (bn4_place_x t p k))
      (show V c main_v34 (((cfg4.win 1).blk t).view.emb (ix2 0 k)) = _ from congrArg (V c main_v34) (bn4_place_s t (ix2 0 k)))
      (show V c main_v36 (((cfg4.win 2).blk t).view.emb (ix2 0 k)) = _ from congrArg (V c main_v36) (bn4_place_q t (ix2 0 k)))
      (show V c main_v37 (((cfg4.win 3).blk t).view.emb (ix2 0 k)) = _ from congrArg (V c main_v37) (bn4_place_g t (ix2 0 k)))
      (show V c main_v38 (((cfg4.win 4).blk t).view.emb (ix2 0 k)) = _ from congrArg (V c main_v38) (bn4_place_be t (ix2 0 k)))
      (show V c main_v39 (((cfg4.win 5).blk t).view.emb (ix2 0 k)) = _ from congrArg (V c main_v39) (bn4_place_bi t (ix2 0 k)))
  · exact (show V c main_arg7 (((cfg4.win 7).blk t).view.emb (ix2 k q)) = _ from congrArg (V c main_arg7) (bn4_place_w t (ix2 k q)))

/-! ## The tiles cover the arrays -/

/-- An index of the first output is in point t's block iff each coordinate is in the block's range on its axis. -/
theorem bn4_mem_tile_x (t : Fin cfg4.N) (i : S100000x128.Idx) :
    i ∈ ((cfg4.win 8).blk t).view.set ↔ ∀ a : Fin 2, win4_8.index t a * S5000x128.size a ≤ (i a).val ∧ (i a).val < win4_8.index t a * S5000x128.size a + S5000x128.size a := by
  show i ∈ ((View.whole main_v40_0).slice (win4_8.rect t)).set ↔ _
  rw [View.set_slice_whole, Rect.mem_set_unit]
  exact Iff.rfl

/-- The same for the second output, 64 columns wide. -/
theorem bn4_mem_tile_m (t : Fin cfg4.N) (i : S100000x64.Idx) :
    i ∈ ((cfg4.win 9).blk t).view.set ↔ ∀ a : Fin 2, win4_9.index t a * S5000x64.size a ≤ (i a).val ∧ (i a).val < win4_9.index t a * S5000x64.size a + S5000x64.size a := by
  show i ∈ ((View.whole main_v40_1).slice (win4_9.rect t)).set ↔ _
  rw [View.set_slice_whole, Rect.mem_set_unit]
  exact Iff.rfl

/-- The point whose tile holds row r: r / 5000. -/
def bn4_pointOf (r : Fin 100000) : Fin cfg4.N :=
  ⟨r.val / 5000, lt_of_lt_of_eq (by have := r.isLt; omega) N_4.symm⟩

/-- Every index of the first output is in the tile of the point row / 5000. -/
theorem bn4_cover_x (i : S100000x128.Idx) :
    ∃ t : Fin cfg4.N, (cfg4.win 8).flush t = true ∧ i ∈ ((cfg4.win 8).blk t).view.set := by
  refine ⟨bn4_pointOf (Cert.Spec.c0 i), flush4_8 _, ?_⟩
  rw [bn4_mem_tile_x]
  obtain ⟨-, -, -, -, -, -, -, -, -, -, -, -, -, -, -, -, e0, e1, -⟩ := bn4_gridFacts (bn4_pointOf (Cert.Spec.c0 i))
  have h0 : (i 0).val < 100000 := idx2_lt0 i
  have h1 : (i 1).val < 128 := idx2_lt1 i
  have hp : (bn4_pointOf (Cert.Spec.c0 i)).val = (i 0).val / 5000 := rfl
  intro a
  match a with
  | ⟨0, _⟩ => show win4_8.index (bn4_pointOf (Cert.Spec.c0 i)) (0 : Fin 2) * 5000 ≤ (i 0).val ∧ (i 0).val < win4_8.index (bn4_pointOf (Cert.Spec.c0 i)) (0 : Fin 2) * 5000 + 5000; omega
  | ⟨1, _⟩ => show win4_8.index (bn4_pointOf (Cert.Spec.c0 i)) (1 : Fin 2) * 128 ≤ (i 1).val ∧ (i 1).val < win4_8.index (bn4_pointOf (Cert.Spec.c0 i)) (1 : Fin 2) * 128 + 128; omega

/-- The same for the second output. -/
theorem bn4_cover_m (i : S100000x64.Idx) :
    ∃ t : Fin cfg4.N, (cfg4.win 9).flush t = true ∧ i ∈ ((cfg4.win 9).blk t).view.set := by
  refine ⟨bn4_pointOf (Cert.Spec.c0 i), flush4_9 _, ?_⟩
  rw [bn4_mem_tile_m]
  obtain ⟨-, -, -, -, -, -, -, -, -, -, -, -, -, -, -, -, -, -, e0, e1⟩ := bn4_gridFacts (bn4_pointOf (Cert.Spec.c0 i))
  have h0 : (i 0).val < 100000 := idx2_lt0 i
  have h1 : (i 1).val < 64 := idx2_lt1 i
  have hp : (bn4_pointOf (Cert.Spec.c0 i)).val = (i 0).val / 5000 := rfl
  intro a
  match a with
  | ⟨0, _⟩ => show win4_9.index (bn4_pointOf (Cert.Spec.c0 i)) (0 : Fin 2) * 5000 ≤ (i 0).val ∧ (i 0).val < win4_9.index (bn4_pointOf (Cert.Spec.c0 i)) (0 : Fin 2) * 5000 + 5000; omega
  | ⟨1, _⟩ => show win4_9.index (bn4_pointOf (Cert.Spec.c0 i)) (1 : Fin 2) * 64 ≤ (i 1).val ∧ (i 1).val < win4_9.index (bn4_pointOf (Cert.Spec.c0 i)) (1 : Fin 2) * 64 + 64; omega

/-! ## The launch's two output arrays -/

theorem region4_x (c : Dev nD) :
    (dat4 (F := Ideal) V c).arrAt 8 cfg4.N
      = Cert.Spec.bnKer (V c main_v24) (V c main_v34) (V c main_v36) (V c main_v37) (V c main_v38) (V c main_v39) (V c main_v20_0) := by
  exact (dat4 (F := Ideal) V c).arrAt_eq_of_cover 8 _ (fun t _ => bn4_flushed_x V c t) bn4_cover_x

theorem region4_m (c : Dev nD) :
    (dat4 (F := Ideal) V c).arrAt 9 cfg4.N
      = Cert.Spec.mm (Cert.Spec.bnKer (V c main_v24) (V c main_v34) (V c main_v36) (V c main_v37) (V c main_v38) (V c main_v39) (V c main_v20_0)) (V c main_arg7) := by
  exact (dat4 (F := Ideal) V c).arrAt_eq_of_cover 9 _ (fun t _ => bn4_flushed_m V c t) bn4_cover_m

end Cert.KernelIdeal.Val

end
-- ==== Proof.Region5.lean ====
/-
  The last launch: twenty tiles of 5000 rows, the bias row added to every row.

  Tile t of the output holds rows 5000·t … 5000·t + 4999. Its entry (p, q) is the aggregate's entry in row
  5000·t + p, column q, plus entry q of the one-row bias, which every tile reads whole. The twenty tiles
  partition the rows, so the output array is the aggregate with the bias row added to every row.
-/
import proofs.«406583_j75179107549523_3_alg».proof.Proof.Gen.KernelIdeal.Frame
import proofs.«406583_j75179107549523_3_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace Bias5

/-- The aggregate as the launch finds it. -/
abbrev agg5 (c : Dev nD) : Cert.Spec.Arr 100000 64 := V c main_v44
/-- The one-row bias as the launch finds it. -/
abbrev bias5 (c : Dev nD) : Cert.Spec.Arr 1 64 := V c main_v45

/-- The zero offsets of a whole-tile access, however spelt. -/
theorem zeroOff5 : (![0, 0] : Fin 2 → Nat) = fun _ => 0 :=
  funext fun a => match a with | ⟨0, _⟩ => rfl | ⟨1, _⟩ => rfl

/-- One entry of a stored tile: the aggregate tile's entry plus the bias entry of the same column. -/
theorem biasTile_apply (x0 : Vec Ideal S5000x64 .f32) (x1 : Vec Ideal S1x64 .f32) (p : Fin 5000) (q : Fin 64) :
    k5_pay1 x0 x1 (ix2 p q) = x0 (ix2 p q) + x1 (ix2 0 q) := by
  unfold k5_pay1
  rw [addf_apply, shapeCast_self, shapeCast_self]
  refine congrArg (x0 (ix2 p q) + ·) (broadcastTo_apply x1 _ (ix2 p q) (ix2 0 q) fun a => ?_)
  match a with
  | ⟨0, _⟩ => rfl
  | ⟨1, _⟩ => rfl

/-- The tiles' positions, decided over the twenty grid points: the aggregate's and the output's tile at point t is
    tile t along the rows, and the bias row is read whole. -/
theorem tileAt5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is tile t of the aggregate with the bias row added to every row. -/
theorem flushed5_eq (c : Dev nD) (t : Fin cfg5.N) :
    (dat5 (F := Ideal) V c).flushed 2 t
      = ((cfg5.win 2).blk t).view.read (Elt Ideal) (Cert.Spec.addRow1 (V c main_v44) (V c main_v45)) := by
  show (cfg5.win 2).cut (grid5.coords t) ((dat5 V c).after 2 t) = _
  rw [after5_2]
  unfold out5_2
  rw [View.canon_unit_zero zeroOff5]
  simp only [View.ld_unit_zero (S := S5000x64) zeroOff5, View.ld_unit_zero (S := S1x64) zeroOff5]
  funext j
  obtain ⟨p, q, rfl⟩ : ∃ (p : Fin 5000) (q : Fin 64), j = ix2 p q := ⟨j 0, j 1, eq_ix2 j⟩
  refine (biasTile_apply (iblk5 V c 0 t) (iblk5 V c 1 t) p q).trans ?_
  obtain ⟨e00, e01, e10, e11, e20, e21⟩ := tileAt5 t
  show agg5 V c (((cfg5.win 0).blk t).view.emb (ix2 p q)) + bias5 V c (((cfg5.win 1).blk t).view.emb (ix2 0 q))
    = agg5 V c (((cfg5.win 2).blk t).view.emb (ix2 p q))
      + bias5 V c (ix2 0 (Cert.Spec.c1 (((cfg5.win 2).blk t).view.emb (ix2 p q))))
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 64 + 1 * q.val = win5_2.index t (1 : Fin 2) * 64 + 1 * q.val; omega
  have h1 : ((cfg5.win 1).blk t).view.emb (ix2 0 q)
      = ix2 0 (Cert.Spec.c1 (((cfg5.win 2).blk t).view.emb (ix2 p q))) := by
    funext a; apply Fin.ext
    match a with
    | ⟨0, _⟩ => show win5_1.index t (0 : Fin 2) * 1 + 1 * 0 = 0; omega
    | ⟨1, _⟩ => show win5_1.index t (1 : Fin 2) * 64 + 1 * q.val = win5_2.index t (1 : Fin 2) * 64 + 1 * q.val; omega
  rw [h0, h1]

/-- A position of the output lies in point t's tile iff, on each axis, it is within the tile's range. -/
theorem mem_tile5 (t : Fin cfg5.N) (i : S100000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v46).slice (win5_2.rect t)).set ↔ _
  rw [View.set_slice_whole, Rect.mem_set_unit]
  exact Iff.rfl

/-- Every position of the output is written back by some point: row r by point r / 5000. -/
theorem covered5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, by rw [show cfg5.N = 20 from N_5]; omega⟩, rfl⟩
  obtain ⟨-, -, -, -, e20, e21⟩ := tileAt5 t
  refine ⟨t, flush5_2 t, ?_⟩
  rw [mem_tile5]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 64 ≤ (i 1).val ∧ (i 1).val < win5_2.index t (1 : Fin 2) * 64 + 64
    omega

end Bias5

/-- After the launch the output array is the aggregate with the one-row bias added to every row. -/
theorem region5_out (c : Dev nD) :
    (dat5 (F := Ideal) V c).arrAt 2 cfg5.N = Cert.Spec.addRow1 (V c main_v44) (V c main_v45) :=
  (dat5 (F := Ideal) V c).arrAt_eq_of_cover 2 (Cert.Spec.addRow1 (V c main_v44) (V c main_v45))
    (fun t _ => Bias5.flushed5_eq V c t) Bias5.covered5

end Cert.KernelIdeal.Val

end
-- ==== Proof.KernelChain.lean ====
/-
  The kernel program's result as the network of Spec.lean at the first form of the variance.

  The frame's fold gives the buffers' contents at each of @main's fifteen boundaries (W0 at the launch … W14 at the
  return). Reading it backwards from the result buffer: each launch's output array is its whole-array function of
  the arrays the launch found (the six region modules), each stretch of host operations a function of the buffers it
  found (the lookups, the segment sums, the statistics), and a buffer that a segment neither writes nor windows is
  what it was before the segment. The source indices being in range is used once per lookup.
-/
import proofs.«406583_j75179107549523_3_alg».proof.Proof.Gen.KernelIdeal.Frame
import proofs.«406583_j75179107549523_3_alg».proof.Proof.Spec
import proofs.«406583_j75179107549523_3_alg».proof.Proof.Algebra
import proofs.«406583_j75179107549523_3_alg».proof.Proof.KernelIdx
import proofs.«406583_j75179107549523_3_alg».proof.Proof.KernelTake
import proofs.«406583_j75179107549523_3_alg».proof.Proof.KernelHost
import proofs.«406583_j75179107549523_3_alg».proof.Proof.Region0
import proofs.«406583_j75179107549523_3_alg».proof.Proof.Region1
import proofs.«406583_j75179107549523_3_alg».proof.Proof.Region2
import proofs.«406583_j75179107549523_3_alg».proof.Proof.Region3
import proofs.«406583_j75179107549523_3_alg».proof.Proof.Region4
import proofs.«406583_j75179107549523_3_alg».proof.Proof.Region5

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- A stretch of host operations leaves a buffer alone when none of its operations writes it: the written buffers
    are read off the stretch, and the buffer differs from each. -/
local macro "untouched_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The arguments, carried to the boundaries that read them

    No segment writes an argument. Through a launch that windows it the array is what the launch found; through a
    launch that does not, and through a stretch of host operations, the buffer is untouched. -/

theorem arg_at0 (b : Ref sig .tc) : W0 m ρ c (Proc.devRef .tc b) = m ((c : Thread nD τ).loc b) := rfl

theorem x_at1 : W1 m ρ c (Proc.devRef .tc main_arg0) = (m ((c : Thread nD τ).loc main_arg0)) := ((W1_arr m ρ c 0).trans (((dat0 (V0 m ρ) c).arrAt_in 0 rfl _).trans (A_eq0 (V0 m ρ) c 0)))
theorem x_at5 : W5 m ρ c (Proc.devRef .tc main_arg0) = (m ((c : Thread nD τ).loc main_arg0)) :=
  (show W5 m ρ c (Proc.devRef .tc main_arg0) = W4 m ρ c (Proc.devRef .tc main_arg0) by untouched_by hostOps2).trans ((W4_of_ne m ρ c main_arg0 (by decide)).trans ((show W3 m ρ c (Proc.devRef .tc main_arg0) = W2 m ρ c (Proc.devRef .tc main_arg0) by untouched_by hostOps1_1).trans ((show W2 m ρ c (Proc.devRef .tc main_arg0) = W1 m ρ c (Proc.devRef .tc main_arg0) by untouched_by hostOps1).trans (x_at1 m ρ c))))

theorem src_at1 : W1 m ρ c (Proc.devRef .tc main_arg1) = (m ((c : Thread nD τ).loc main_arg1)) := (W1_of_ne m ρ c main_arg1 (by decide))
theorem src_at6 : W6 m ρ c (Proc.devRef .tc main_arg1) = (m ((c : Thread nD τ).loc main_arg1)) :=
  (W6_of_ne m ρ c main_arg1 (by decide)).trans ((show W5 m ρ c (Proc.devRef .tc main_arg1) = W4 m ρ c (Proc.devRef .tc main_arg1) by untouched_by hostOps2).trans ((W4_of_ne m ρ c main_arg1 (by decide)).trans ((show W3 m ρ c (Proc.devRef .tc main_arg1) = W2 m ρ c (Proc.devRef .tc main_arg1) by untouched_by hostOps1_1).trans ((show W2 m ρ c (Proc.devRef .tc main_arg1) = W1 m ρ c (Proc.devRef .tc main_arg1) by untouched_by hostOps1).trans (src_at1 m ρ c)))))
theorem src_at11 : W11 m ρ c (Proc.devRef .tc main_arg1) = (m ((c : Thread nD τ).loc main_arg1)) :=
  (W11_of_ne m ρ c main_arg1 (by decide)).trans ((show W10 m ρ c (Proc.devRef .tc main_arg1) = W9 m ρ c (Proc.devRef .tc main_arg1) by untouched_by hostOps4).trans ((W9_of_ne m ρ c main_arg1 (by decide)).trans ((show W8 m ρ c (Proc.devRef .tc main_arg1) = W7 m ρ c (Proc.devRef .tc main_arg1) by untouched_by hostOps3_1).trans ((show W7 m ρ c (Proc.devRef .tc main_arg1) = W6 m ρ c (Proc.devRef .tc main_arg1) by untouched_by hostOps3).trans (src_at6 m ρ c)))))

theorem dst_at2 : W2 m ρ c (Proc.devRef .tc main_arg2) = (m ((c : Thread nD τ).loc main_arg2)) :=
  (show W2 m ρ c (Proc.devRef .tc main_arg2) = W1 m ρ c (Proc.devRef .tc main_arg2) by untouched_by hostOps1).trans ((W1_of_ne m ρ c main_arg2 (by decide)))
theorem dst_at7 : W7 m ρ c (Proc.devRef .tc main_arg2) = (m ((c : Thread nD τ).loc main_arg2)) :=
  (show W7 m ρ c (Proc.devRef .tc main_arg2) = W6 m ρ c (Proc.devRef .tc main_arg2) by untouched_by hostOps3).trans ((W6_of_ne m ρ c main_arg2 (by decide)).trans ((show W5 m ρ c (Proc.devRef .tc main_arg2) = W4 m ρ c (Proc.devRef .tc main_arg2) by untouched_by hostOps2).trans ((W4_of_ne m ρ c main_arg2 (by decide)).trans ((show W3 m ρ c (Proc.devRef .tc main_arg2) = W2 m ρ c (Proc.devRef .tc main_arg2) by untouched_by hostOps1_1).trans (dst_at2 m ρ c)))))
theorem dst_at12 : W12 m ρ c (Proc.devRef .tc main_arg2) = (m ((c : Thread nD τ).loc main_arg2)) :=
  (show W12 m ρ c (Proc.devRef .tc main_arg2) = W11 m ρ c (Proc.devRef .tc main_arg2) by untouched_by hostOps5).trans ((W11_of_ne m ρ c main_arg2 (by decide)).trans ((show W10 m ρ c (Proc.devRef .tc main_arg2) = W9 m ρ c (Proc.devRef .tc main_arg2) by untouched_by hostOps4).trans ((W9_of_ne m ρ c main_arg2 (by decide)).trans ((show W8 m ρ c (Proc.devRef .tc main_arg2) = W7 m ρ c (Proc.devRef .tc main_arg2) by untouched_by hostOps3_1).trans (dst_at7 m ρ c)))))

theorem b0_at2 : W2 m ρ c (Proc.devRef .tc main_arg4) = (m ((c : Thread nD τ).loc main_arg4)) :=
  (show W2 m ρ c (Proc.devRef .tc main_arg4) = W1 m ρ c (Proc.devRef .tc main_arg4) by untouched_by hostOps1).trans ((W1_of_ne m ρ c main_arg4 (by decide)))
theorem b0_at4 : W4 m ρ c (Proc.devRef .tc main_arg4) = (m ((c : Thread nD τ).loc main_arg4)) :=
  (W4_of_ne m ρ c main_arg4 (by decide)).trans ((show W3 m ρ c (Proc.devRef .tc main_arg4) = W2 m ρ c (Proc.devRef .tc main_arg4) by untouched_by hostOps1_1).trans (b0_at2 m ρ c))
theorem g0_at4 : W4 m ρ c (Proc.devRef .tc main_arg9) = (m ((c : Thread nD τ).loc main_arg9)) :=
  (W4_of_ne m ρ c main_arg9 (by decide)).trans ((show W3 m ρ c (Proc.devRef .tc main_arg9) = W2 m ρ c (Proc.devRef .tc main_arg9) by untouched_by hostOps1_1).trans ((show W2 m ρ c (Proc.devRef .tc main_arg9) = W1 m ρ c (Proc.devRef .tc main_arg9) by untouched_by hostOps1).trans ((W1_of_ne m ρ c main_arg9 (by decide)))))
theorem be0_at4 : W4 m ρ c (Proc.devRef .tc main_arg10) = (m ((c : Thread nD τ).loc main_arg10)) :=
  (W4_of_ne m ρ c main_arg10 (by decide)).trans ((show W3 m ρ c (Proc.devRef .tc main_arg10) = W2 m ρ c (Proc.devRef .tc main_arg10) by untouched_by hostOps1_1).trans ((show W2 m ρ c (Proc.devRef .tc main_arg10) = W1 m ρ c (Proc.devRef .tc main_arg10) by untouched_by hostOps1).trans ((W1_of_ne m ρ c main_arg10 (by decide)))))
theorem w1_at5 : W5 m ρ c (Proc.devRef .tc main_arg5) = (m ((c : Thread nD τ).loc main_arg5)) :=
  (show W5 m ρ c (Proc.devRef .tc main_arg5) = W4 m ρ c (Proc.devRef .tc main_arg5) by untouched_by hostOps2).trans ((W4_of_ne m ρ c main_arg5 (by decide)).trans ((show W3 m ρ c (Proc.devRef .tc main_arg5) = W2 m ρ c (Proc.devRef .tc main_arg5) by untouched_by hostOps1_1).trans ((show W2 m ρ c (Proc.devRef .tc main_arg5) = W1 m ρ c (Proc.devRef .tc main_arg5) by untouched_by hostOps1).trans ((W1_of_ne m ρ c main_arg5 (by decide))))))

theorem b1_at7 : W7 m ρ c (Proc.devRef .tc main_arg6) = (m ((c : Thread nD τ).loc main_arg6)) :=
  (show W7 m ρ c (Proc.devRef .tc main_arg6) = W6 m ρ c (Proc.devRef .tc main_arg6) by untouched_by hostOps3).trans ((W6_of_ne m ρ c main_arg6 (by decide)).trans ((show W5 m ρ c (Proc.devRef .tc main_arg6) = W4 m ρ c (Proc.devRef .tc main_arg6) by untouched_by hostOps2).trans ((W4_of_ne m ρ c main_arg6 (by decide)).trans ((show W3 m ρ c (Proc.devRef .tc main_arg6) = W2 m ρ c (Proc.devRef .tc main_arg6) by untouched_by hostOps1_1).trans ((show W2 m ρ c (Proc.devRef .tc main_arg6) = W1 m ρ c (Proc.devRef .tc main_arg6) by untouched_by hostOps1).trans ((W1_of_ne m ρ c main_arg6 (by decide))))))))
theorem b1_at9 : W9 m ρ c (Proc.devRef .tc main_arg6) = (m ((c : Thread nD τ).loc main_arg6)) :=
  (W9_of_ne m ρ c main_arg6 (by decide)).trans ((show W8 m ρ c (Proc.devRef .tc main_arg6) = W7 m ρ c (Proc.devRef .tc main_arg6) by untouched_by hostOps3_1).trans (b1_at7 m ρ c))
theorem g1_at9 : W9 m ρ c (Proc.devRef .tc main_arg11) = (m ((c : Thread nD τ).loc main_arg11)) :=
  (W9_of_ne m ρ c main_arg11 (by decide)).trans ((show W8 m ρ c (Proc.devRef .tc main_arg11) = W7 m ρ c (Proc.devRef .tc main_arg11) by untouched_by hostOps3_1).trans ((show W7 m ρ c (Proc.devRef .tc main_arg11) = W6 m ρ c (Proc.devRef .tc main_arg11) by untouched_by hostOps3).trans ((W6_of_ne m ρ c main_arg11 (by decide)).trans ((show W5 m ρ c (Proc.devRef .tc main_arg11) = W4 m ρ c (Proc.devRef .tc main_arg11) by untouched_by hostOps2).trans ((W4_of_ne m ρ c main_arg11 (by decide)).trans ((show W3 m ρ c (Proc.devRef .tc main_arg11) = W2 m ρ c (Proc.devRef .tc main_arg11) by untouched_by hostOps1_1).trans ((show W2 m ρ c (Proc.devRef .tc main_arg11) = W1 m ρ c (Proc.devRef .tc main_arg11) by untouched_by hostOps1).trans ((W1_of_ne m ρ c main_arg11 (by decide))))))))))
theorem be1_at9 : W9 m ρ c (Proc.devRef .tc main_arg12) = (m ((c : Thread nD τ).loc main_arg12)) :=
  (W9_of_ne m ρ c main_arg12 (by decide)).trans ((show W8 m ρ c (Proc.devRef .tc main_arg12) = W7 m ρ c (Proc.devRef .tc main_arg12) by untouched_by hostOps3_1).trans ((show W7 m ρ c (Proc.devRef .tc main_arg12) = W6 m ρ c (Proc.devRef .tc main_arg12) by untouched_by hostOps3).trans ((W6_of_ne m ρ c main_arg12 (by decide)).trans ((show W5 m ρ c (Proc.devRef .tc main_arg12) = W4 m ρ c (Proc.devRef .tc main_arg12) by untouched_by hostOps2).trans ((W4_of_ne m ρ c main_arg12 (by decide)).trans ((show W3 m ρ c (Proc.devRef .tc main_arg12) = W2 m ρ c (Proc.devRef .tc main_arg12) by untouched_by hostOps1_1).trans ((show W2 m ρ c (Proc.devRef .tc main_arg12) = W1 m ρ c (Proc.devRef .tc main_arg12) by untouched_by hostOps1).trans ((W1_of_ne m ρ c main_arg12 (by decide))))))))))
theorem w2_at10 : W10 m ρ c (Proc.devRef .tc main_arg7) = (m ((c : Thread nD τ).loc main_arg7)) :=
  (show W10 m ρ c (Proc.devRef .tc main_arg7) = W9 m ρ c (Proc.devRef .tc main_arg7) by untouched_by hostOps4).trans ((W9_of_ne m ρ c main_arg7 (by decide)).trans ((show W8 m ρ c (Proc.devRef .tc main_arg7) = W7 m ρ c (Proc.devRef .tc main_arg7) by untouched_by hostOps3_1).trans ((show W7 m ρ c (Proc.devRef .tc main_arg7) = W6 m ρ c (Proc.devRef .tc main_arg7) by untouched_by hostOps3).trans ((W6_of_ne m ρ c main_arg7 (by decide)).trans ((show W5 m ρ c (Proc.devRef .tc main_arg7) = W4 m ρ c (Proc.devRef .tc main_arg7) by untouched_by hostOps2).trans ((W4_of_ne m ρ c main_arg7 (by decide)).trans ((show W3 m ρ c (Proc.devRef .tc main_arg7) = W2 m ρ c (Proc.devRef .tc main_arg7) by untouched_by hostOps1_1).trans ((show W2 m ρ c (Proc.devRef .tc main_arg7) = W1 m ρ c (Proc.devRef .tc main_arg7) by untouched_by hostOps1).trans ((W1_of_ne m ρ c main_arg7 (by decide)))))))))))
theorem b2_at12 : W12 m ρ c (Proc.devRef .tc main_arg8) = (m ((c : Thread nD τ).loc main_arg8)) :=
  (show W12 m ρ c (Proc.devRef .tc main_arg8) = W11 m ρ c (Proc.devRef .tc main_arg8) by untouched_by hostOps5).trans ((W11_of_ne m ρ c main_arg8 (by decide)).trans ((show W10 m ρ c (Proc.devRef .tc main_arg8) = W9 m ρ c (Proc.devRef .tc main_arg8) by untouched_by hostOps4).trans ((W9_of_ne m ρ c main_arg8 (by decide)).trans ((show W8 m ρ c (Proc.devRef .tc main_arg8) = W7 m ρ c (Proc.devRef .tc main_arg8) by untouched_by hostOps3_1).trans ((show W7 m ρ c (Proc.devRef .tc main_arg8) = W6 m ρ c (Proc.devRef .tc main_arg8) by untouched_by hostOps3).trans ((W6_of_ne m ρ c main_arg8 (by decide)).trans ((show W5 m ρ c (Proc.devRef .tc main_arg8) = W4 m ρ c (Proc.devRef .tc main_arg8) by untouched_by hostOps2).trans ((W4_of_ne m ρ c main_arg8 (by decide)).trans ((show W3 m ρ c (Proc.devRef .tc main_arg8) = W2 m ρ c (Proc.devRef .tc main_arg8) by untouched_by hostOps1_1).trans ((show W2 m ρ c (Proc.devRef .tc main_arg8) = W1 m ρ c (Proc.devRef .tc main_arg8) by untouched_by hostOps1).trans ((W1_of_ne m ρ c main_arg8 (by decide)))))))))))))

/-! ## Layer 0 -/

/-- The projected features after the first launch. -/
theorem m0_at1 : W1 m ρ c (Proc.devRef .tc main_v0) = (Cert.Spec.mm (m ((c : Thread nD τ).loc main_arg0)) (m ((c : Thread nD τ).loc main_arg3))) :=
  (W1_arr m ρ c 2).trans (region0_out (V0 m ρ) c)

/-- The looked-up rows: the plain gather, the source indices being in range. -/
theorem rows0_at2 (hsrc : Cert.Spec.SrcOk (m ((c : Thread nD τ).loc main_arg1))) : W2 m ρ c (Proc.devRef .tc main_v1) = Host.gather gather_S100000x128_S1600000x1_S1600000x128_1_0_n_n_0_1_1128 (Cert.Spec.mm (m ((c : Thread nD τ).loc main_arg0)) (m ((c : Thread nD τ).loc main_arg3))) (giK (m ((c : Thread nD τ).loc main_arg1))) := by
  have h := take0 (W1 m ρ c) (by rw [src_at1 m ρ c]; exact hsrc)
  rw [m0_at1 m ρ c, src_at1 m ρ c] at h
  exact h

/-- The aggregate. -/
theorem agg0_at3 (hsrc : Cert.Spec.SrcOk (m ((c : Thread nD τ).loc main_arg1))) : W3 m ρ c (Proc.devRef .tc main_v4) = (Cert.Spec.agg gather_S100000x128_S1600000x1_S1600000x128_1_0_n_n_0_1_1128 scatter_S100000x128_S1600000x1_S1600000x128_1_0_0_1 (Cert.Spec.mm (m ((c : Thread nD τ).loc main_arg0)) (m ((c : Thread nD τ).loc main_arg3))) (giK (m ((c : Thread nD τ).loc main_arg1))) (siK (m ((c : Thread nD τ).loc main_arg2)))) := by
  have h := scat0 (W2 m ρ c)
  rw [rows0_at2 m ρ c hsrc, dst_at2 m ρ c] at h
  exact h
theorem bias0_at3 : W3 m ρ c (Proc.devRef .tc main_v5) = (Cert.Spec.asRow1 (m ((c : Thread nD τ).loc main_arg4))) := by
  have h := bias0 (W2 m ρ c)
  rw [b0_at2 m ρ c] at h
  exact h

/-- The tiles' sums and sums of squares. -/
theorem sum0_at4 (hsrc : Cert.Spec.SrcOk (m ((c : Thread nD τ).loc main_arg1))) : W4 m ρ c (Proc.devRef .tc main_v6_0) = Cert.Spec.tileSums (Cert.Spec.agg gather_S100000x128_S1600000x1_S1600000x128_1_0_n_n_0_1_1128 scatter_S100000x128_S1600000x1_S1600000x128_1_0_0_1 (Cert.Spec.mm (m ((c : Thread nD τ).loc main_arg0)) (m ((c : Thread nD τ).loc main_arg3))) (giK (m ((c : Thread nD τ).loc main_arg1))) (siK (m ((c : Thread nD τ).loc main_arg2)))) (Cert.Spec.asRow1 (m ((c : Thread nD τ).loc main_arg4))) := by
  have h : W4 m ρ c (Proc.devRef .tc main_v6_0) = Cert.Spec.tileSums (W3 m ρ c (Proc.devRef .tc main_v4)) (W3 m ρ c (Proc.devRef .tc main_v5)) :=
    (W4_arr m ρ c 2).trans (region1_sum (V3 m ρ) c)
  rw [agg0_at3 m ρ c hsrc, bias0_at3 m ρ c] at h
  exact h
theorem sumsq0_at4 (hsrc : Cert.Spec.SrcOk (m ((c : Thread nD τ).loc main_arg1))) : W4 m ρ c (Proc.devRef .tc main_v6_1) = Cert.Spec.tileSumSqs (Cert.Spec.agg gather_S100000x128_S1600000x1_S1600000x128_1_0_n_n_0_1_1128 scatter_S100000x128_S1600000x1_S1600000x128_1_0_0_1 (Cert.Spec.mm (m ((c : Thread nD τ).loc main_arg0)) (m ((c : Thread nD τ).loc main_arg3))) (giK (m ((c : Thread nD τ).loc main_arg1))) (siK (m ((c : Thread nD τ).loc main_arg2)))) (Cert.Spec.asRow1 (m ((c : Thread nD τ).loc main_arg4))) := by
  have h : W4 m ρ c (Proc.devRef .tc main_v6_1) = Cert.Spec.tileSumSqs (W3 m ρ c (Proc.devRef .tc main_v4)) (W3 m ρ c (Proc.devRef .tc main_v5)) :=
    (W4_arr m ρ c 3).trans (region1_sumsq (V3 m ρ) c)
  rw [agg0_at3 m ρ c hsrc, bias0_at3 m ρ c] at h
  exact h
theorem agg0_at5 (hsrc : Cert.Spec.SrcOk (m ((c : Thread nD τ).loc main_arg1))) : W5 m ρ c (Proc.devRef .tc main_v4) = (Cert.Spec.agg gather_S100000x128_S1600000x1_S1600000x128_1_0_n_n_0_1_1128 scatter_S100000x128_S1600000x1_S1600000x128_1_0_0_1 (Cert.Spec.mm (m ((c : Thread nD τ).loc main_arg0)) (m ((c : Thread nD τ).loc main_arg3))) (giK (m ((c : Thread nD τ).loc main_arg1))) (siK (m ((c : Thread nD τ).loc main_arg2)))) :=
  (show W5 m ρ c (Proc.devRef .tc main_v4) = W4 m ρ c (Proc.devRef .tc main_v4) by untouched_by hostOps2).trans (((W4_arr m ρ c 0).trans (((dat1 (V3 m ρ) c).arrAt_in 0 rfl _).trans (A_eq1 (V3 m ρ) c 0))).trans (agg0_at3 m ρ c hsrc))

/-- The column statistics and the scale, shift and bias rows, as the third launch finds them. -/
theorem s0_at5 (hsrc : Cert.Spec.SrcOk (m ((c : Thread nD τ).loc main_arg1))) : W5 m ρ c (Proc.devRef .tc main_v14) = Cert.Spec.rowOfTiles (Cert.Spec.tileSums (Cert.Spec.agg gather_S100000x128_S1600000x1_S1600000x128_1_0_n_n_0_1_1128 scatter_S100000x128_S1600000x1_S1600000x128_1_0_0_1 (Cert.Spec.mm (m ((c : Thread nD τ).loc main_arg0)) (m ((c : Thread nD τ).loc main_arg3))) (giK (m ((c : Thread nD τ).loc main_arg1))) (siK (m ((c : Thread nD τ).loc main_arg2)))) (Cert.Spec.asRow1 (m ((c : Thread nD τ).loc main_arg4)))) :=
  (stats0_sum (W4 m ρ c)).trans (congrArg Cert.Spec.rowOfTiles (sum0_at4 m ρ c hsrc))
theorem q0_at5 (hsrc : Cert.Spec.SrcOk (m ((c : Thread nD τ).loc main_arg1))) : W5 m ρ c (Proc.devRef .tc main_v16) = Cert.Spec.rowOfTiles (Cert.Spec.tileSumSqs (Cert.Spec.agg gather_S100000x128_S1600000x1_S1600000x128_1_0_n_n_0_1_1128 scatter_S100000x128_S1600000x1_S1600000x128_1_0_0_1 (Cert.Spec.mm (m ((c : Thread nD τ).loc main_arg0)) (m ((c : Thread nD τ).loc main_arg3))) (giK (m ((c : Thread nD τ).loc main_arg1))) (siK (m ((c : Thread nD τ).loc main_arg2)))) (Cert.Spec.asRow1 (m ((c : Thread nD τ).loc main_arg4)))) :=
  (stats0_sumsq (W4 m ρ c)).trans (congrArg Cert.Spec.rowOfTiles (sumsq0_at4 m ρ c hsrc))
theorem g0r_at5 : W5 m ρ c (Proc.devRef .tc main_v17) = (Cert.Spec.asRow1 (m ((c : Thread nD τ).loc main_arg9))) :=
  (stats0_g (W4 m ρ c)).trans (congrArg Cert.Spec.asRow1 (g0_at4 m ρ c))
theorem be0r_at5 : W5 m ρ c (Proc.devRef .tc main_v18) = (Cert.Spec.asRow1 (m ((c : Thread nD τ).loc main_arg10))) :=
  (stats0_be (W4 m ρ c)).trans (congrArg Cert.Spec.asRow1 (be0_at4 m ρ c))
theorem b0r_at5 : W5 m ρ c (Proc.devRef .tc main_v19) = (Cert.Spec.asRow1 (m ((c : Thread nD τ).loc main_arg4))) :=
  (stats0_b (W4 m ρ c)).trans (congrArg Cert.Spec.asRow1 (b0_at4 m ρ c))

/-- The first layer's output rows and their projection, after the third launch. -/
theorem x1_at6 (hsrc : Cert.Spec.SrcOk (m ((c : Thread nD τ).loc main_arg1))) : W6 m ρ c (Proc.devRef .tc main_v20_0) = (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) := by
  have h : W6 m ρ c (Proc.devRef .tc main_v20_0) = Cert.Spec.bnKer (W5 m ρ c (Proc.devRef .tc main_v4)) (W5 m ρ c (Proc.devRef .tc main_v14)) (W5 m ρ c (Proc.devRef .tc main_v16))
      (W5 m ρ c (Proc.devRef .tc main_v17)) (W5 m ρ c (Proc.devRef .tc main_v18)) (W5 m ρ c (Proc.devRef .tc main_v19)) (W5 m ρ c (Proc.devRef .tc main_arg0)) :=
    (W6_arr m ρ c 8).trans (region2_x (V5 m ρ) c)
  rw [agg0_at5 m ρ c hsrc, s0_at5 m ρ c hsrc, q0_at5 m ρ c hsrc, g0r_at5 m ρ c, be0r_at5 m ρ c, b0r_at5 m ρ c,
    x_at5 m ρ c, Cert.Spec.bnKer_eq_bn] at h
  exact h
theorem m1_at6 (hsrc : Cert.Spec.SrcOk (m ((c : Thread nD τ).loc main_arg1))) : W6 m ρ c (Proc.devRef .tc main_v20_1) = (Cert.Spec.mm (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5))) := by
  have h : W6 m ρ c (Proc.devRef .tc main_v20_1) = Cert.Spec.mm (Cert.Spec.bnKer (W5 m ρ c (Proc.devRef .tc main_v4)) (W5 m ρ c (Proc.devRef .tc main_v14)) (W5 m ρ c (Proc.devRef .tc main_v16))
      (W5 m ρ c (Proc.devRef .tc main_v17)) (W5 m ρ c (Proc.devRef .tc main_v18)) (W5 m ρ c (Proc.devRef .tc main_v19)) (W5 m ρ c (Proc.devRef .tc main_arg0))) (W5 m ρ c (Proc.devRef .tc main_arg5)) :=
    (W6_arr m ρ c 9).trans (region2_m (V5 m ρ) c)
  rw [agg0_at5 m ρ c hsrc, s0_at5 m ρ c hsrc, q0_at5 m ρ c hsrc, g0r_at5 m ρ c, be0r_at5 m ρ c, b0r_at5 m ρ c,
    x_at5 m ρ c, w1_at5 m ρ c, Cert.Spec.bnKer_eq_bn] at h
  exact h

/-! ## Layer 1 -/

theorem rows1_at7 (hsrc : Cert.Spec.SrcOk (m ((c : Thread nD τ).loc main_arg1))) : W7 m ρ c (Proc.devRef .tc main_v21) = Host.gather gather_S100000x128_S1600000x1_S1600000x128_1_0_n_n_0_1_1128 (Cert.Spec.mm (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5))) (giK (m ((c : Thread nD τ).loc main_arg1))) := by
  have h := take1 (W6 m ρ c) (by rw [src_at6 m ρ c]; exact hsrc)
  rw [m1_at6 m ρ c hsrc, src_at6 m ρ c] at h
  exact h
theorem agg1_at8 (hsrc : Cert.Spec.SrcOk (m ((c : Thread nD τ).loc main_arg1))) : W8 m ρ c (Proc.devRef .tc main_v24) = (Cert.Spec.agg gather_S100000x128_S1600000x1_S1600000x128_1_0_n_n_0_1_1128 scatter_S100000x128_S1600000x1_S1600000x128_1_0_0_1 (Cert.Spec.mm (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5))) (giK (m ((c : Thread nD τ).loc main_arg1))) (siK (m ((c : Thread nD τ).loc main_arg2)))) := by
  have h := scat1 (W7 m ρ c)
  rw [rows1_at7 m ρ c hsrc, dst_at7 m ρ c] at h
  exact h
theorem bias1_at8 : W8 m ρ c (Proc.devRef .tc main_v25) = (Cert.Spec.asRow1 (m ((c : Thread nD τ).loc main_arg6))) := by
  have h := bias1 (W7 m ρ c)
  rw [b1_at7 m ρ c] at h
  exact h
theorem sum1_at9 (hsrc : Cert.Spec.SrcOk (m ((c : Thread nD τ).loc main_arg1))) : W9 m ρ c (Proc.devRef .tc main_v26_0) = Cert.Spec.tileSums (Cert.Spec.agg gather_S100000x128_S1600000x1_S1600000x128_1_0_n_n_0_1_1128 scatter_S100000x128_S1600000x1_S1600000x128_1_0_0_1 (Cert.Spec.mm (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5))) (giK (m ((c : Thread nD τ).loc main_arg1))) (siK (m ((c : Thread nD τ).loc main_arg2)))) (Cert.Spec.asRow1 (m ((c : Thread nD τ).loc main_arg6))) := by
  have h : W9 m ρ c (Proc.devRef .tc main_v26_0) = Cert.Spec.tileSums (W8 m ρ c (Proc.devRef .tc main_v24)) (W8 m ρ c (Proc.devRef .tc main_v25)) :=
    (W9_arr m ρ c 2).trans (region3_sum (V8 m ρ) c)
  rw [agg1_at8 m ρ c hsrc, bias1_at8 m ρ c] at h
  exact h
theorem sumsq1_at9 (hsrc : Cert.Spec.SrcOk (m ((c : Thread nD τ).loc main_arg1))) : W9 m ρ c (Proc.devRef .tc main_v26_1) = Cert.Spec.tileSumSqs (Cert.Spec.agg gather_S100000x128_S1600000x1_S1600000x128_1_0_n_n_0_1_1128 scatter_S100000x128_S1600000x1_S1600000x128_1_0_0_1 (Cert.Spec.mm (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5))) (giK (m ((c : Thread nD τ).loc main_arg1))) (siK (m ((c : Thread nD τ).loc main_arg2)))) (Cert.Spec.asRow1 (m ((c : Thread nD τ).loc main_arg6))) := by
  have h : W9 m ρ c (Proc.devRef .tc main_v26_1) = Cert.Spec.tileSumSqs (W8 m ρ c (Proc.devRef .tc main_v24)) (W8 m ρ c (Proc.devRef .tc main_v25)) :=
    (W9_arr m ρ c 3).trans (region3_sumsq (V8 m ρ) c)
  rw [agg1_at8 m ρ c hsrc, bias1_at8 m ρ c] at h
  exact h
theorem agg1_at10 (hsrc : Cert.Spec.SrcOk (m ((c : Thread nD τ).loc main_arg1))) : W10 m ρ c (Proc.devRef .tc main_v24) = (Cert.Spec.agg gather_S100000x128_S1600000x1_S1600000x128_1_0_n_n_0_1_1128 scatter_S100000x128_S1600000x1_S1600000x128_1_0_0_1 (Cert.Spec.mm (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5))) (giK (m ((c : Thread nD τ).loc main_arg1))) (siK (m ((c : Thread nD τ).loc main_arg2)))) :=
  (show W10 m ρ c (Proc.devRef .tc main_v24) = W9 m ρ c (Proc.devRef .tc main_v24) by untouched_by hostOps4).trans (((W9_arr m ρ c 0).trans (((dat3 (V8 m ρ) c).arrAt_in 0 rfl _).trans (A_eq3 (V8 m ρ) c 0))).trans (agg1_at8 m ρ c hsrc))
theorem x1_at10 (hsrc : Cert.Spec.SrcOk (m ((c : Thread nD τ).loc main_arg1))) : W10 m ρ c (Proc.devRef .tc main_v20_0) = (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) :=
  (show W10 m ρ c (Proc.devRef .tc main_v20_0) = W9 m ρ c (Proc.devRef .tc main_v20_0) by untouched_by hostOps4).trans ((W9_of_ne m ρ c main_v20_0 (by decide)).trans ((show W8 m ρ c (Proc.devRef .tc main_v20_0) = W7 m ρ c (Proc.devRef .tc main_v20_0) by untouched_by hostOps3_1).trans ((show W7 m ρ c (Proc.devRef .tc main_v20_0) = W6 m ρ c (Proc.devRef .tc main_v20_0) by untouched_by hostOps3).trans (x1_at6 m ρ c hsrc))))

theorem s1_at10 (hsrc : Cert.Spec.SrcOk (m ((c : Thread nD τ).loc main_arg1))) : W10 m ρ c (Proc.devRef .tc main_v34) = Cert.Spec.rowOfTiles (Cert.Spec.tileSums (Cert.Spec.agg gather_S100000x128_S1600000x1_S1600000x128_1_0_n_n_0_1_1128 scatter_S100000x128_S1600000x1_S1600000x128_1_0_0_1 (Cert.Spec.mm (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5))) (giK (m ((c : Thread nD τ).loc main_arg1))) (siK (m ((c : Thread nD τ).loc main_arg2)))) (Cert.Spec.asRow1 (m ((c : Thread nD τ).loc main_arg6)))) :=
  (stats1_sum (W9 m ρ c)).trans (congrArg Cert.Spec.rowOfTiles (sum1_at9 m ρ c hsrc))
theorem q1_at10 (hsrc : Cert.Spec.SrcOk (m ((c : Thread nD τ).loc main_arg1))) : W10 m ρ c (Proc.devRef .tc main_v36) = Cert.Spec.rowOfTiles (Cert.Spec.tileSumSqs (Cert.Spec.agg gather_S100000x128_S1600000x1_S1600000x128_1_0_n_n_0_1_1128 scatter_S100000x128_S1600000x1_S1600000x128_1_0_0_1 (Cert.Spec.mm (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5))) (giK (m ((c : Thread nD τ).loc main_arg1))) (siK (m ((c : Thread nD τ).loc main_arg2)))) (Cert.Spec.asRow1 (m ((c : Thread nD τ).loc main_arg6)))) :=
  (stats1_sumsq (W9 m ρ c)).trans (congrArg Cert.Spec.rowOfTiles (sumsq1_at9 m ρ c hsrc))
theorem g1r_at10 : W10 m ρ c (Proc.devRef .tc main_v37) = (Cert.Spec.asRow1 (m ((c : Thread nD τ).loc main_arg11))) :=
  (stats1_g (W9 m ρ c)).trans (congrArg Cert.Spec.asRow1 (g1_at9 m ρ c))
theorem be1r_at10 : W10 m ρ c (Proc.devRef .tc main_v38) = (Cert.Spec.asRow1 (m ((c : Thread nD τ).loc main_arg12))) :=
  (stats1_be (W9 m ρ c)).trans (congrArg Cert.Spec.asRow1 (be1_at9 m ρ c))
theorem b1r_at10 : W10 m ρ c (Proc.devRef .tc main_v39) = (Cert.Spec.asRow1 (m ((c : Thread nD τ).loc main_arg6))) :=
  (stats1_b (W9 m ρ c)).trans (congrArg Cert.Spec.asRow1 (b1_at9 m ρ c))

theorem m2_at11 (hsrc : Cert.Spec.SrcOk (m ((c : Thread nD τ).loc main_arg1))) : W11 m ρ c (Proc.devRef .tc main_v40_1) = (Cert.Spec.mm (Cert.Spec.layer Cert.Spec.varK gather_S100000x128_S1600000x1_S1600000x128_1_0_n_n_0_1_1128 scatter_S100000x128_S1600000x1_S1600000x128_1_0_0_1 (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5)) (m ((c : Thread nD τ).loc main_arg6)) (m ((c : Thread nD τ).loc main_arg11)) (m ((c : Thread nD τ).loc main_arg12)) (giK (m ((c : Thread nD τ).loc main_arg1))) (siK (m ((c : Thread nD τ).loc main_arg2)))) (m ((c : Thread nD τ).loc main_arg7))) := by
  have h : W11 m ρ c (Proc.devRef .tc main_v40_1) = Cert.Spec.mm (Cert.Spec.bnKer (W10 m ρ c (Proc.devRef .tc main_v24)) (W10 m ρ c (Proc.devRef .tc main_v34)) (W10 m ρ c (Proc.devRef .tc main_v36))
      (W10 m ρ c (Proc.devRef .tc main_v37)) (W10 m ρ c (Proc.devRef .tc main_v38)) (W10 m ρ c (Proc.devRef .tc main_v39)) (W10 m ρ c (Proc.devRef .tc main_v20_0))) (W10 m ρ c (Proc.devRef .tc main_arg7)) :=
    (W11_arr m ρ c 9).trans (region4_m (V10 m ρ) c)
  rw [agg1_at10 m ρ c hsrc, s1_at10 m ρ c hsrc, q1_at10 m ρ c hsrc, g1r_at10 m ρ c, be1r_at10 m ρ c, b1r_at10 m ρ c,
    x1_at10 m ρ c hsrc, w2_at10 m ρ c, Cert.Spec.bnKer_eq_bn] at h
  exact h

/-! ## The final aggregation -/

theorem rows2_at12 (hsrc : Cert.Spec.SrcOk (m ((c : Thread nD τ).loc main_arg1))) : W12 m ρ c (Proc.devRef .tc main_v41) = Host.gather gather_S100000x64_S1600000x1_S1600000x64_1_0_n_n_0_1_164 (Cert.Spec.mm (Cert.Spec.layer Cert.Spec.varK gather_S100000x128_S1600000x1_S1600000x128_1_0_n_n_0_1_1128 scatter_S100000x128_S1600000x1_S1600000x128_1_0_0_1 (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5)) (m ((c : Thread nD τ).loc main_arg6)) (m ((c : Thread nD τ).loc main_arg11)) (m ((c : Thread nD τ).loc main_arg12)) (giK (m ((c : Thread nD τ).loc main_arg1))) (siK (m ((c : Thread nD τ).loc main_arg2)))) (m ((c : Thread nD τ).loc main_arg7))) (giK (m ((c : Thread nD τ).loc main_arg1))) := by
  have h := take2 (W11 m ρ c) (by rw [src_at11 m ρ c]; exact hsrc)
  rw [m2_at11 m ρ c hsrc, src_at11 m ρ c] at h
  exact h
theorem agg2_at13 (hsrc : Cert.Spec.SrcOk (m ((c : Thread nD τ).loc main_arg1))) : W13 m ρ c (Proc.devRef .tc main_v44) = (Cert.Spec.agg gather_S100000x64_S1600000x1_S1600000x64_1_0_n_n_0_1_164 scatter_S100000x64_S1600000x1_S1600000x64_1_0_0_1 (Cert.Spec.mm (Cert.Spec.layer Cert.Spec.varK gather_S100000x128_S1600000x1_S1600000x128_1_0_n_n_0_1_1128 scatter_S100000x128_S1600000x1_S1600000x128_1_0_0_1 (Cert.Spec.layer Cert.Spec.varK gather_S100000x128_S1600000x1_S1600000x128_1_0_n_n_0_1_1128 scatter_S100000x128_S1600000x1_S1600000x128_1_0_0_1 (m ((c : Thread nD τ).loc main_arg0)) (m ((c : Thread nD τ).loc main_arg3)) (m ((c : Thread nD τ).loc main_arg4)) (m ((c : Thread nD τ).loc main_arg9)) (m ((c : Thread nD τ).loc main_arg10)) (giK (m ((c : Thread nD τ).loc main_arg1))) (siK (m ((c : Thread nD τ).loc main_arg2)))) (m ((c : Thread nD τ).loc main_arg5)) (m ((c : Thread nD τ).loc main_arg6)) (m ((c : Thread nD τ).loc main_arg11)) (m ((c : Thread nD τ).loc main_arg12)) (giK (m ((c : Thread nD τ).loc main_arg1))) (siK (m ((c : Thread nD τ).loc main_arg2)))) (m ((c : Thread nD τ).loc main_arg7))) (giK (m ((c : Thread nD τ).loc main_arg1))) (siK (m ((c : Thread nD τ).loc main_arg2)))) := by
  have h := scat2 (W12 m ρ c)
  rw [rows2_at12 m ρ c hsrc, dst_at12 m ρ c] at h
  exact h
theorem bias2_at13 : W13 m ρ c (Proc.devRef .tc main_v45) = (Cert.Spec.asRow1 (m ((c : Thread nD τ).loc main_arg8))) := by
  have h := bias2 (W12 m ρ c)
  rw [b2_at12 m ρ c] at h
  exact h

/-- A vector laid as one row and added to every row is the vector added to every row. -/
theorem addRow1_asRow1 {n k : Nat} (a : Cert.Spec.Arr n k) (b : Cert.Spec.Row k) :
    Cert.Spec.addRow1 a (Cert.Spec.asRow1 b) = Cert.Spec.addRow a b := rfl

/-- THE RESULT: with every source index in range, the result buffer at the return holds the network at the first
    form of the variance, of the arguments as launched. -/
theorem out_at14 (hsrc : Cert.Spec.SrcOk (m ((c : Thread nD τ).loc main_arg1))) : W14 m ρ c (Proc.devRef .tc main_v46)
    = Cert.Spec.net Cert.Spec.varK gather_S100000x128_S1600000x1_S1600000x128_1_0_n_n_0_1_1128 scatter_S100000x128_S1600000x1_S1600000x128_1_0_0_1 gather_S100000x64_S1600000x1_S1600000x64_1_0_n_n_0_1_164 scatter_S100000x64_S1600000x1_S1600000x64_1_0_0_1
        (m ((c : Thread nD τ).loc main_arg0)) (giK (m ((c : Thread nD τ).loc main_arg1))) (siK (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) := by
  have h : W14 m ρ c (Proc.devRef .tc main_v46) = Cert.Spec.addRow1 (W13 m ρ c (Proc.devRef .tc main_v44)) (W13 m ρ c (Proc.devRef .tc main_v45)) :=
    (W14_arr m ρ c 2).trans (region5_out (V13 m ρ) c)
  rw [agg2_at13 m ρ c hsrc, bias2_at13 m ρ c, addRow1_asRow1] at h
  exact h

end Cert.KernelIdeal.Val

end
-- ==== Proof.RefIdx.lean ====
/-
  The two index columns the reference's aggregation uses, as functions of the edge lists.
-/
import proofs.«406583_j75179107549523_3_alg».proof.ReferenceIdeal
import proofs.«406583_j75179107549523_3_alg».proof.Proof.Gen.ReferenceIdeal

noncomputable section

namespace Cert.ReferenceIdeal.RefValue

open Cert.ReferenceIdeal Cert.ReferenceIdeal.Gen Idealize.ShloMosaic

/-- The start indices of the row lookup: a negative source index counts from the end, and the indices stand as a column. -/
def giR (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The scatter indices of the segment sum: the destination indices as a column. -/
def siR (dst : IVec S1600000 32) : IVec S1600000x1 32 :=
  broadcastInDim S1600000x1 ![0] bcast_S1600000_S1600000x1_0 dst

end Cert.ReferenceIdeal.RefValue

end
-- ==== Proof.RefRun.lean ====
/-
  The reference program as one straight line of operations, and its run.

  The program's @main is two windows of statements with four calls of outlined functions (the column variance,
  twice, each calling the three-operation choice function; the clip at zero, twice). Laid out in place — every
  call replaced by the callee's operations over that call's own buffers — it is a list of 147 operations, cut here
  into six consecutive pieces: each layer's aggregate, then its normalisation (the second layer's in two, at the
  end of @main's first window), then the last layer. The program equals the sequence of that list, no buffer or
  semaphore is scoped, every operation touches only TensorCore buffers and allocates nothing; so every execution
  ends with each buffer at the fold of the operations over the launch contents.
-/
import proofs.«406583_j75179107549523_3_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first layer's aggregate, 17 operations: the projection of the node features, the two index columns (a negative source index counted from the end), the row lookup, the segment sum into zeros, the bias row added. -/
abbrev opsA1 : List (HloOp τ sig (Elt F)) :=
  [ binary main_arg0 main_arg3 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v8 (broadcastInDim S100000x128 ![] bcast_S_S100000x128 : (⟨S_, .f32⟩ : BufTy).Contents (Elt F) → (⟨S100000x128, .f32⟩ : BufTy).Contents (Elt F)),
    unary main_arg2 main_v9 (broadcastInDim S1600000x1 ![0] bcast_S1600000_S1600000x1_0 : (⟨S1600000, .i32⟩ : BufTy).Contents (Elt F) → (⟨S1600000x1, .i32⟩ : BufTy).Contents (Elt F)),
    ternary main_v8 main_v9 main_v7 main_v10 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg4 main_v11 (broadcastInDim S1x128 ![1] bcast_S128_S1x128_1 : (⟨S128, .f32⟩ : BufTy).Contents (Elt F) → (⟨S1x128, .f32⟩ : BufTy).Contents (Elt F)),
    unary main_v11 main_v12 (broadcastInDim S100000x128 ![0, 1] bcast_S1x128_S100000x128_0_1 : (⟨S1x128, .f32⟩ : BufTy).Contents (Elt F) → (⟨S100000x128, .f32⟩ : BufTy).Contents (Elt F)),
    binary main_v10 main_v12 main_v13 (addf : (⟨S100000x128, .f32⟩ : BufTy).Contents (Elt F) → (⟨S100000x128, .f32⟩ : BufTy).Contents (Elt F) → (⟨S100000x128, .f32⟩ : BufTy).Contents (Elt F)) ]

/-- The first layer's normalisation, 48 operations: the column means, the variance function laid out in place (its own mean, the squared deviations, their sum over the row count less the converted integer zero, the choice against a non-positive divisor laid out in place), then centre, reciprocal square root, scale, shift, residual, and the clip at zero laid out in place. -/
abbrev opsA2 : List (HloOp τ sig (Elt F)) :=
  [ nullary main_cst_1 (constant S_ .f32 0x00000000#32),
    binary main_v13 main_cst_1 main_v14 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v15 (broadcastInDim S128 ![] bcast_S_S128 : (⟨S_, .f32⟩ : BufTy).Contents (Elt F) → (⟨S128, .f32⟩ : BufTy).Contents (Elt F)),
    binary main_v14 main_v15 main_v16 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call0.cst (constant S_ .f32 0x00000000#32),
    TRef.binary (.of main_v13 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v13 : TRef sig ⟨S100000x128, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v16 main_v18 (broadcastInDim S1x128 ![1] bcast_S128_S1x128_1 : (⟨S128, .f32⟩ : BufTy).Contents (Elt F) → (⟨S1x128, .f32⟩ : BufTy).Contents (Elt F)),
    unary main_v18 main_v19 (broadcastInDim S100000x128 ![0, 1] bcast_S1x128_S100000x128_0_1 : (⟨S1x128, .f32⟩ : BufTy).Contents (Elt F) → (⟨S100000x128, .f32⟩ : BufTy).Contents (Elt F)),
    binary main_v13 main_v19 main_v20 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v21 (broadcastInDim S128 ![] bcast_S_S128 : (⟨S_, .f32⟩ : BufTy).Contents (Elt F) → (⟨S128, .f32⟩ : BufTy).Contents (Elt F)),
    binary main_v17 main_v21 main_v22 (addf : (⟨S128, .f32⟩ : BufTy).Contents (Elt F) → (⟨S128, .f32⟩ : BufTy).Contents (Elt F) → (⟨S128, .f32⟩ : BufTy).Contents (Elt F)),
    unary main_v22 main_v23 (Host.rsqrt : (⟨S128, .f32⟩ : BufTy).Contents (Elt F) → (⟨S128, .f32⟩ : BufTy).Contents (Elt F)),
    unary main_v23 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v20 main_v25 main_v26 (mulf : (⟨S100000x128, .f32⟩ : BufTy).Contents (Elt F) → (⟨S100000x128, .f32⟩ : BufTy).Contents (Elt F) → (⟨S100000x128, .f32⟩ : BufTy).Contents (Elt F)),
    unary main_arg9 main_v27 (broadcastInDim S1x128 ![1] bcast_S128_S1x128_1 : (⟨S128, .f32⟩ : BufTy).Contents (Elt F) → (⟨S1x128, .f32⟩ : BufTy).Contents (Elt F)),
    unary main_v27 main_v28 (broadcastInDim S100000x128 ![0, 1] bcast_S1x128_S100000x128_0_1 : (⟨S1x128, .f32⟩ : BufTy).Contents (Elt F) → (⟨S100000x128, .f32⟩ : BufTy).Contents (Elt F)),
    binary main_v26 main_v28 main_v29 (mulf : (⟨S100000x128, .f32⟩ : BufTy).Contents (Elt F) → (⟨S100000x128, .f32⟩ : BufTy).Contents (Elt F) → (⟨S100000x128, .f32⟩ : BufTy).Contents (Elt F)),
    unary main_arg10 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    binary main_v32 main_arg0 main_v33 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v33 : TRef sig ⟨S100000x128, .f32⟩) main_call1.v0 main_call1.v1 maximumf ]

/-- The second layer's aggregate, 17 operations, as the first's over the first layer's output. -/
abbrev opsB1 : List (HloOp τ sig (Elt F)) :=
  [ binary main_v34 main_arg5 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_5 (constantI S_ 32 0#32),
    unary main_c_5 main_v36 (broadcastInDim S1600000 ![] bcast_S_S1600000 : (⟨S_, .i32⟩ : BufTy).Contents (Elt F) → (⟨S1600000, .i32⟩ : BufTy).Contents (Elt F)),
    binary main_arg1 main_v36 main_v37 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v38 (broadcastInDim S1600000 ![] bcast_S_S1600000 : (⟨S_, .i32⟩ : BufTy).Contents (Elt F) → (⟨S1600000, .i32⟩ : BufTy).Contents (Elt F)),
    binary main_arg1 main_v38 main_v39 (addi : (⟨S1600000, .i32⟩ : BufTy).Contents (Elt F) → (⟨S1600000, .i32⟩ : BufTy).Contents (Elt F) → (⟨S1600000, .i32⟩ : BufTy).Contents (Elt F)),
    ternary main_v37 main_v39 main_arg1 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v40 main_v41 (broadcastInDim S1600000x1 ![0] bcast_S1600000_S1600000x1_0 : (⟨S1600000, .i32⟩ : BufTy).Contents (Elt F) → (⟨S1600000x1, .i32⟩ : BufTy).Contents (Elt F)),
    binary main_v35 main_v41 main_v42 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v43 (broadcastInDim S100000x128 ![] bcast_S_S100000x128 : (⟨S_, .f32⟩ : BufTy).Contents (Elt F) → (⟨S100000x128, .f32⟩ : BufTy).Contents (Elt F)),
    unary main_arg2 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg6 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The zero the second layer's column sums start from: the last operation of @main's first window. -/
abbrev opsB2 : List (HloOp τ sig (Elt F)) :=
  [ nullary main_cst_8 (constant S_ .f32 0x00000000#32) ]

/-- The rest of the second layer's normalisation, 47 operations, as the first's after its zero. -/
abbrev opsB3 : List (HloOp τ sig (Elt F)) :=
  [ binary main_v48 main_cst_8 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call2.cst (constant S_ .f32 0x00000000#32),
    TRef.binary (.of main_v48 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v48 : TRef sig ⟨S100000x128, .f32⟩) main_call2.v4 main_call2.v5 subf,
    TRef.binary main_call2.v5 main_call2.v5 main_call2.v6 mulf,
    TRef.unary (.of main_c_10 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v51 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v48 main_v54 main_v55 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v56 (broadcastInDim S128 ![] bcast_S_S128 : (⟨S_, .f32⟩ : BufTy).Contents (Elt F) → (⟨S128, .f32⟩ : BufTy).Contents (Elt F)),
    binary main_v52 main_v56 main_v57 (addf : (⟨S128, .f32⟩ : BufTy).Contents (Elt F) → (⟨S128, .f32⟩ : BufTy).Contents (Elt F) → (⟨S128, .f32⟩ : BufTy).Contents (Elt F)),
    unary main_v57 main_v58 (Host.rsqrt : (⟨S128, .f32⟩ : BufTy).Contents (Elt F) → (⟨S128, .f32⟩ : BufTy).Contents (Elt F)),
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v55 main_v60 main_v61 (mulf : (⟨S100000x128, .f32⟩ : BufTy).Contents (Elt F) → (⟨S100000x128, .f32⟩ : BufTy).Contents (Elt F) → (⟨S100000x128, .f32⟩ : BufTy).Contents (Elt F)),
    unary main_arg11 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (mulf : (⟨S100000x128, .f32⟩ : BufTy).Contents (Elt F) → (⟨S100000x128, .f32⟩ : BufTy).Contents (Elt F) → (⟨S100000x128, .f32⟩ : BufTy).Contents (Elt F)),
    unary main_arg12 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v64 main_v66 main_v67 (addf : (⟨S100000x128, .f32⟩ : BufTy).Contents (Elt F) → (⟨S100000x128, .f32⟩ : BufTy).Contents (Elt F) → (⟨S100000x128, .f32⟩ : BufTy).Contents (Elt F)),
    binary main_v67 main_v34 main_v68 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v68 : TRef sig ⟨S100000x128, .f32⟩) main_call3.v0 main_call3.v1 maximumf ]

/-- The last layer, 17 operations: the projection to 64 columns, the index columns, row lookup, segment sum, bias row. -/
abbrev opsC : List (HloOp τ sig (Elt F)) :=
  [ binary main_v69 main_arg7 main_v70 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v71 (broadcastInDim S1600000 ![] bcast_S_S1600000 : (⟨S_, .i32⟩ : BufTy).Contents (Elt F) → (⟨S1600000, .i32⟩ : BufTy).Contents (Elt F)),
    binary main_arg1 main_v71 main_v72 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v73 (broadcastInDim S1600000 ![] bcast_S_S1600000 : (⟨S_, .i32⟩ : BufTy).Contents (Elt F) → (⟨S1600000, .i32⟩ : BufTy).Contents (Elt F)),
    binary main_arg1 main_v73 main_v74 (addi : (⟨S1600000, .i32⟩ : BufTy).Contents (Elt F) → (⟨S1600000, .i32⟩ : BufTy).Contents (Elt F) → (⟨S1600000, .i32⟩ : BufTy).Contents (Elt F)),
    ternary main_v72 main_v74 main_arg1 main_v75 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v75 main_v76 (broadcastInDim S1600000x1 ![0] bcast_S1600000_S1600000x1_0 : (⟨S1600000, .i32⟩ : BufTy).Contents (Elt F) → (⟨S1600000x1, .i32⟩ : BufTy).Contents (Elt F)),
    binary main_v70 main_v76 main_v77 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_14 (constant S_ .f32 0x00000000#32),
    unary main_cst_14 main_v78 (broadcastInDim S100000x64 ![] bcast_S_S100000x64 : (⟨S_, .f32⟩ : BufTy).Contents (Elt F) → (⟨S100000x64, .f32⟩ : BufTy).Contents (Elt F)),
    unary main_arg2 main_v79 (broadcastInDim S1600000x1 ![0] bcast_S1600000_S1600000x1_0 : (⟨S1600000, .i32⟩ : BufTy).Contents (Elt F) → (⟨S1600000x1, .i32⟩ : BufTy).Contents (Elt F)),
    ternary main_v78 main_v79 main_v77 main_v80 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg8 main_v81 (broadcastInDim S1x64 ![1] bcast_S64_S1x64_1 : (⟨S64, .f32⟩ : BufTy).Contents (Elt F) → (⟨S1x64, .f32⟩ : BufTy).Contents (Elt F)),
    unary main_v81 main_v82 (broadcastInDim S100000x64 ![0, 1] bcast_S1x64_S100000x64_0_1 : (⟨S1x64, .f32⟩ : BufTy).Contents (Elt F) → (⟨S100000x64, .f32⟩ : BufTy).Contents (Elt F)),
    binary main_v80 main_v82 main_v83 (addf : (⟨S100000x64, .f32⟩ : BufTy).Contents (Elt F) → (⟨S100000x64, .f32⟩ : BufTy).Contents (Elt F) → (⟨S100000x64, .f32⟩ : BufTy).Contents (Elt F)) ]

/-- Every operation of @main in order, each call's operations in its place. -/
abbrev ops : List (HloOp τ sig (Elt F)) := opsA1 ++ (opsA2 ++ (opsB1 ++ (opsB2 ++ (opsB3 ++ opsC))))

set_option maxRecDepth 8192 in
set_option maxHeartbeats 4000000 in
/-- The first window of @main is the first four pieces run one after the other: the functions' definitions
    unfolded at their calls, both sides are the same chain of steps. -/
theorem part0_eq (c : Dev nD) : main_part0 (F := F) c = seq (opsA1 ++ (opsA2 ++ (opsB1 ++ opsB2))) := rfl

set_option maxRecDepth 8192 in
set_option maxHeartbeats 4000000 in
/-- The second window of @main is the last two pieces run one after the other. -/
theorem part1_eq (c : Dev nD) : main_part1 (F := F) c = seq (opsB3 ++ opsC) := rfl

/-- @main is the whole list run in order. -/
theorem main_eq (c : Dev nD) : main (F := F) c = StableHlo.seq ops := by
  have h : (ops : List (HloOp τ sig (Elt F))) = (opsA1 ++ (opsA2 ++ (opsB1 ++ opsB2))) ++ (opsB3 ++ opsC) := by
    simp only [ops, List.append_assoc]
  rw [h, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA1_sub : (opsA1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub ..⟩

theorem opsA2_sub : (opsA2 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..⟩

theorem opsB1_sub : (opsB1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub ..⟩

theorem opsB2_sub : (opsB2 : List (HloOp τ sig (Elt F))).Forall fun op => op.bufs ⊆ tcRefs τ sig :=
  nullary_bufs_sub ..

theorem opsB3_sub : (opsB3 : List (HloOp τ sig (Elt F))).Forall fun op => op.bufs ⊆ tcRefs τ sig :=
  ⟨binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub ..⟩

theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub ..⟩

/-- Every operation reads and writes TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp opsA1_sub op h,
      List.forall_iff_forall_mem.mp opsA2_sub op h,
      List.forall_iff_forall_mem.mp opsB1_sub op h,
      List.forall_iff_forall_mem.mp opsB2_sub op h,
      List.forall_iff_forall_mem.mp opsB3_sub op h,
      List.forall_iff_forall_mem.mp opsC_sub op h]

theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl⟩

theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl⟩

theorem opsB2_fresh : (opsB2 : List (HloOp τ sig (Elt F))).Forall fun op => op.fresh = ∅ :=
  rfl

theorem opsB3_fresh : (opsB3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl⟩

/-- No operation allocates a buffer: each determines its results. -/
theorem ops_fresh : ∀ op ∈ (ops : List (HloOp τ sig (Elt F))), op.fresh = ∅ := fun op h => by
  simp only [ops, List.mem_append] at h
  rcases h with h | h | h | h | h | h
  exacts [List.forall_iff_forall_mem.mp opsA1_fresh op h,
    List.forall_iff_forall_mem.mp opsA2_fresh op h,
    List.forall_iff_forall_mem.mp opsB1_fresh op h,
    List.forall_iff_forall_mem.mp opsB2_fresh op h,
    List.forall_iff_forall_mem.mp opsB3_fresh op h,
    List.forall_iff_forall_mem.mp opsC_fresh op h]

/-- On every device, for any float values, from any memory with zero counters: every weakly fair execution of
    @main terminates with each TensorCore buffer at the fold of the operations over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (ops (F := F)) (StableHlo.launchContents m d) (Proc.devRef .tc b) :=
  StableHlo.run_seq scopedRefs_eq scopedSems_eq defs main (fun _ => ops) main_eq (fun _ => ops_sub) m ρ
    (fun _ => ops_fresh)

end Cert.ReferenceIdeal.RefValue

end
-- ==== Proof.RefStages.lean ====
/-
  The reference program's operations, stage by stage, as the functions of Spec.lean at the ideal instance:
  the two matrix products, the two edge aggregations, the two bias additions, and one normalising layer
  (column mean, column variance as mean of squared deviations, scale, shift, residual, clip at zero).
-/
import proofs.«406583_j75179107549523_3_alg».proof.Proof.Gen.ReferenceIdeal
import proofs.«406583_j75179107549523_3_alg».proof.Proof.Spec
import proofs.«406583_j75179107549523_3_alg».proof.Proof.RefIdx
import proofs.«406583_j75179107549523_3_alg».proof.Proof.Reals
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx

open Idealize.ShloMosaic.StableHlo.Predicate (bcast_scalar bcast_cols bcast_of_row bcast_row1 ij ij_eta i1q)

/-! ## The two matrix products

One contracted axis: the product's contraction index is one number below 128, the left operand is read at
(row of the result, that number) and the right operand at (that number, column of the result). -/

theorem dot128_lhs_0 (j : S100000x128.Idx) (k : dot_S100000x128_S128x128_S100000x128_1_0_0_1_n_n.contr.Idx) :
    (dot_S100000x128_S128x128_S100000x128_1_0_0_1_n_n.lhsIdx j k 0).val = (j 0).val := rfl
theorem dot128_lhs_1 (j : S100000x128.Idx) (k : dot_S100000x128_S128x128_S100000x128_1_0_0_1_n_n.contr.Idx) :
    (dot_S100000x128_S128x128_S100000x128_1_0_0_1_n_n.lhsIdx j k 1).val = (k ⟨0, by decide⟩).val :=
  dot_S100000x128_S128x128_S100000x128_1_0_0_1_n_n.lhsIdx_val_of_single rfl j k
theorem dot128_rhs_0 (j : S100000x128.Idx) (k : dot_S100000x128_S128x128_S100000x128_1_0_0_1_n_n.contr.Idx) :
    (dot_S100000x128_S128x128_S100000x128_1_0_0_1_n_n.rhsIdx j k 0).val = (k ⟨0, by decide⟩).val :=
  dot_S100000x128_S128x128_S100000x128_1_0_0_1_n_n.rhsIdx_val_of_single rfl j k
theorem dot128_rhs_1 (j : S100000x128.Idx) (k : dot_S100000x128_S128x128_S100000x128_1_0_0_1_n_n.contr.Idx) :
    (dot_S100000x128_S128x128_S100000x128_1_0_0_1_n_n.rhsIdx j k 1).val = (j 1).val := rfl

theorem dot128_eq (x : FVec Ideal S100000x128 .f32) (w : FVec Ideal S128x128 .f32) :
    Host.dotGeneral dot_S100000x128_S128x128_S100000x128_1_0_0_1_n_n none x w = Cert.Spec.mm x w := by
  funext i
  show FloatOps.dotGeneral dot_S100000x128_S128x128_S100000x128_1_0_0_1_n_n none .single x w i = _
  rw [Ideal.dotGeneral_apply]
  unfold Cert.Spec.mm
  -- the contraction index is one number below 128: sum over that number instead
  rw [← Equiv.sum_comp (contrEquiv1 dot_S100000x128_S128x128_S100000x128_1_0_0_1_n_n 128 rfl rfl).symm]
  refine Finset.sum_congr rfl fun q _ => ?_
  have hq := contrEquiv1_symm_val dot_S100000x128_S128x128_S100000x128_1_0_0_1_n_n 128 rfl rfl q
  congr 1
  · refine congrArg x (funext fun a => Fin.ext ?_)
    match a with
    | ⟨0, _⟩ => exact dot128_lhs_0 _ _
    | ⟨1, _⟩ => exact (dot128_lhs_1 _ _).trans hq
  · refine congrArg w (funext fun a => Fin.ext ?_)
    match a with
    | ⟨0, _⟩ => exact (dot128_rhs_0 _ _).trans hq
    | ⟨1, _⟩ => exact dot128_rhs_1 _ _

theorem dot64_lhs_0 (j : S100000x64.Idx) (k : dot_S100000x128_S128x64_S100000x64_1_0_0_1_n_n.contr.Idx) :
    (dot_S100000x128_S128x64_S100000x64_1_0_0_1_n_n.lhsIdx j k 0).val = (j 0).val := rfl
theorem dot64_lhs_1 (j : S100000x64.Idx) (k : dot_S100000x128_S128x64_S100000x64_1_0_0_1_n_n.contr.Idx) :
    (dot_S100000x128_S128x64_S100000x64_1_0_0_1_n_n.lhsIdx j k 1).val = (k ⟨0, by decide⟩).val :=
  dot_S100000x128_S128x64_S100000x64_1_0_0_1_n_n.lhsIdx_val_of_single rfl j k
theorem dot64_rhs_0 (j : S100000x64.Idx) (k : dot_S100000x128_S128x64_S100000x64_1_0_0_1_n_n.contr.Idx) :
    (dot_S100000x128_S128x64_S100000x64_1_0_0_1_n_n.rhsIdx j k 0).val = (k ⟨0, by decide⟩).val :=
  dot_S100000x128_S128x64_S100000x64_1_0_0_1_n_n.rhsIdx_val_of_single rfl j k
theorem dot64_rhs_1 (j : S100000x64.Idx) (k : dot_S100000x128_S128x64_S100000x64_1_0_0_1_n_n.contr.Idx) :
    (dot_S100000x128_S128x64_S100000x64_1_0_0_1_n_n.rhsIdx j k 1).val = (j 1).val := rfl

theorem dot64_eq (x : FVec Ideal S100000x128 .f32) (w : FVec Ideal S128x64 .f32) :
    Host.dotGeneral dot_S100000x128_S128x64_S100000x64_1_0_0_1_n_n none x w = Cert.Spec.mm x w := by
  funext i
  show FloatOps.dotGeneral dot_S100000x128_S128x64_S100000x64_1_0_0_1_n_n none .single x w i = _
  rw [Ideal.dotGeneral_apply]
  unfold Cert.Spec.mm
  -- the contraction index is one number below 128: sum over that number instead
  rw [← Equiv.sum_comp (contrEquiv1 dot_S100000x128_S128x64_S100000x64_1_0_0_1_n_n 128 rfl rfl).symm]
  refine Finset.sum_congr rfl fun q _ => ?_
  have hq := contrEquiv1_symm_val dot_S100000x128_S128x64_S100000x64_1_0_0_1_n_n 128 rfl rfl q
  congr 1
  · refine congrArg x (funext fun a => Fin.ext ?_)
    match a with
    | ⟨0, _⟩ => exact dot64_lhs_0 _ _
    | ⟨1, _⟩ => exact (dot64_lhs_1 _ _).trans hq
  · refine congrArg w (funext fun a => Fin.ext ?_)
    match a with
    | ⟨0, _⟩ => exact (dot64_rhs_0 _ _).trans hq
    | ⟨1, _⟩ => exact dot64_rhs_1 _ _

/-! ## The two edge aggregations: the scatter-add starts from the zero array -/

/-- The zero word broadcast over an array is the zero array. -/
theorem zeros_eq {t : Shape} (h : S_.BroadcastsInDim t ![]) :
    broadcastInDim t ![] h (constant (F := Ideal) S_ .f32 0x00000000#32) = fun _ => (0 : EReal) := by
  funext j
  exact Ideal.ofBits_zero_f32

theorem agg128_eq (m : FVec Ideal S100000x128 .f32) (gi si : IVec S1600000x1 32) :
    Host.scatterAdd scatter_S100000x128_S1600000x1_S1600000x128_1_0_0_1
        (broadcastInDim S100000x128 ![] bcast_S_S100000x128 (constant S_ .f32 0x00000000#32)) si
        (Host.gather gather_S100000x128_S1600000x1_S1600000x128_1_0_n_n_0_1_1128 m gi)
      = Cert.Spec.agg gather_S100000x128_S1600000x1_S1600000x128_1_0_n_n_0_1_1128
          scatter_S100000x128_S1600000x1_S1600000x128_1_0_0_1 m gi si := by
  unfold Cert.Spec.agg Host.scatterAdd
  rw [Ideal.hostScatterAdd_def, zeros_eq]

theorem agg64_eq (m : FVec Ideal S100000x64 .f32) (gi si : IVec S1600000x1 32) :
    Host.scatterAdd scatter_S100000x64_S1600000x1_S1600000x64_1_0_0_1
        (broadcastInDim S100000x64 ![] bcast_S_S100000x64 (constant S_ .f32 0x00000000#32)) si
        (Host.gather gather_S100000x64_S1600000x1_S1600000x64_1_0_n_n_0_1_164 m gi)
      = Cert.Spec.agg gather_S100000x64_S1600000x1_S1600000x64_1_0_n_n_0_1_164
          scatter_S100000x64_S1600000x1_S1600000x64_1_0_0_1 m gi si := by
  unfold Cert.Spec.agg Host.scatterAdd
  rw [Ideal.hostScatterAdd_def, zeros_eq]

/-! ## The two bias additions: a vector laid along the columns -/

/-- A vector laid along the second axis of a rectangle, through a one-row matrix, reads at an index the vector
    at the index's column. -/
theorem bcastRow_apply {α : Type} {n c : Nat} (h₁ : (⟨1, ![c]⟩ : Shape).BroadcastsInDim ⟨2, ![1, c]⟩ ![1])
    (h₂ : (⟨2, ![1, c]⟩ : Shape).BroadcastsInDim ⟨2, ![n, c]⟩ ![0, 1]) (v : (⟨1, ![c]⟩ : Shape).Idx → α)
    (i : (⟨2, ![n, c]⟩ : Shape).Idx) :
    broadcastInDim ⟨2, ![n, c]⟩ ![0, 1] h₂ (broadcastInDim ⟨2, ![1, c]⟩ ![1] h₁ v) i = v (ix1 (Cert.Spec.c1 i)) := by
  have h := bcast_cols h₁ h₂ v (Cert.Spec.c0 i) (Cert.Spec.c1 i)
  rw [show ij (Cert.Spec.c0 i) (Cert.Spec.c1 i) = i from ij_eta i] at h
  rw [h]
  exact congrArg v (funext fun a => by
    have ha : a = 0 := Subsingleton.elim _ _
    subst ha; rfl)

theorem addRow128_eq (a : FVec Ideal S100000x128 .f32) (b : FVec Ideal S128 .f32) :
    addf a (broadcastInDim S100000x128 ![0, 1] bcast_S1x128_S100000x128_0_1
        (broadcastInDim S1x128 ![1] bcast_S128_S1x128_1 b)) = Cert.Spec.addRow a b := by
  funext i
  rw [addf_apply, bcastRow_apply]
  rfl

theorem addRow64_eq (a : FVec Ideal S100000x64 .f32) (b : FVec Ideal S64 .f32) :
    addf a (broadcastInDim S100000x64 ![0, 1] bcast_S1x64_S100000x64_0_1
        (broadcastInDim S1x64 ![1] bcast_S64_S1x64_1 b)) = Cert.Spec.addRow a b := by
  funext i
  rw [addf_apply, bcastRow_apply]
  rfl

/-! ## One normalising layer

Read at an index (row r, column q): the mean is the column's sum over the row count; the callee recomputes that
mean, takes each entry's deviation from it, and divides the sum of the squared deviations by the row count less
the converted integer zero, which is the row count; its guard compares that divisor with zero and holds, so the
select keeps the quotient and the constant it would otherwise return is never read. -/

theorem hostRsqrt_apply {s : Shape} (x : FVec Ideal s .f32) (j : s.Idx) : Host.rsqrt x j = Ideal.rsqrt (x j) := rfl
theorem hostDivf_apply {s : Shape} (x y : FVec Ideal s .f32) (j : s.Idx) : Host.divf x y j = Ideal.div (x j) (y j) := rfl

/-- A rectangle from a one-row matrix reads, at an index, the row at the index's column. -/
theorem bcastOfRow_apply {α : Type} {n c : Nat} (h₂ : (⟨2, ![1, c]⟩ : Shape).BroadcastsInDim ⟨2, ![n, c]⟩ ![0, 1])
    (v : (⟨2, ![1, c]⟩ : Shape).Idx → α) (i : (⟨2, ![n, c]⟩ : Shape).Idx) :
    broadcastInDim ⟨2, ![n, c]⟩ ![0, 1] h₂ v i = v (ix2 (0 : Fin 1) (Cert.Spec.c1 i)) := by
  have h := bcast_of_row h₂ v (Cert.Spec.c0 i) (Cert.Spec.c1 i)
  rw [show ij (Cert.Spec.c0 i) (Cert.Spec.c1 i) = i from ij_eta i] at h
  rw [h]
  exact congrArg v (funext fun a => by match a with | ⟨0, _⟩ => rfl | ⟨1, _⟩ => rfl)

/-- A vector as a one-row matrix reads, at (0, q), the vector at q. -/
theorem bcastRow1_apply {α : Type} {c : Nat} (h₁ : (⟨1, ![c]⟩ : Shape).BroadcastsInDim ⟨2, ![1, c]⟩ ![1])
    (v : (⟨1, ![c]⟩ : Shape).Idx → α) (q : Fin c) :
    broadcastInDim ⟨2, ![1, c]⟩ ![1] h₁ v (ix2 (0 : Fin 1) q) = v (ix1 q) := by
  have h := bcast_row1 h₁ v q
  rw [show i1q q = ix2 (0 : Fin 1) q from funext fun a => by match a with | ⟨0, _⟩ => rfl | ⟨1, _⟩ => rfl] at h
  rw [h]
  exact congrArg v (funext fun a => by
    have ha : a = 0 := Subsingleton.elim _ _
    subst ha; rfl)

/-- The sum over the rows from the zero word, read at a column, is the column's sum. -/
theorem colSum_apply (x : FVec Ideal S100000x128 .f32) (j : S128.Idx) :
    Host.reduceAdd x (constant (F := Ideal) S_ .f32 0x00000000#32) reducesTo_S100000x128_S128_d0 h_S_ j
      = Cert.Spec.colSum x (j 0) := by
  show Ideal.hostReduceAdd reducesTo_S100000x128_S128_d0 x (Ideal.ofBits .f32 0x00000000#32) j = _
  rw [Ideal.hostReduceAdd_single _ (by decide : S100000x128.Reduces [0] S128), Ideal.ofBits_zero_f32, zero_add]
  unfold Cert.Spec.colSum
  refine Finset.sum_congr rfl fun r _ => congrArg x (funext fun a => Fin.ext ?_)
  match a with
  | ⟨0, _⟩ => rfl
  | ⟨1, _⟩ => rfl

/-- The callee's divisor: the printed row count less the converted integer zero is the row count. -/
theorem divisor_eq (k : S_.Idx) :
    subf (constant (F := Ideal) S_ .f32 0x47C35000#32) (sitofp .f32 (constantI S_ 32 0#32)) k = Cert.Spec.nRows := by
  show Ideal.ofBits .f32 0x47C35000#32 - (((0#32 : BitVec 32).toInt : ℝ) : EReal) = Cert.Spec.nRows
  have h0 : (0#32 : BitVec 32).toInt = 0 := by decide
  rw [h0, Int.cast_zero, EReal.coe_zero, sub_zero]
  rfl

/-- The row count is a positive number, so the callee's guard on its divisor holds. -/
theorem guard_eq (k : S_.Idx) :
    cmpf (F := Ideal) .ogt (subf (constant S_ .f32 0x47C35000#32) (sitofp .f32 (constantI S_ 32 0#32)))
      (constant S_ .f32 0x00000000#32) k = 1#1 := by
  rw [cmpf_apply, divisor_eq, constant_apply, Ideal.ofBits_zero_f32]
  have h : (0 : EReal) < Cert.Spec.nRows := by
    rw [Cert.Spec.nRows_eq]
    exact_mod_cast (by norm_num : (0 : ℝ) < 100000)
  show BitVec.ofBool (decide ((0 : EReal) < Cert.Spec.nRows)) = 1#1
  rw [decide_eq_true h]
  rfl

/-! The printed broadcasts, each at its own shapes and evidence, read at an index. -/

theorem rowOver_apply {α : Type} (v : S128.Idx → α) (i : S100000x128.Idx) :
    broadcastInDim S100000x128 ![0, 1] bcast_S1x128_S100000x128_0_1 (broadcastInDim S1x128 ![1] bcast_S128_S1x128_1 v) i
      = v (ix1 (Cert.Spec.c1 i)) := bcastRow_apply _ _ v i
theorem ofRow_apply {α : Type} (v : S1x128.Idx → α) (i : S100000x128.Idx) :
    broadcastInDim S100000x128 ![0, 1] bcast_S1x128_S100000x128_0_1 v i = v (ix2 (0 : Fin 1) (Cert.Spec.c1 i)) :=
  bcastOfRow_apply _ v i
theorem asRow_apply {α : Type} (v : S128.Idx → α) (q : Fin 128) :
    broadcastInDim S1x128 ![1] bcast_S128_S1x128_1 v (ix2 (0 : Fin 1) q) = v (ix1 q) := bcastRow1_apply _ v q
theorem scalarOver128_apply {α : Type} (v : S_.Idx → α) (j : S128.Idx) :
    broadcastInDim S128 ![] bcast_S_S128 v j = v ix0 := (bcast_scalar _ h_S_ v j).trans (congrArg v (eq_ix0 _))
theorem scalarOver1x128_apply {α : Type} (v : S_.Idx → α) (j : S1x128.Idx) :
    broadcastInDim S1x128 ![] bcast_S_S1x128 v j = v ix0 := (bcast_scalar _ h_S_ v j).trans (congrArg v (eq_ix0 _))
theorem scalarOverAll_apply {α : Type} (v : S_.Idx → α) (j : S100000x128.Idx) :
    broadcastInDim S100000x128 ![] bcast_S_S100000x128 v j = v ix0 := (bcast_scalar _ h_S_ v j).trans (congrArg v (eq_ix0 _))

/-- The callee's deviations: each entry less its column's mean. -/
theorem dev_eq (a : FVec Ideal S100000x128 .f32) :
    subf a
        (broadcastInDim S100000x128 ![0, 1] bcast_S1x128_S100000x128_0_1
          (Host.divf
            (broadcastInDim S1x128 ![1] bcast_S128_S1x128_1
              (Host.reduceAdd a (constant S_ .f32 0x00000000#32) reducesTo_S100000x128_S128_d0 h_S_))
            (broadcastInDim S1x128 ![] bcast_S_S1x128 (constant S_ .f32 0x47C35000#32))))
      = fun i => a i - Cert.Spec.meanOf a (Cert.Spec.c1 i) := by
  funext i
  rw [subf_apply, ofRow_apply, hostDivf_apply, asRow_apply, colSum_apply, scalarOver1x128_apply, constant_apply]
  rfl

/-- One normalising layer of the reference, operation by operation as printed: from the biased aggregate `a`
    the column means (a sum over the rows from the zero word, divided by the row count), the column variances
    (the callee: the same mean once more, the deviations, their squares, the sum of those divided by the row
    count less the converted integer zero, kept where that divisor is positive), then centre, multiply by the
    reciprocal square root of variance plus offset, scale by `g`, shift by `be`, add `xin`, clip below at zero. -/
noncomputable def refBn (a : FVec Ideal S100000x128 .f32) (g be : FVec Ideal S128 .f32)
    (xin : FVec Ideal S100000x128 .f32) : FVec Ideal S100000x128 .f32 :=
  maximumf
    (addf
      (addf
        (mulf
          (mulf
            (subf a
              (broadcastInDim S100000x128 ![0, 1] bcast_S1x128_S100000x128_0_1
                (broadcastInDim S1x128 ![1] bcast_S128_S1x128_1
                  (Host.divf
                    (Host.reduceAdd a (constant S_ .f32 0x00000000#32) reducesTo_S100000x128_S128_d0 h_S_)
                    (broadcastInDim S128 ![] bcast_S_S128 (constant S_ .f32 0x47C35000#32))))))
            (broadcastInDim S100000x128 ![0, 1] bcast_S1x128_S100000x128_0_1
              (broadcastInDim S1x128 ![1] bcast_S128_S1x128_1
                (Host.rsqrt
                  (addf
                    (select
                      (broadcastInDim S128 ![] bcast_S_S128
                        (cmpf (F := Ideal) .ogt
                          (subf (constant S_ .f32 0x47C35000#32) (sitofp .f32 (constantI S_ 32 0#32)))
                          (constant S_ .f32 0x00000000#32)))
                      (Host.divf
                        (Host.reduceAdd
                          (mulf
                            (subf a
                              (broadcastInDim S100000x128 ![0, 1] bcast_S1x128_S100000x128_0_1
                                (Host.divf
                                  (broadcastInDim S1x128 ![1] bcast_S128_S1x128_1
                                    (Host.reduceAdd a (constant S_ .f32 0x00000000#32) reducesTo_S100000x128_S128_d0 h_S_))
                                  (broadcastInDim S1x128 ![] bcast_S_S1x128 (constant S_ .f32 0x47C35000#32)))))
                            (subf a
                              (broadcastInDim S100000x128 ![0, 1] bcast_S1x128_S100000x128_0_1
                                (Host.divf
                                  (broadcastInDim S1x128 ![1] bcast_S128_S1x128_1
                                    (Host.reduceAdd a (constant S_ .f32 0x00000000#32) reducesTo_S100000x128_S128_d0 h_S_))
                                  (broadcastInDim S1x128 ![] bcast_S_S1x128 (constant S_ .f32 0x47C35000#32))))))
                          (constant S_ .f32 0x00000000#32) reducesTo_S100000x128_S128_d0 h_S_)
                        (broadcastInDim S128 ![] bcast_S_S128
                          (subf (constant S_ .f32 0x47C35000#32) (sitofp .f32 (constantI S_ 32 0#32)))))
                      (broadcastInDim S128 ![] bcast_S_S128 (id (constant S_ .f32 0x7FC00000#32))))
                    (broadcastInDim S128 ![] bcast_S_S128 (constant S_ .f32 0x3727C5AC#32)))))))
          (broadcastInDim S100000x128 ![0, 1] bcast_S1x128_S100000x128_0_1
            (broadcastInDim S1x128 ![1] bcast_S128_S1x128_1 g)))
        (broadcastInDim S100000x128 ![0, 1] bcast_S1x128_S100000x128_0_1
          (broadcastInDim S1x128 ![1] bcast_S128_S1x128_1 be)))
      xin)
    (broadcastInDim S100000x128 ![] bcast_S_S100000x128 (constant S_ .f32 0x00000000#32))

theorem refBn_eq (a : FVec Ideal S100000x128 .f32) (g be : FVec Ideal S128 .f32)
    (xin : FVec Ideal S100000x128 .f32) : refBn a g be xin = Cert.Spec.bn Cert.Spec.varR a g be xin := by
  funext i
  unfold refBn
  simp only [maximumf_apply, addf_apply, mulf_apply, subf_apply]
  -- the clip's zero, and the four vectors laid along the columns
  rw [scalarOverAll_apply, constant_apply, Ideal.ofBits_zero_f32]
  rw [rowOver_apply, rowOver_apply, rowOver_apply, rowOver_apply]
  -- the column's mean
  rw [hostDivf_apply, colSum_apply, scalarOver128_apply, constant_apply]
  -- the column's variance under the guard, plus the offset, under the reciprocal square root
  rw [hostRsqrt_apply, addf_apply, select_apply, hostDivf_apply]
  rw [scalarOver128_apply, scalarOver128_apply, scalarOver128_apply, scalarOver128_apply]
  rw [guard_eq, select_one, divisor_eq, dev_eq, colSum_apply, constant_apply]
  rfl

end Cert.ReferenceIdeal.RefValue

end
-- ==== Proof.RefValue.lean ====
/-
  The reference's run, read: from any memory, every execution ends with the result array at the network of
  Spec.lean at the second form of the variance (the mean of squared deviations), applied to the arguments.

  The operation list is read piece by piece, each piece from ARBITRARY contents: a layer's aggregate piece
  leaves its result at the printed tree `aggT` of what it reads, a normalising piece at the printed tree `bnT`,
  and every piece leaves the thirteen arguments (and the aggregate pieces the previous layer's output) as they
  were. Chaining the five readings gives the result as a nest of those trees over the launch contents; at the
  ideal instance each tree is the corresponding function of Spec.lean.
-/
import proofs.«406583_j75179107549523_3_alg».proof.Proof.Gen.ReferenceIdeal
import proofs.«406583_j75179107549523_3_alg».proof.Proof.Spec
import proofs.«406583_j75179107549523_3_alg».proof.Proof.RefIdx
import proofs.«406583_j75179107549523_3_alg».proof.Proof.RefRun
import proofs.«406583_j75179107549523_3_alg».proof.Proof.RefStages
import Idealize.ShloMosaic.Lib.StableHlo.Run
import Idealize.ShloMosaic.Lib.Pipeline.Frame

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

section Trees

variable {F : FTy → Type} [FloatOps F]

/-! ## The printed operation trees of the stages, for any float values -/

/-- One hidden layer's aggregate with its bias row, operation by operation as printed. -/
def aggT (x : FVec F S100000x128 .f32) (w : FVec F S128x128 .f32) (src dst : IVec S1600000 32) (b : FVec F S128 .f32) :
    FVec F S100000x128 .f32 :=
  addf (Host.scatterAdd scatter_S100000x128_S1600000x1_S1600000x128_1_0_0_1
      (broadcastInDim S100000x128 ![] bcast_S_S100000x128 (constant S_ .f32 0x00000000#32)) (siR dst)
      (Host.gather gather_S100000x128_S1600000x1_S1600000x128_1_0_n_n_0_1_1128
        (Host.dotGeneral dot_S100000x128_S128x128_S100000x128_1_0_0_1_n_n none x w) (giR src)))
    (broadcastInDim S100000x128 ![0, 1] bcast_S1x128_S100000x128_0_1 (broadcastInDim S1x128 ![1] bcast_S128_S1x128_1 b))

/-- The last layer's aggregate with its bias row, operation by operation as printed. -/
def aggT64 (x : FVec F S100000x128 .f32) (w : FVec F S128x64 .f32) (src dst : IVec S1600000 32) (b : FVec F S64 .f32) :
    FVec F S100000x64 .f32 :=
  addf (Host.scatterAdd scatter_S100000x64_S1600000x1_S1600000x64_1_0_0_1
      (broadcastInDim S100000x64 ![] bcast_S_S100000x64 (constant S_ .f32 0x00000000#32)) (siR dst)
      (Host.gather gather_S100000x64_S1600000x1_S1600000x64_1_0_n_n_0_1_164
        (Host.dotGeneral dot_S100000x128_S128x64_S100000x64_1_0_0_1_n_n none x w) (giR src)))
    (broadcastInDim S100000x64 ![0, 1] bcast_S1x64_S100000x64_0_1 (broadcastInDim S1x64 ![1] bcast_S64_S1x64_1 b))

/-- One normalising layer, operation by operation as printed, from the biased aggregate `a`: the column means,
    the column variances (the callee's own mean, the squared deviations, their sum over the row count less the
    converted integer zero, kept where that divisor is positive), then centre, multiply by the reciprocal square
    root of variance plus offset, scale, shift, add the residual, clip below at zero. -/
def bnT (a : FVec F S100000x128 .f32) (g be : FVec F S128 .f32) (xin : FVec F S100000x128 .f32) :
    FVec F S100000x128 .f32 :=
  maximumf
    (addf
      (addf
        (mulf
          (mulf
            (subf a
              (broadcastInDim S100000x128 ![0, 1] bcast_S1x128_S100000x128_0_1
                (broadcastInDim S1x128 ![1] bcast_S128_S1x128_1
                  (Host.divf
                    (Host.reduceAdd a (constant S_ .f32 0x00000000#32) reducesTo_S100000x128_S128_d0 h_S_)
                    (broadcastInDim S128 ![] bcast_S_S128 (constant S_ .f32 0x47C35000#32))))))
            (broadcastInDim S100000x128 ![0, 1] bcast_S1x128_S100000x128_0_1
              (broadcastInDim S1x128 ![1] bcast_S128_S1x128_1
                (Host.rsqrt
                  (addf
                    (select
                      (broadcastInDim S128 ![] bcast_S_S128
                        (cmpf (F := F) .ogt
                          (subf (constant S_ .f32 0x47C35000#32) (sitofp .f32 (constantI S_ 32 0#32)))
                          (constant S_ .f32 0x00000000#32)))
                      (Host.divf
                        (Host.reduceAdd
                          (mulf
                            (subf a
                              (broadcastInDim S100000x128 ![0, 1] bcast_S1x128_S100000x128_0_1
                                (Host.divf
                                  (broadcastInDim S1x128 ![1] bcast_S128_S1x128_1
                                    (Host.reduceAdd a (constant S_ .f32 0x00000000#32) reducesTo_S100000x128_S128_d0 h_S_))
                                  (broadcastInDim S1x128 ![] bcast_S_S1x128 (constant S_ .f32 0x47C35000#32)))))
                            (subf a
                              (broadcastInDim S100000x128 ![0, 1] bcast_S1x128_S100000x128_0_1
                                (Host.divf
                                  (broadcastInDim S1x128 ![1] bcast_S128_S1x128_1
                                    (Host.reduceAdd a (constant S_ .f32 0x00000000#32) reducesTo_S100000x128_S128_d0 h_S_))
                                  (broadcastInDim S1x128 ![] bcast_S_S1x128 (constant S_ .f32 0x47C35000#32))))))
                          (constant S_ .f32 0x00000000#32) reducesTo_S100000x128_S128_d0 h_S_)
                        (broadcastInDim S128 ![] bcast_S_S128
                          (subf (constant S_ .f32 0x47C35000#32) (sitofp .f32 (constantI S_ 32 0#32)))))
                      (broadcastInDim S128 ![] bcast_S_S128 (id (constant S_ .f32 0x7FC00000#32))))
                    (broadcastInDim S128 ![] bcast_S_S128 (constant S_ .f32 0x3727C5AC#32)))))))
          (broadcastInDim S100000x128 ![0, 1] bcast_S1x128_S100000x128_0_1
            (broadcastInDim S1x128 ![1] bcast_S128_S1x128_1 g)))
        (broadcastInDim S100000x128 ![0, 1] bcast_S1x128_S100000x128_0_1
          (broadcastInDim S1x128 ![1] bcast_S128_S1x128_1 be)))
      xin)
    (broadcastInDim S100000x128 ![] bcast_S_S100000x128 (constant S_ .f32 0x00000000#32))

/-- The whole network as the nest of the printed trees. -/
def netT (x : FVec F S100000x128 .f32) (src dst : IVec S1600000 32) (w0 : FVec F S128x128 .f32) (b0 : FVec F S128 .f32)
    (w1 : FVec F S128x128 .f32) (b1 : FVec F S128 .f32) (w2 : FVec F S128x64 .f32) (b2 : FVec F S64 .f32)
    (g0 be0 g1 be1 : FVec F S128 .f32) : FVec F S100000x64 .f32 :=
  aggT64 (bnT (aggT (bnT (aggT x w0 src dst b0) g0 be0 x) w1 src dst b1) g1 be1 (bnT (aggT x w0 src dst b0) g0 be0 x))
    w2 src dst b2

/-! ## Each piece read, from any contents -/

theorem readA1 (W : Valuation τ sig (Elt F)) :
    after opsA1 W (Proc.devRef .tc main_v13)
      = aggT (W (Proc.devRef .tc main_arg0)) (W (Proc.devRef .tc main_arg3)) (W (Proc.devRef .tc main_arg1)) (W (Proc.devRef .tc main_arg2)) (W (Proc.devRef .tc main_arg4)) := by
  after_results_simp
  rfl

set_option maxHeartbeats 4000000 in
theorem readA2 (W : Valuation τ sig (Elt F)) :
    after opsA2 W (Proc.devRef .tc main_v34)
      = bnT (W (Proc.devRef .tc main_v13)) (W (Proc.devRef .tc main_arg9)) (W (Proc.devRef .tc main_arg10)) (W (Proc.devRef .tc main_arg0)) := by
  after_results_simp
  rfl

theorem readB1 (W : Valuation τ sig (Elt F)) :
    after opsB1 W (Proc.devRef .tc main_v48)
      = aggT (W (Proc.devRef .tc main_v34)) (W (Proc.devRef .tc main_arg5)) (W (Proc.devRef .tc main_arg1)) (W (Proc.devRef .tc main_arg2)) (W (Proc.devRef .tc main_arg6)) := by
  after_results_simp
  rfl

theorem keepB1 (W : Valuation τ sig (Elt F)) : after opsB1 W (Proc.devRef .tc main_v34) = W (Proc.devRef .tc main_v34) := by
  after_results_simp

set_option maxHeartbeats 4000000 in
theorem readB3 (W : Valuation τ sig (Elt F)) :
    after opsB3 (after opsB2 W) (Proc.devRef .tc main_v69)
      = bnT (W (Proc.devRef .tc main_v48)) (W (Proc.devRef .tc main_arg11)) (W (Proc.devRef .tc main_arg12)) (W (Proc.devRef .tc main_v34)) := by
  after_results_simp
  rfl

theorem readC (W : Valuation τ sig (Elt F)) :
    after opsC W (Proc.devRef .tc main_v83)
      = aggT64 (W (Proc.devRef .tc main_v69)) (W (Proc.devRef .tc main_arg7)) (W (Proc.devRef .tc main_arg1)) (W (Proc.devRef .tc main_arg2)) (W (Proc.devRef .tc main_arg8)) := by
  after_results_simp
  rfl

/-! ## The arguments, kept by every piece -/

/-- @main's thirteen arguments. -/
def argRefs : List (Ref sig .tc) :=
  [main_arg0, main_arg1, main_arg2, main_arg3, main_arg4, main_arg5, main_arg6, main_arg7, main_arg8, main_arg9, main_arg10, main_arg11, main_arg12]

/-- A list of operations that leaves reference `r` as it was, from any contents. -/
def Keeps (l : List (HloOp τ sig (Elt F))) (r : Ref sig .tc) : Prop :=
  ∀ W : Valuation τ sig (Elt F), after l W (Proc.devRef .tc r) = W (Proc.devRef .tc r)

theorem Keeps.append {l₁ l₂ : List (HloOp τ sig (Elt F))} {r : Ref sig .tc} (h₁ : Keeps l₁ r) (h₂ : Keeps l₂ r) :
    Keeps (l₁ ++ l₂) r := fun W => by rw [after_append, h₂, h₁]

set_option maxHeartbeats 4000000 in
theorem keeps_opsA1 (r : Ref sig .tc) (hr : r ∈ argRefs) : Keeps (opsA1 (F := F)) r := by
  intro W
  simp only [argRefs, List.mem_cons, List.not_mem_nil, or_false] at hr
  rcases hr with rfl | rfl | rfl | rfl | rfl | rfl | rfl | rfl | rfl | rfl | rfl | rfl | rfl <;> after_results_simp

set_option maxHeartbeats 4000000 in
theorem keeps_opsA2 (r : Ref sig .tc) (hr : r ∈ argRefs) : Keeps (opsA2 (F := F)) r := by
  intro W
  simp only [argRefs, List.mem_cons, List.not_mem_nil, or_false] at hr
  rcases hr with rfl | rfl | rfl | rfl | rfl | rfl | rfl | rfl | rfl | rfl | rfl | rfl | rfl <;> after_results_simp

set_option maxHeartbeats 4000000 in
theorem keeps_opsB1 (r : Ref sig .tc) (hr : r ∈ argRefs) : Keeps (opsB1 (F := F)) r := by
  intro W
  simp only [argRefs, List.mem_cons, List.not_mem_nil, or_false] at hr
  rcases hr with rfl | rfl | rfl | rfl | rfl | rfl | rfl | rfl | rfl | rfl | rfl | rfl | rfl <;> after_results_simp

set_option maxHeartbeats 4000000 in
theorem keeps_opsB2 (r : Ref sig .tc) (hr : r ∈ argRefs) : Keeps (opsB2 (F := F)) r := by
  intro W
  simp only [argRefs, List.mem_cons, List.not_mem_nil, or_false] at hr
  rcases hr with rfl | rfl | rfl | rfl | rfl | rfl | rfl | rfl | rfl | rfl | rfl | rfl | rfl <;> after_results_simp

set_option maxHeartbeats 4000000 in
theorem keeps_opsB3 (r : Ref sig .tc) (hr : r ∈ argRefs) : Keeps (opsB3 (F := F)) r := by
  intro W
  simp only [argRefs, List.mem_cons, List.not_mem_nil, or_false] at hr
  rcases hr with rfl | rfl | rfl | rfl | rfl | rfl | rfl | rfl | rfl | rfl | rfl | rfl | rfl <;> after_results_simp

set_option maxHeartbeats 4000000 in
theorem keeps_opsC (r : Ref sig .tc) (hr : r ∈ argRefs) : Keeps (opsC (F := F)) r := by
  intro W
  simp only [argRefs, List.mem_cons, List.not_mem_nil, or_false] at hr
  rcases hr with rfl | rfl | rfl | rfl | rfl | rfl | rfl | rfl | rfl | rfl | rfl | rfl | rfl <;> after_results_simp

/-- The whole list leaves every argument as it was. -/
theorem keeps_ops (r : Ref sig .tc) (hr : r ∈ argRefs) : Keeps (ops (F := F)) r :=
  (keeps_opsA1 r hr).append ((keeps_opsA2 r hr).append ((keeps_opsB1 r hr).append ((keeps_opsB2 r hr).append
    ((keeps_opsB3 r hr).append (keeps_opsC r hr)))))

theorem mem0 : main_arg0 ∈ argRefs := by simp only [argRefs, List.mem_cons, true_or, or_true]
theorem mem1 : main_arg1 ∈ argRefs := by simp only [argRefs, List.mem_cons, true_or, or_true]
theorem mem2 : main_arg2 ∈ argRefs := by simp only [argRefs, List.mem_cons, true_or, or_true]
theorem mem3 : main_arg3 ∈ argRefs := by simp only [argRefs, List.mem_cons, true_or, or_true]
theorem mem4 : main_arg4 ∈ argRefs := by simp only [argRefs, List.mem_cons, true_or, or_true]
theorem mem5 : main_arg5 ∈ argRefs := by simp only [argRefs, List.mem_cons, true_or, or_true]
theorem mem6 : main_arg6 ∈ argRefs := by simp only [argRefs, List.mem_cons, true_or, or_true]
theorem mem7 : main_arg7 ∈ argRefs := by simp only [argRefs, List.mem_cons, true_or, or_true]
theorem mem8 : main_arg8 ∈ argRefs := by simp only [argRefs, List.mem_cons, true_or, or_true]
theorem mem9 : main_arg9 ∈ argRefs := by simp only [argRefs, List.mem_cons, true_or, or_true]
theorem mem10 : main_arg10 ∈ argRefs := by simp only [argRefs, List.mem_cons, true_or, or_true]
theorem mem11 : main_arg11 ∈ argRefs := by simp only [argRefs, List.mem_cons, true_or, or_true]
theorem mem12 : main_arg12 ∈ argRefs := by simp only [argRefs, List.mem_cons, true_or, or_true]

/-! ## The readings chained -/

set_option maxHeartbeats 1000000 in
/-- After the whole list, from any contents `V`, the result buffer holds the nest of the printed trees over `V` at
    the arguments. -/
theorem read_ops (V : Valuation τ sig (Elt F)) :
    after ops V (Proc.devRef .tc main_v83)
      = netT (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg9))
          (V (Proc.devRef .tc main_arg10)) (V (Proc.devRef .tc main_arg11)) (V (Proc.devRef .tc main_arg12)) := by
  simp only [ops, after_append]
  -- the contents after each piece, named; what each holds where a later piece reads it
  generalize h1 : after opsA1 V = V1
  have k1 : ∀ r ∈ argRefs, V1 (Proc.devRef .tc r) = V (Proc.devRef .tc r) := fun r hr => h1 ▸ keeps_opsA1 r hr V
  have e1 : V1 (Proc.devRef .tc main_v13) = aggT (V (Proc.devRef .tc main_arg0)) (V (Proc.devRef .tc main_arg3)) (V (Proc.devRef .tc main_arg1)) (V (Proc.devRef .tc main_arg2)) (V (Proc.devRef .tc main_arg4)) :=
    h1 ▸ readA1 V
  generalize h2 : after opsA2 V1 = V2
  have k2 : ∀ r ∈ argRefs, V2 (Proc.devRef .tc r) = V (Proc.devRef .tc r) :=
    fun r hr => (h2 ▸ keeps_opsA2 r hr V1).trans (k1 r hr)
  have e2 : V2 (Proc.devRef .tc main_v34) = bnT (aggT (V (Proc.devRef .tc main_arg0)) (V (Proc.devRef .tc main_arg3)) (V (Proc.devRef .tc main_arg1)) (V (Proc.devRef .tc main_arg2)) (V (Proc.devRef .tc main_arg4)))
      (V (Proc.devRef .tc main_arg9)) (V (Proc.devRef .tc main_arg10)) (V (Proc.devRef .tc main_arg0)) := by
    rw [← h2, readA2, e1, k1 _ mem9, k1 _ mem10, k1 _ mem0]
  generalize h3 : after opsB1 V2 = V3
  have k3 : ∀ r ∈ argRefs, V3 (Proc.devRef .tc r) = V (Proc.devRef .tc r) :=
    fun r hr => (h3 ▸ keeps_opsB1 r hr V2).trans (k2 r hr)
  have e3 : V3 (Proc.devRef .tc main_v34) = V2 (Proc.devRef .tc main_v34) := h3 ▸ keepB1 V2
  have e3' : V3 (Proc.devRef .tc main_v48) = aggT (V2 (Proc.devRef .tc main_v34)) (V (Proc.devRef .tc main_arg5)) (V (Proc.devRef .tc main_arg1)) (V (Proc.devRef .tc main_arg2)) (V (Proc.devRef .tc main_arg6)) := by
    rw [← h3, readB1, k2 _ mem5, k2 _ mem1, k2 _ mem2, k2 _ mem6]
  generalize h4 : after opsB3 (after opsB2 V3) = V4
  have k4 : ∀ r ∈ argRefs, V4 (Proc.devRef .tc r) = V (Proc.devRef .tc r) :=
    fun r hr => (h4 ▸ (keeps_opsB3 r hr (after opsB2 V3)).trans (keeps_opsB2 r hr V3)).trans (k3 r hr)
  have e4 : V4 (Proc.devRef .tc main_v69) = bnT (V3 (Proc.devRef .tc main_v48)) (V (Proc.devRef .tc main_arg11)) (V (Proc.devRef .tc main_arg12)) (V3 (Proc.devRef .tc main_v34)) := by
    rw [← h4, readB3, k3 _ mem11, k3 _ mem12]
  rw [readC, e4, e3', e3, e2, k4 _ mem7, k4 _ mem1, k4 _ mem2, k4 _ mem8]
  rfl

end Trees

/-! ## At the ideal instance: the trees are the functions of Spec.lean -/

theorem aggT_eq (x : FVec Ideal S100000x128 .f32) (w : FVec Ideal S128x128 .f32) (src dst : IVec S1600000 32)
    (b : FVec Ideal S128 .f32) :
    aggT x w src dst b
      = Cert.Spec.addRow (Cert.Spec.agg gather_S100000x128_S1600000x1_S1600000x128_1_0_n_n_0_1_1128
          scatter_S100000x128_S1600000x1_S1600000x128_1_0_0_1 (Cert.Spec.mm x w) (giR src) (siR dst)) b := by
  unfold aggT
  rw [dot128_eq, agg128_eq, addRow128_eq]

theorem aggT64_eq (x : FVec Ideal S100000x128 .f32) (w : FVec Ideal S128x64 .f32) (src dst : IVec S1600000 32)
    (b : FVec Ideal S64 .f32) :
    aggT64 x w src dst b
      = Cert.Spec.addRow (Cert.Spec.agg gather_S100000x64_S1600000x1_S1600000x64_1_0_n_n_0_1_164
          scatter_S100000x64_S1600000x1_S1600000x64_1_0_0_1 (Cert.Spec.mm x w) (giR src) (siR dst)) b := by
  unfold aggT64
  rw [dot64_eq, agg64_eq, addRow64_eq]

theorem bnT_eq (a : FVec Ideal S100000x128 .f32) (g be : FVec Ideal S128 .f32) (xin : FVec Ideal S100000x128 .f32) :
    bnT a g be xin = Cert.Spec.bn Cert.Spec.varR a g be xin :=
  (show bnT a g be xin = refBn a g be xin from rfl).trans (refBn_eq a g be xin)

/-- The nest of the printed trees is the network of Spec.lean at the mean of squared deviations. -/
theorem netT_eq (x : FVec Ideal S100000x128 .f32) (src dst : IVec S1600000 32) (w0 : FVec Ideal S128x128 .f32)
    (b0 : FVec Ideal S128 .f32) (w1 : FVec Ideal S128x128 .f32) (b1 : FVec Ideal S128 .f32) (w2 : FVec Ideal S128x64 .f32)
    (b2 : FVec Ideal S64 .f32) (g0 be0 g1 be1 : FVec Ideal S128 .f32) :
    netT x src dst w0 b0 w1 b1 w2 b2 g0 be0 g1 be1
      = Cert.Spec.net Cert.Spec.varR gather_S100000x128_S1600000x1_S1600000x128_1_0_n_n_0_1_1128 scatter_S100000x128_S1600000x1_S1600000x128_1_0_0_1
          gather_S100000x64_S1600000x1_S1600000x64_1_0_n_n_0_1_164 scatter_S100000x64_S1600000x1_S1600000x64_1_0_0_1
          x (giR src) (siR dst) w0 b0 w1 b1 w2 b2 g0 be0 g1 be1 := by
  unfold netT
  rw [aggT64_eq, bnT_eq, aggT_eq, bnT_eq, aggT_eq]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83)
        = Cert.Spec.net Cert.Spec.varR gather_S100000x128_S1600000x1_S1600000x128_1_0_n_n_0_1_1128 scatter_S100000x128_S1600000x1_S1600000x128_1_0_0_1
            gather_S100000x64_S1600000x1_S1600000x64_1_0_n_n_0_1_164 scatter_S100000x64_S1600000x1_S1600000x64_1_0_0_1
            (m ((c.tc : Thread nD τ).loc main_arg0)) (giR (m ((c.tc : Thread nD τ).loc main_arg1))) (siR (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v83).trans ((read_ops _).trans (netT_eq ..)),
      (h c main_arg0).trans (keeps_ops _ mem0 _),
      (h c main_arg1).trans (keeps_ops _ mem1 _),
      (h c main_arg2).trans (keeps_ops _ mem2 _),
      (h c main_arg3).trans (keeps_ops _ mem3 _),
      (h c main_arg4).trans (keeps_ops _ mem4 _),
      (h c main_arg5).trans (keeps_ops _ mem5 _),
      (h c main_arg6).trans (keeps_ops _ mem6 _),
      (h c main_arg7).trans (keeps_ops _ mem7 _),
      (h c main_arg8).trans (keeps_ops _ mem8 _),
      (h c main_arg9).trans (keeps_ops _ mem9 _),
      (h c main_arg10).trans (keeps_ops _ mem10 _),
      (h c main_arg11).trans (keeps_ops _ mem11 _),
      (h c main_arg12).trans (keeps_ops _ mem12 _)⟩)
    (run_raw m ρ)

end Cert.ReferenceIdeal.RefValue

end
-- ==== Proof.lean ====
/-
  The certificate of a three-layer graph network on 100000 nodes and 1600000 edges: a kernel program of six launches
  (projection; column statistics; normalise, add the residual, clip and project; statistics; the same again; bias)
  with the row lookup and the segment sum on the host between them, against a reference written with whole-array
  operations.

  Over the extended reals the two programs compute the network of Proof/Spec.lean. They differ in two places.
  The kernel program takes the variance of a column as the mean of the squares minus the square of the mean, from
  sums it adds up tile by tile; the reference takes the mean of the squared deviations. On real-valued columns
  these are one number (Proof/Algebra.lean), and the precondition makes every argument real-valued, which every
  stage preserves (Proof/Reals.lean). And the kernel program's row lookup replaces a row whose index is out of
  range by a fill value where the reference's lookup clamps the index: the precondition keeps every source index
  in range, where neither happens.

  The three frames are the generated frame certificates (the reference's: its run with the result dropped);
  the idealisation rewrote nothing, so the preservation claim is trivial.
-/
import proofs.«406583_j75179107549523_3_alg».proof.Defs
import proofs.«406583_j75179107549523_3_alg».proof.Proof.Gen.Kernel
import proofs.«406583_j75179107549523_3_alg».proof.Proof.Gen.Kernel.Frame
import proofs.«406583_j75179107549523_3_alg».proof.Proof.Gen.KernelIdeal
import proofs.«406583_j75179107549523_3_alg».proof.Proof.Gen.KernelIdeal.Frame
import proofs.«406583_j75179107549523_3_alg».proof.Proof.Gen.ReferenceIdeal
import proofs.«406583_j75179107549523_3_alg».proof.Proof.Gen.Pre_finite_inputs
import proofs.«406583_j75179107549523_3_alg».proof.Proof.Spec
import proofs.«406583_j75179107549523_3_alg».proof.Proof.Algebra
import proofs.«406583_j75179107549523_3_alg».proof.Proof.PreDecode
import proofs.«406583_j75179107549523_3_alg».proof.Proof.KernelRun
import proofs.«406583_j75179107549523_3_alg».proof.Proof.KernelChain
import proofs.«406583_j75179107549523_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The two programs name the same dimension numbers and build the same index columns. -/
theorem gather128_eq : Cert.KernelIdeal.gather_S100000x128_S1600000x1_S1600000x128_1_0_n_n_0_1_1128 = Cert.ReferenceIdeal.gather_S100000x128_S1600000x1_S1600000x128_1_0_n_n_0_1_1128 := rfl
theorem scatter128_eq : Cert.KernelIdeal.scatter_S100000x128_S1600000x1_S1600000x128_1_0_0_1 = Cert.ReferenceIdeal.scatter_S100000x128_S1600000x1_S1600000x128_1_0_0_1 := rfl
theorem gather64_eq : Cert.KernelIdeal.gather_S100000x64_S1600000x1_S1600000x64_1_0_n_n_0_1_164 = Cert.ReferenceIdeal.gather_S100000x64_S1600000x1_S1600000x64_1_0_n_n_0_1_164 := rfl
theorem scatter64_eq : Cert.KernelIdeal.scatter_S100000x64_S1600000x1_S1600000x64_1_0_0_1 = Cert.ReferenceIdeal.scatter_S100000x64_S1600000x1_S1600000x64_1_0_0_1 := rfl
theorem gi_eq (src : IVec Cert.KernelIdeal.S1600000 32) : Cert.KernelIdeal.Val.giK src = Cert.ReferenceIdeal.RefValue.giR src := rfl
theorem si_eq (dst : IVec Cert.KernelIdeal.S1600000 32) : Cert.KernelIdeal.Val.siK dst = Cert.ReferenceIdeal.RefValue.siR dst := rfl

/-- Both programs end with the network of the arguments: the kernel program at the first form of the variance
    (the source indices being in range), the reference at the second, and the two forms agree on real-valued
    arguments. -/
theorem algebraic : Cert.algebraic_KernelIdeal_ReferenceIdeal := by
  intro m ρ m' ρ' hpre hagree
  refine ⟨fun c => Cert.Spec.net Cert.Spec.varK Cert.KernelIdeal.gather_S100000x128_S1600000x1_S1600000x128_1_0_n_n_0_1_1128 Cert.KernelIdeal.scatter_S100000x128_S1600000x1_S1600000x128_1_0_0_1 Cert.KernelIdeal.gather_S100000x64_S1600000x1_S1600000x64_1_0_n_n_0_1_164 Cert.KernelIdeal.scatter_S100000x64_S1600000x1_S1600000x64_1_0_0_1
      (m ((c.tc : Thread Cert.KernelIdeal.nD Cert.KernelIdeal.τ).loc Cert.KernelIdeal.main_arg0)) (Cert.KernelIdeal.Val.giK (m ((c.tc : Thread Cert.KernelIdeal.nD Cert.KernelIdeal.τ).loc Cert.KernelIdeal.main_arg1))) (Cert.KernelIdeal.Val.siK (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩) (Cert.KernelIdeal.Gen.run_out m ρ)
    exact Cert.KernelIdeal.Val.out_at14 m ρ c (Cert.PreDecode.of_pre _ _ _ _ _ _ _ _ _ _ _ _ _ (hpre c)).2.2.2.2.2.2.2.2.2.2.2
  · refine (θ_run Cert.ReferenceIdeal.defs _ _).mono (fun r h c => ⟨(h c).1.trans ?_, (h c).2⟩) (Cert.ReferenceIdeal.RefValue.run m' ρ')
    obtain ⟨e0, e1, e2, e3, e4, e5, e6, e7, e8, e9, e10, e11, e12⟩ := hagree c
    obtain ⟨hx, hW0, hb0, hW1, hb1, hW2, hb2, hg0, hbe0, hg1, hbe1, -⟩ := Cert.PreDecode.of_pre _ _ _ _ _ _ _ _ _ _ _ _ _ (hpre c)
    rw [e0, e1, e2, e3, e4, e5, e6, e7, e8, e9, e10, e11, e12, ← gather128_eq, ← scatter128_eq, ← gather64_eq, ← scatter64_eq, ← gi_eq, ← si_eq]
    exact (Cert.Spec.net_varK_eq_varR _ _ _ _ _ _ _ _ _ _ _ _ _ _ _ _ _ hx hW0 hb0 hW1 hb1 hg0 hbe0 hg1 hbe1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
